-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S100000 : Shape := ⟨1, ![100000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_arg1 : IVec S1600000 32) (main_v48 : IVec S_ 1) (main_v50 : IVec S64 1) : IVec S_ 1 :=
  let main_c_19 : IVec S_ 1 := constantI S_ 1 1#1
  let main_v51 : IVec S_ 1 := (fun x v => Host.reduce IntOp.andi x v reducesTo_S64_S_d0 h_S_) main_v50 main_c_19
  let main_v52 : IVec S_ 1 := andi main_v48 main_v51
  let main_c_20 : IVec S_ 32 := constantI S_ 32 0#32
  let main_v53 : IVec S1600000 32 := broadcastInDim S1600000 ![] bcast_S_S1600000 main_c_20
  let main_v54 : IVec S1600000 1 := cmpi .sge main_arg1 main_v53
  let main_c_21 : IVec S_ 32 := constantI S_ 32 100000#32
  let main_v55 : IVec S1600000 32 := broadcastInDim S1600000 ![] bcast_S_S1600000 main_c_21
  let main_v56 : IVec S1600000 1 := cmpi .slt main_arg1 main_v55
  let main_v57 : IVec S1600000 1 := andi main_v54 main_v56
  let main_c_22 : IVec S_ 1 := constantI S_ 1 1#1
  let main_v58 : IVec S_ 1 := (fun x v => Host.reduce IntOp.andi x v reducesTo_S1600000_S_d0 h_S_) main_v57 main_c_22
  let main_v59 : IVec S_ 1 := andi main_v52 main_v58
  main_v59

def fn_part2 {F : FTy → Type} [FloatOps F] (main_arg1 : IVec S1600000 32) (main_arg9 : FVec F S64 .f32) (main_arg10 : FVec F S64 .f32) (main_arg11 : FVec F S64x1 .f32) (main_arg12 : FVec F S1 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg11
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg12
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_cst_18 : FVec F S_ .f32 := constant S_ .f32 0x00000000#32
  let main_v49 : FVec F S64 .f32 := broadcastInDim S64 ![] bcast_S_S64 main_cst_18
  let main_v50 : IVec S64 1 := cmpf .oge main_arg9 main_v49
  fn_part3 (F := F) main_arg1 main_v48 main_v50

def fn_part1 {F : FTy → Type} [FloatOps F] (main_arg1 : IVec S1600000 32) (main_arg7 : FVec F S64 .f32) (main_arg8 : FVec F S64 .f32) (main_arg9 : FVec F S64 .f32) (main_arg10 : FVec F S64 .f32) (main_arg11 : FVec F S64x1 .f32) (main_arg12 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg9 main_arg10 main_arg11 main_arg12 main_v33

def fn {F : FTy → Type} [FloatOps F] (main_arg0 : FVec F S100000x64 .f32) (main_arg1 : IVec S1600000 32) (main_arg2 : IVec S1600000 32) (main_arg3 : IVec S100000 32) (main_arg4 : FVec F S64x64 .f32) (main_arg5 : FVec F S64 .f32) (main_arg6 : FVec F S64 .f32) (main_arg7 : FVec F S64 .f32) (main_arg8 : FVec F S64 .f32) (main_arg9 : FVec F S64 .f32) (main_arg10 : FVec F S64 .f32) (main_arg11 : FVec F S64x1 .f32) (main_arg12 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg4
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg7 main_arg8 main_arg9 main_arg10 main_arg11 main_arg12 main_v13 main_v16
-- ==== Kernel.lean ====
abbrev S100000x64 : Shape := ⟨2, ![100000, 64]⟩
abbrev S1600000 : Shape := ⟨1, ![1600000]⟩
abbrev S100000 : Shape := ⟨1, ![100000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩
abbrev S1x64 : Shape := ⟨2, ![1, 64]⟩
abbrev S5000x64 : Shape := ⟨2, ![5000, 64]⟩
abbrev S1600000x1 : Shape := ⟨2, ![1600000, 1]⟩
abbrev S1x1 : Shape := ⟨2, ![1, 1]⟩
abbrev S1600000x64 : Shape := ⟨2, ![1600000, 64]⟩
abbrev S20x1x5000 : Shape := ⟨3, ![20, 1, 5000]⟩
abbrev S2x128x64 : Shape := ⟨3, ![2, 128, 64]⟩
abbrev S1x1x5000 : Shape := ⟨3, ![1, 1, 5000]⟩
abbrev S1x128x64 : Shape := ⟨3, ![1, 128, 64]⟩
abbrev S128x64 : Shape := ⟨2, ![128, 64]⟩
abbrev S1x5000 : Shape := ⟨2, ![1, 5000]⟩
abbrev S128x5000 : Shape := ⟨2, ![128, 5000]⟩
abbrev S128x1 : Shape := ⟨2, ![128, 1]⟩

abbrev nBuf : Space → Nat
  | .hbm => 62
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S1x64, .f32⟩
  | .hbm, ⟨19, _⟩ => ⟨S64x64, .f32⟩
  | .hbm, ⟨20, _⟩ => ⟨S64x64, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S1x64, .f32⟩
  | .hbm, ⟨25, _⟩ => ⟨S100000x64, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1, .i32⟩
  | .hbm, ⟨35, _⟩ => ⟨S_, .i32⟩
  | .hbm, ⟨36, _⟩ => ⟨S1600000x1, .i32⟩
  | .hbm, ⟨37, _⟩ => ⟨S1600000x1, .i1⟩
  | .hbm, ⟨38, _⟩ => ⟨S1x1, .i32⟩
  | .hbm, ⟨39, _⟩ => ⟨S1600000x1, .i32⟩
  | .hbm, ⟨40, _⟩ => ⟨S1600000x1, .i1⟩
  | .hbm, ⟨41, _⟩ => ⟨S1600000x1, .i1⟩
  | .hbm, ⟨42, _⟩ => ⟨S_, .i1⟩
  | .hbm, ⟨43, _⟩ => ⟨S1600000, .i1⟩
  | .hbm, ⟨44, _⟩ => ⟨S1600000x64, .f32⟩
  | .hbm, ⟨45, _⟩ => ⟨S1600000x64, .i1⟩
  | .hbm, ⟨46, _⟩ => ⟨S_, .f32⟩
  | .hbm, ⟨47, _⟩ => ⟨S1600000x64, .f32⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S20x1x5000, .i32⟩
  | .hbm, ⟨54, _⟩ => ⟨S1x64, .f32⟩
  | .hbm, ⟨55, _⟩ => ⟨S2x128x64, .f32⟩
  | .hbm, ⟨56, _⟩ => ⟨S_, .f32⟩
  | .hbm, ⟨57, _⟩ => ⟨S128x64, .f32⟩
  | .hbm, ⟨58, _⟩ => ⟨S128x1, .f32⟩
  | .hbm, ⟨59, _⟩ => ⟨S1x1, .f32⟩
  | .hbm, ⟨60, _⟩ => ⟨S128x1, .f32⟩
  | .hbm, ⟨61, _⟩ => ⟨S128x1, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S1x1x5000, .i32⟩
  | .local _ .vmem, ⟨9, _⟩ => ⟨S1x1x5000, .i32⟩
  | .local _ .vmem, ⟨10, _⟩ => ⟨S1x64, .f32⟩
  | .local _ .vmem, ⟨11, _⟩ => ⟨S1x128x64, .f32⟩
  | .local _ .vmem, ⟨12, _⟩ => ⟨S1x128x64, .f32⟩
  | .local _ .vmem, ⟨13, _⟩ => ⟨S128x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v12 : Ref sig .tc := ⟨.hbm, 48, rfl⟩
abbrev main_cst_0 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_cst_1 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 10], ![false, false]⟩

def k1_cond2 (i : grid1.Coords) : BitVec 1 :=
  let arg1 : BitVec 32 := BitVec.ofNat 32 (i 1).val
  let c9_i32 : BitVec 32 := 9#32
  let v28 : BitVec 1 := Scalar.cmpi .eq arg1 c9_i32
  let v29 : BitVec 32 := Scalar.extui v28
  let c0_i32_12 : BitVec 32 := 0#32
  let v30 : BitVec 1 := Scalar.cmpi .ne v29 c0_i32_12
  v30

def cc1_transform_0 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x5000 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x128x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S64 : S_.BroadcastsInDim S64 (![] : Fin 0 → Fin S64.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  shapeCasts_S100000_S20x1x5000 : S100000.ShapeCasts S20x1x5000
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S5000x64_S5000x64 : S5000x64.ShapeCasts S5000x64
  inb_S1x1x5000_S1x1x5000_0_0_0 : ∀ a, (![0, 0, 0] : Fin 3 → Nat) a + S1x1x5000.size a ≤ S1x1x5000.size a
  h_S1x1x5000 : 0 < S1x1x5000.numel
  shapeCasts_S1x1x5000_S1x5000 : S1x1x5000.ShapeCasts S1x5000
  shapeCasts_S1x5000_S1x5000 : S1x5000.ShapeCasts S1x5000
  broadcasts_S1x5000_S128x5000 : S1x5000.Broadcasts S128x5000
  iota_S128x5000_d0_w32 : S128x5000.Iotas .tc 32 [0]
  natLt_1_32 : 1 < 32
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  shapeCasts_S128x64_S1x128x64 : S128x64.ShapeCasts S1x128x64
  reducesTo_S2x128x64_S128x64_d0 : S2x128x64.ReducesTo [0] S128x64
  bcast_S1x1_S128x1_0_1 : S1x1.BroadcastsInDim S128x1 (![0, 1] : Fin 2 → Fin S128x1.rank)
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S128x5000_S5000x64_S128x64_1_0_0_1_n_n_wf : DotDims.WF S128x5000 S5000x64 S128x64 [1] [0] [0] [1] [] []
  dot_S128x64_S64x1_S128x1_1_0_0_1_n_n_wf : DotDims.WF S128x64 S64x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x5000.size a ≤ S20x1x5000.size a
  hwx1_1 : ∀ i : grid1.Coords, EltTy.bits .i32 = 32 ∨ (Rect.block (s := S20x1x5000) S1x1x5000.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x64.size a ≤ S2x128x64.size a
  hwx1_3 : ∀ i : grid1.Coords, EltTy.bits .f32 = 32 ∨ (Rect.block (s := S2x128x64) S1x128x64.size (cc1_transform_3 i) (hinb1_3 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S128x5000_S5000x64_S128x64_1_0_0_1_n_n : DotDims S128x5000 S5000x64 S128x64 where
  lhsContracting := [1]
  rhsContracting := [0]
  lhsNonContracting := [0]
  rhsNonContracting := [1]
  lhsBatch := []
  rhsBatch := []
  wf := dot_S128x5000_S5000x64_S128x64_1_0_0_1_n_n_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x1x5000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x128x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S100000x64 : Shape := ⟨2, ![100000, 64]⟩
abbrev S1600000 : Shape := ⟨1, ![1600000]⟩
abbrev S100000 : Shape := ⟨1, ![100000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x64 : Shape := ⟨2, ![1, 64]⟩
abbrev S_ : Shape := ⟨0, ![]⟩
abbrev S1600000x1 : Shape := ⟨2, ![1600000, 1]⟩
abbrev S1600000x64 : Shape := ⟨2, ![1600000, 64]⟩
abbrev S128x64 : Shape := ⟨2, ![128, 64]⟩
abbrev S100000x1 : Shape := ⟨2, ![100000, 1]⟩
abbrev S128x1 : Shape := ⟨2, ![128, 1]⟩
abbrev S1x1 : Shape := ⟨2, ![1, 1]⟩

abbrev nBuf : Space → Nat
  | .hbm => 61
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S100000x64, .f32⟩
  | .hbm, ⟨14, _⟩ => ⟨S1x64, .f32⟩
  | .hbm, ⟨15, _⟩ => ⟨S100000x64, .f32⟩
  | .hbm, ⟨16, _⟩ => ⟨S100000x64, .f32⟩
  | .hbm, ⟨17, _⟩ => ⟨S1x64, .f32⟩
  | .hbm, ⟨18, _⟩ => ⟨S100000x64, .f32⟩
  | .hbm, ⟨19, _⟩ => ⟨S100000x64, .f32⟩
  | .hbm, ⟨20, _⟩ => ⟨S1x64, .f32⟩
  | .hbm, ⟨21, _⟩ => ⟨S100000x64, .f32⟩
  | .hbm, ⟨22, _⟩ => ⟨S100000x64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S1x64, .f32⟩
  | .hbm, ⟨31, _⟩ => ⟨S100000x64, .f32⟩
  | .hbm, ⟨32, _⟩ => ⟨S100000x64, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .i1⟩
  | .hbm, ⟨49, _⟩ => ⟨S1x64, .f32⟩
  | .hbm, ⟨50, _⟩ => ⟨S100000x64, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S128x64, .f32⟩
  | .hbm, ⟨55, _⟩ => ⟨S100000x1, .i32⟩
  | .hbm, ⟨56, _⟩ => ⟨S128x64, .f32⟩
  | .hbm, ⟨57, _⟩ => ⟨S128x1, .f32⟩
  | .hbm, ⟨58, _⟩ => ⟨S1x1, .f32⟩
  | .hbm, ⟨59, _⟩ => ⟨S128x1, .f32⟩
  | .hbm, ⟨60, _⟩ => ⟨S128x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_1 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S128x64 : S_.BroadcastsInDim S128x64 (![] : Fin 0 → Fin S128x64.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S128x64_S100000x1_S100000x64_1_0_0_1_wf : ScatterDims.WF S128x64 S100000x1 S100000x64 [1] [0] [0] 1
  dot_S128x64_S64x1_S128x1_1_0_0_1_n_n_wf : DotDims.WF S128x64 S64x1 S128x1 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf

class Facts : Prop extends Facts₀ where

variable [Facts]
-- ==== Proof.Region0.lean ====
/-
  The first pallas_call (the linear layer with the batch norm folded into its weight and bias), as one region of
  the program's run, at the buffer contents `V` the region is entered with: what each grid point's body finds in
  its three input blocks, that it leaves in the output block `rows · weight + bias row` (the body's one store,
  covering the block), and the pipeline's proof data saying so at every point.
-/
import proofs.«425288_j64493228916781_3_alg».proof.Proof.Gen.KernelIdeal.Launch
import proofs.«425288_j64493228916781_3_alg».proof.Proof.Gen.KernelIdeal.Skeleton
import proofs.«425288_j64493228916781_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the pipeline fetched it there or the
    block index has not moved since it was fetched. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each buffer whole. -/
abbrev r0_x : Rect S5000x64 := Rect.unit (s := S5000x64) ![0, 0] S5000x64.size inb_S5000x64_S5000x64_0_0
abbrev r0_w : Rect S64x64 := Rect.unit (s := S64x64) ![0, 0] S64x64.size inb_S64x64_S64x64_0_0
abbrev r0_b : Rect S1x64 := Rect.unit (s := S1x64) ![0, 0] S1x64.size inb_S1x64_S1x64_0_0

/-- What the body leaves in the output block: its one store, of the rows times the weight plus the bias row. -/
def out0_3 (x0 : Vec F S5000x64 .f32) (x1 : Vec F S64x64 .f32) (x2 : Vec F S1x64 .f32) : Vec F S5000x64 .f32 :=
  View.canon [⟨r0_x, k0_pay1 (View.ld x0 r0_x) (View.ld x1 r0_w) (View.ld x2 r0_b)⟩]

/-- The store covers the block. -/
theorem cover0_3 (p0 : Vec F S5000x64 .f32) (y : S5000x64.Idx) :
    ∃ pc ∈ ([⟨r0_x, p0⟩] : List (View.Piece (Elt F) S5000x64 .f32)), y ∈ pc.1.set :=
  View.cover_of_tiled [⟨r0_x, p0⟩] S5000x64.size (by rfl) y

set_option maxHeartbeats 1000000 in
/-- The body on whole staging memrefs: the inputs kept, the output at `out0_3` of the inputs. -/
theorem sound_kernel0 (c : Dev nD) (E : Set ℕ) (i : grid0.Coords) (arg1 : Memref sig .tc .vmem S5000x64 .f32) (harg1 : arg1.IsWhole)
    (arg2 : Memref sig .tc .vmem S64x64 .f32) (harg2 : arg2.IsWhole) (arg3 : Memref sig .tc .vmem S1x64 .f32) (harg3 : arg3.IsWhole)
    (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_bn_kernel i arg1 harg1 arg2 harg2 arg3 harg3 arg4 harg4) K := by
  simp only [cc0__linear_bn_kernel_eq_skeleton]; unfold cc0__linear_bn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core `c`: the arrays as the region finds them; after the body each input's buffer
    at its block and the output's at `out0_3` of the input blocks; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1Runs.lean ====
/-
  The second pallas_call (PReLU, then the per-graph pooling as a one-hot product accumulated over the blocks of
  a TensorCore's half of the nodes), as one region of the program's run: the grid's two branch conditions in
  closed form (the accumulator is reset at the first of a core's ten steps and written out at the last), where
  the output window is idle, and the body's run in each of the three cases the grid meets.
-/
import proofs.«425288_j64493228916781_3_alg».proof.Proof.Gen.KernelIdeal.Launch
import proofs.«425288_j64493228916781_3_alg».proof.Proof.Gen.KernelIdeal.Skeleton
import proofs.«425288_j64493228916781_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditionals, over the grid -/

/-- "this is the first step of the core's row": the accumulator is reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)
/-- "this is the last step of the core's row": the accumulator is written to the output block. -/
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated. -/
abbrev VO1_3 : View sig .tc .vmem S1x128x64 .f32 := (Memref.whole cc1_stg3_0 : Memref sig .tc .vmem S1x128x64 .f32).view
abbrev ms1_0 (t : Fin cfg1.N) : Memref sig .tc .vmem S5000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x5000 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128x64 .f32 := win1_3.stage (cfg1.slots t 3)
abbrev hs1_3 (t : Fin cfg1.N) : (ms1_3 t).IsWhole := hstage1_3 ((cfg1.slots t 3).cast nbuf1_3)
/-- The scratch accumulator: a whole scoped buffer of the kernel's own, carried from point to point. -/
abbrev scM1_0 : Memref sig .tc .vmem S128x64 .f32 := Memref.whole cc1_scratch0
abbrev VS1_0 : View sig .tc .vmem S128x64 .f32 := scM1_0.view

/-- The scoped buffers that are not this region's staging buffers, with the scratch accumulator in state `S`: the
    first region's six staging buffers at some contents beside it. -/
def restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- The region's class invariant, with the scratch accumulator as a memref owned at some contents. -/
theorem PhiA1_eq (c : Dev nD) :
    (Pipeline.ΦA spec1 c : sProp 𝕄)
      = iprop(restWith c (iprop(∃ d, owns (c : Thread nD τ) scM1_0 fullShare d)) ∗ (∃ r, prngReg c r)) := by
  unfold Pipeline.ΦA restWith; rw [scopedRest1_eq]; simp only [scM1_0, owns_whole]; try rfl

/-! ## The body's three runs -/

set_option maxHeartbeats 2000000 in
/-- The body's run in case A of its two conditionals, on whole staging memrefs: the pieces its stores leave in the
    output block and in the scratch accumulator are found by the run itself. -/
noncomputable def kernelRun1_A (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : cond1_0 i) (hc1 : ¬cond1_1 i)
    (x0 : Vec F S5000x64 .f32) (x1 : Vec F S1x1x5000 .i32) (x2 : Vec F S1x64 .f32) :
    Σ' (L3 : List (View.Piece (Elt F) S1x128x64 .f32)), { LS0 : List (View.Piece (Elt F) S128x64 .f32) //
      ∀ (xi3 : Vec F S1x128x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__prelu_pool_kernel i arg2 harg2 arg3 harg3 arg4 harg4 arg5 harg5 arg6 harg6) K } := by
  refine ⟨[], ?_, fun xi3 E K => ?run⟩
  case run =>
    simp only [cc1__prelu_pool_kernel_eq_skeleton]; unfold cc1__prelu_pool_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 2000000 in
/-- The body's run in case B of its two conditionals, on whole staging memrefs: the pieces its stores leave in the
    output block and in the scratch accumulator are found by the run itself. -/
noncomputable def kernelRun1_B (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : ¬cond1_0 i) (hc1 : ¬cond1_1 i)
    (x0 : Vec F S5000x64 .f32) (x1 : Vec F S1x1x5000 .i32) (x2 : Vec F S1x64 .f32) (xs0 : Vec F S128x64 .f32) :
    Σ' (L3 : List (View.Piece (Elt F) S1x128x64 .f32)), { LS0 : List (View.Piece (Elt F) S128x64 .f32) //
      ∀ (xi3 : Vec F S1x128x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__prelu_pool_kernel i arg2 harg2 arg3 harg3 arg4 harg4 arg5 harg5 arg6 harg6) K } := by
  refine ⟨[], ?_, fun xi3 E K => ?run⟩
  case run =>
    simp only [cc1__prelu_pool_kernel_eq_skeleton]; unfold cc1__prelu_pool_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 2000000 in
/-- The body's run in case C of its two conditionals, on whole staging memrefs: the pieces its stores leave in the
    output block and in the scratch accumulator are found by the run itself. -/
noncomputable def kernelRun1_C (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : ¬cond1_0 i) (hc1 : cond1_1 i)
    (x0 : Vec F S5000x64 .f32) (x1 : Vec F S1x1x5000 .i32) (x2 : Vec F S1x64 .f32) (xs0 : Vec F S128x64 .f32) :
    Σ' (L3 : List (View.Piece (Elt F) S1x128x64 .f32)), { LS0 : List (View.Piece (Elt F) S128x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__prelu_pool_kernel i arg2 harg2 arg3 harg3 arg4 harg4 arg5 harg5 arg6 harg6) K } := by
  refine ⟨?_, ?_, fun E K => ?run⟩
  case run =>
    simp only [cc1__prelu_pool_kernel_eq_skeleton]; unfold cc1__prelu_pool_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.Region1.lean ====
/-
  The second pallas_call as one region of the program's run, at the buffer contents `V` the region is entered
  with: what the output block and the scratch accumulator hold after every grid point (by recursion on the point:
  the case the point is in, over what the point before left in the accumulator), the region's invariant carrying
  the accumulator at those contents, the pipeline's proof data, and the body obligation at every point.
-/
import proofs.«425288_j64493228916781_3_alg».proof.Proof.Region1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output window's staging buffer: its pieces read back (none: the window is idle there, a placeholder nothing consults). -/
def out1_A_3 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : cond1_0 i) (hc1 : ¬cond1_1 i)
    (x0 : Vec F S5000x64 .f32) (x1 : Vec F S1x1x5000 .i32) (x2 : Vec F S1x64 .f32) : Vec F S1x128x64 .f32 :=
  VO1_3.read (Elt F) (VO1_3.writes (Elt F) VO1_3.junk (kernelRun1_A c i arg2 harg2 arg3 harg3 arg4 harg4 arg5 harg5 arg6 harg6 hc0 hc1 x0 x1 x2).1)

/-- Case A's pieces for the scratch accumulator cover it. -/
theorem scover1_A_0 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : cond1_0 i) (hc1 : ¬cond1_1 i)
    (x0 : Vec F S5000x64 .f32) (x1 : Vec F S1x1x5000 .i32) (x2 : Vec F S1x64 .f32) (y : S128x64.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S128x64.size (by sl_kernel_rfl) y

/-- What case A leaves in the scratch accumulator: its pieces read back. -/
def sout1_A_0 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : cond1_0 i) (hc1 : ¬cond1_1 i)
    (x0 : Vec F S5000x64 .f32) (x1 : Vec F S1x1x5000 .i32) (x2 : Vec F S1x64 .f32) : Vec F S128x64 .f32 :=
  VS1_0.read (Elt F) (VS1_0.writes (Elt F) VS1_0.junk (kernelRun1_A c i arg2 harg2 arg3 harg3 arg4 harg4 arg5 harg5 arg6 harg6 hc0 hc1 x0 x1 x2).2.1)

/-- What case B leaves in the output window's staging buffer: its pieces read back (none: the window is idle there, a placeholder nothing consults). -/
def out1_B_3 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : ¬cond1_0 i) (hc1 : ¬cond1_1 i)
    (x0 : Vec F S5000x64 .f32) (x1 : Vec F S1x1x5000 .i32) (x2 : Vec F S1x64 .f32) (xs0 : Vec F S128x64 .f32) : Vec F S1x128x64 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's pieces for the scratch accumulator cover it. -/
theorem scover1_B_0 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : ¬cond1_0 i) (hc1 : ¬cond1_1 i)
    (x0 : Vec F S5000x64 .f32) (x1 : Vec F S1x1x5000 .i32) (x2 : Vec F S1x64 .f32) (xs0 : Vec F S128x64 .f32) (y : S128x64.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S128x64.size (by sl_kernel_rfl) y

/-- What case B leaves in the scratch accumulator: its pieces read back. -/
def sout1_B_0 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : ¬cond1_0 i) (hc1 : ¬cond1_1 i)
    (x0 : Vec F S5000x64 .f32) (x1 : Vec F S1x1x5000 .i32) (x2 : Vec F S1x64 .f32) (xs0 : Vec F S128x64 .f32) : Vec F S128x64 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's pieces for the output block cover it. -/
theorem cover1_C_3 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : ¬cond1_0 i) (hc1 : cond1_1 i)
    (x0 : Vec F S5000x64 .f32) (x1 : Vec F S1x1x5000 .i32) (x2 : Vec F S1x64 .f32) (xs0 : Vec F S128x64 .f32) (y : S1x128x64.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1x128x64.size (by sl_kernel_rfl) y

/-- What case C leaves in the output window's staging buffer: its pieces read back. -/
def out1_C_3 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : ¬cond1_0 i) (hc1 : cond1_1 i)
    (x0 : Vec F S5000x64 .f32) (x1 : Vec F S1x1x5000 .i32) (x2 : Vec F S1x64 .f32) (xs0 : Vec F S128x64 .f32) : Vec F S1x128x64 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's pieces for the scratch accumulator cover it. -/
theorem scover1_C_0 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : ¬cond1_0 i) (hc1 : cond1_1 i)
    (x0 : Vec F S5000x64 .f32) (x1 : Vec F S1x1x5000 .i32) (x2 : Vec F S1x64 .f32) (xs0 : Vec F S128x64 .f32) (y : S128x64.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S128x64.size (by sl_kernel_rfl) y

/-- What case C leaves in the scratch accumulator: its pieces read back. -/
def sout1_C_0 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : ¬cond1_0 i) (hc1 : cond1_1 i)
    (x0 : Vec F S5000x64 .f32) (x1 : Vec F S1x1x5000 .i32) (x2 : Vec F S1x64 .f32) (xs0 : Vec F S128x64 .f32) : Vec F S128x64 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output block and the accumulator hold after each point -/

/-- After the body at position `n`: (the output window's staging buffer, the scratch accumulator). -/
def outsAt1 (c : Dev nD) : (n : ℕ) → n < cfg1.N → Vec F S1x128x64 .f32 × Vec F S128x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 10 = 0 then
      if h1 : (n + 1) % 10 = 9 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 10 = 9 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 10 = 0) (h1 : ¬t.val % 10 = 9) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 10 = 0) (h1 : ¬t.val % 10 = 9) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 10 = 0) (h1 : t.val % 10 = 9) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at anything);
    afterwards the same with the accumulator at what the point before left in it. -/
def PhiS (c : Dev nD) : (n : ℕ) → n ≤ cfg1.N → sProp 𝕄
  | 0, _ => Pipeline.ΦA spec1 c
  | n + 1, hn => iprop(restWith c (owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restWith c (owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(restWith c (owns (c : Thread nD τ) scM1_0 fullShare ((outsAt1 V c (n - 1) (by omega)).2)) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 20 := lt_of_lt_of_eq t.isLt (show cfg1.N = 20 from N_1)
  by_cases h0 : t.val % 10 = 0
  · have h1 : ¬t.val % 10 = 9 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold sout1_A_0; (try dsimp only)
    have hrun := (kernelRun1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)).2.2
    by_cases hz : t.val = 0
    · rw [PhiS_castSucc V c t, PhiS_zero V c _ _ hz, PhiA1_eq]
      unfold restWith
      iintro ⟨⟨⟨R1, R2, R3, R4, R5, R6, HS0⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [R1 R2 R3 R4 R5 R6 HS0 Hg]
      · isplitl [R1 R2 R3 R4 R5 R6 HS0]
        · isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      unfold restWith
      iintro ⟨⟨⟨R1, R2, R3, R4, R5, R6, HS0⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [R1 R2 R3 R4 R5 R6 HS0 Hg]
      · isplitl [R1 R2 R3 R4 R5 R6 HS0]
        · isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 10 = 9
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      have hrun := (kernelRun1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2).2.2
      rw [PhiS_castSucc V c t, PhiS_pos V c _ _ hz]
      unfold restWith
      iintro ⟨⟨⟨R1, R2, R3, R4, R5, R6, HS0⟩, Hg⟩, Ho, ⟨%d0, H0⟩, ⟨%d1, H1⟩, ⟨%d2, H2⟩, ⟨%d3, H3⟩⟩
      iapply (hrun Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [R1 R2 R3 R4 R5 R6 HS0 Hg]
      · isplitl [R1 R2 R3 R4 R5 R6 HS0]
        · isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact View.read_writes_of_cover _ _ _ _ _ (scover1_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      have hrun := (kernelRun1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2).2.2
      rw [PhiS_castSucc V c t, PhiS_pos V c _ _ hz]
      unfold restWith
      iintro ⟨⟨⟨R1, R2, R3, R4, R5, R6, HS0⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [R1 R2 R3 R4 R5 R6 HS0 Hg]
      · isplitl [R1 R2 R3 R4 R5 R6 HS0]
        · isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact View.read_writes_of_cover _ _ _ _ _ (scover1_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 20 := N_1; omega), PhiA1_eq]
  unfold restWith
  iintro ⟨⟨R1, R2, R3, R4, R5, R6, HS0⟩, Hg⟩
  isplitl [R1 R2 R3 R4 R5 R6 HS0]
  · isplitl [R1]; · iexact R1
    isplitl [R2]; · iexact R2
    isplitl [R3]; · iexact R3
    isplitl [R4]; · iexact R4
    isplitl [R5]; · iexact R5
    isplitl [R6]; · iexact R6
    iexists _; iexact HS0
  iexact Hg

end Cert.KernelIdeal.Hand

end
-- ==== Proof.Run.lean ====
/-
  The program's run from launch to return: @main as six segments (a stretch of host operations, the first
  pallas_call, two stretches, the second pallas_call, a last stretch), the buffer contents at every segment boundary
  as a fold from the launch memory (a stretch applies its operations; a region leaves its arrays at what its
  pipeline's write-backs fold to and every other buffer as entered), and the run itself: every weakly fair execution
  terminates with every unscoped buffer at the last boundary's contents.
-/
import proofs.«425288_j64493228916781_3_alg».proof.Proof.Region0
import proofs.«425288_j64493228916781_3_alg».proof.Proof.Region1
import proofs.«425288_j64493228916781_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev W4 : Dev nD → Valuation τ sig (Elt F) := fun c => StableHlo.after hostOps1_1 (W3 m c)
abbrev V4 : (c : Dev nD) → (b : Ref sig .tc) → Buf (Elt F) ((c : Thread nD τ).loc b) := fun c b => W4 m c b
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)
abbrev W6 : Dev nD → Valuation τ sig (Elt F) := fun c => StableHlo.after hostOps2 (W5 m c)

/-! ## A buffer nothing writes reaches the end as launched -/

theorem W6_of (c : Dev nD) (b : Ref sig .tc) (h0 : b ∉ hostOps0_W) (h1 : b ∉ hostOps1_W) (h11 : b ∉ hostOps1_1_W) (h2 : b ∉ hostOps2_W)
    (hr0 : ∀ w, Pipeline.arrRef spec0 w ≠ b) (hr1 : ∀ w, Pipeline.arrRef spec1 w ≠ b) :
    W6 m c (Proc.devRef .tc b) = m ((c : Thread nD τ).loc b) :=
  calc W6 m c (Proc.devRef .tc b)
    _ = W5 m c (Proc.devRef .tc b) := StableHlo.after_of_writes_sub hostOps2 _ hostOps2_writes h2
    _ = W4 m c (Proc.devRef .tc b) := W5_of_ne m c b hr1
    _ = W3 m c (Proc.devRef .tc b) := StableHlo.after_of_writes_sub hostOps1_1 _ hostOps1_1_writes h11
    _ = W2 m c (Proc.devRef .tc b) := StableHlo.after_of_writes_sub hostOps1 _ hostOps1_writes h1
    _ = W1 m c (Proc.devRef .tc b) := W2_of_ne m c b hr0
    _ = W0 m c (Proc.devRef .tc b) := StableHlo.after_of_writes_sub hostOps0 _ hostOps0_writes h0
    _ = m ((c : Thread nD τ).loc b) := rfl

/-- The node features are the first region's first input window: an input's array is left as entered. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps2 _ hostOps2_writes (by decide)
    _ = W4 m c (Proc.devRef .tc main_arg0) := W5_of_ne m c main_arg0 (by decide)
    _ = W3 m c (Proc.devRef .tc main_arg0) := StableHlo.after_of_writes_sub hostOps1_1 _ hostOps1_1_writes (by decide)
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V4 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W4`, left at `W5`. Its arrays are
    split out of the unscoped buffers and put back at the exit contents; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h1 : (pdats m 1 c).Φ (Fin.last _) ⊢ (Pipeline.ΦA spec1 c : sProp 𝕄) := hout1 (V4 m) c
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact h1.trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .region (reg1 m),
    .host (hseg hostOps2 hostOps2_sub hostOps2_fresh (W5 m)) ]

set_option backward.isDefEq.respectTransparency.types false in
/-- THE RUN: from any memory with zero counters, every weakly fair execution of @main terminates, nothing faulting,
    and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W6_main_arg0 m c),
      (h c _ (mem_uc main_arg1 (by decide))).trans (W6_of m c main_arg1 (by decide) (by decide) (by decide) (by decide) (by decide) (by decide)),
      (h c _ (mem_uc main_arg2 (by decide))).trans (W6_of m c main_arg2 (by decide) (by decide) (by decide) (by decide) (by decide) (by decide)),
      (h c _ (mem_uc main_arg3 (by decide))).trans (W6_of m c main_arg3 (by decide) (by decide) (by decide) (by decide) (by decide) (by decide)),
      (h c _ (mem_uc main_arg4 (by decide))).trans (W6_of m c main_arg4 (by decide) (by decide) (by decide) (by decide) (by decide) (by decide)),
      (h c _ (mem_uc main_arg5 (by decide))).trans (W6_of m c main_arg5 (by decide) (by decide) (by decide) (by decide) (by decide) (by decide)),
      (h c _ (mem_uc main_arg6 (by decide))).trans (W6_of m c main_arg6 (by decide) (by decide) (by decide) (by decide) (by decide) (by decide)),
      (h c _ (mem_uc main_arg7 (by decide))).trans (W6_of m c main_arg7 (by decide) (by decide) (by decide) (by decide) (by decide) (by decide)),
      (h c _ (mem_uc main_arg8 (by decide))).trans (W6_of m c main_arg8 (by decide) (by decide) (by decide) (by decide) (by decide) (by decide)),
      (h c _ (mem_uc main_arg9 (by decide))).trans (W6_of m c main_arg9 (by decide) (by decide) (by decide) (by decide) (by decide) (by decide)),
      (h c _ (mem_uc main_arg10 (by decide))).trans (W6_of m c main_arg10 (by decide) (by decide) (by decide) (by decide) (by decide) (by decide)),
      (h c _ (mem_uc main_arg11 (by decide))).trans (W6_of m c main_arg11 (by decide) (by decide) (by decide) (by decide) (by decide) (by decide)),
      (h c _ (mem_uc main_arg12 (by decide))).trans (W6_of m c main_arg12 (by decide) (by decide) (by decide) (by decide) (by decide) (by decide))⟩) (run_all m ρ)

/-- The run with the result named: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v23) = W6 m c main_v23
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v23 (by decide)),
      (h c _ (mem_uc main_arg0 (by decide))).trans (W6_main_arg0 m c),
      (h c _ (mem_uc main_arg1 (by decide))).trans (W6_of m c main_arg1 (by decide) (by decide) (by decide) (by decide) (by decide) (by decide)),
      (h c _ (mem_uc main_arg2 (by decide))).trans (W6_of m c main_arg2 (by decide) (by decide) (by decide) (by decide) (by decide) (by decide)),
      (h c _ (mem_uc main_arg3 (by decide))).trans (W6_of m c main_arg3 (by decide) (by decide) (by decide) (by decide) (by decide) (by decide)),
      (h c _ (mem_uc main_arg4 (by decide))).trans (W6_of m c main_arg4 (by decide) (by decide) (by decide) (by decide) (by decide) (by decide)),
      (h c _ (mem_uc main_arg5 (by decide))).trans (W6_of m c main_arg5 (by decide) (by decide) (by decide) (by decide) (by decide) (by decide)),
      (h c _ (mem_uc main_arg6 (by decide))).trans (W6_of m c main_arg6 (by decide) (by decide) (by decide) (by decide) (by decide) (by decide)),
      (h c _ (mem_uc main_arg7 (by decide))).trans (W6_of m c main_arg7 (by decide) (by decide) (by decide) (by decide) (by decide) (by decide)),
      (h c _ (mem_uc main_arg8 (by decide))).trans (W6_of m c main_arg8 (by decide) (by decide) (by decide) (by decide) (by decide) (by decide)),
      (h c _ (mem_uc main_arg9 (by decide))).trans (W6_of m c main_arg9 (by decide) (by decide) (by decide) (by decide) (by decide) (by decide)),
      (h c _ (mem_uc main_arg10 (by decide))).trans (W6_of m c main_arg10 (by decide) (by decide) (by decide) (by decide) (by decide) (by decide)),
      (h c _ (mem_uc main_arg11 (by decide))).trans (W6_of m c main_arg11 (by decide) (by decide) (by decide) (by decide) (by decide) (by decide)),
      (h c _ (mem_uc main_arg12 (by decide))).trans (W6_of m c main_arg12 (by decide) (by decide) (by decide) (by decide) (by decide) (by decide))⟩) (run_all m ρ)

end Cert.KernelIdeal.Hand

end
-- ==== Proof.BRegion0.lean ====
/-
  The first pallas_call (the linear layer with the batch norm folded into its weight and bias), as one region of
  the program's run, at the buffer contents `V` the region is entered with: what each grid point's body finds in
  its three input blocks, that it leaves in the output block `rows · weight + bias row` (the body's one store,
  covering the block), and the pipeline's proof data saying so at every point.
-/
import proofs.«425288_j64493228916781_3_alg».proof.Proof.Gen.Kernel.Launch
import proofs.«425288_j64493228916781_3_alg».proof.Proof.Gen.Kernel.Skeleton
import proofs.«425288_j64493228916781_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the pipeline fetched it there or the
    block index has not moved since it was fetched. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each buffer whole. -/
abbrev r0_x : Rect S5000x64 := Rect.unit (s := S5000x64) ![0, 0] S5000x64.size inb_S5000x64_S5000x64_0_0
abbrev r0_w : Rect S64x64 := Rect.unit (s := S64x64) ![0, 0] S64x64.size inb_S64x64_S64x64_0_0
abbrev r0_b : Rect S1x64 := Rect.unit (s := S1x64) ![0, 0] S1x64.size inb_S1x64_S1x64_0_0

/-- What the body leaves in the output block: its one store, of the rows times the weight plus the bias row. -/
def out0_3 (x0 : Vec F S5000x64 .f32) (x1 : Vec F S64x64 .f32) (x2 : Vec F S1x64 .f32) : Vec F S5000x64 .f32 :=
  View.canon [⟨r0_x, k0_pay1 (View.ld x0 r0_x) (View.ld x1 r0_w) (View.ld x2 r0_b)⟩]

/-- The store covers the block. -/
theorem cover0_3 (p0 : Vec F S5000x64 .f32) (y : S5000x64.Idx) :
    ∃ pc ∈ ([⟨r0_x, p0⟩] : List (View.Piece (Elt F) S5000x64 .f32)), y ∈ pc.1.set :=
  View.cover_of_tiled [⟨r0_x, p0⟩] S5000x64.size (by rfl) y

set_option maxHeartbeats 1000000 in
/-- The body on whole staging memrefs: the inputs kept, the output at `out0_3` of the inputs. -/
theorem sound_kernel0 (c : Dev nD) (E : Set ℕ) (i : grid0.Coords) (arg1 : Memref sig .tc .vmem S5000x64 .f32) (harg1 : arg1.IsWhole)
    (arg2 : Memref sig .tc .vmem S64x64 .f32) (harg2 : arg2.IsWhole) (arg3 : Memref sig .tc .vmem S1x64 .f32) (harg3 : arg3.IsWhole)
    (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_bn_kernel i arg1 harg1 arg2 harg2 arg3 harg3 arg4 harg4) K := by
  simp only [cc0__linear_bn_kernel_eq_skeleton]; unfold cc0__linear_bn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core `c`: the arrays as the region finds them; after the body each input's buffer
    at its block and the output's at `out0_3` of the input blocks; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BRegion1Runs.lean ====
/-
  The second pallas_call (PReLU, then the per-graph pooling as a one-hot product accumulated over the blocks of
  a TensorCore's half of the nodes), as one region of the program's run: the grid's two branch conditions in
  closed form (the accumulator is reset at the first of a core's ten steps and written out at the last), where
  the output window is idle, and the body's run in each of the three cases the grid meets.
-/
import proofs.«425288_j64493228916781_3_alg».proof.Proof.Gen.Kernel.Launch
import proofs.«425288_j64493228916781_3_alg».proof.Proof.Gen.Kernel.Skeleton
import proofs.«425288_j64493228916781_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditionals, over the grid -/

/-- "this is the first step of the core's row": the accumulator is reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)
/-- "this is the last step of the core's row": the accumulator is written to the output block. -/
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated. -/
abbrev VO1_3 : View sig .tc .vmem S1x128x64 .f32 := (Memref.whole cc1_stg3_0 : Memref sig .tc .vmem S1x128x64 .f32).view
abbrev ms1_0 (t : Fin cfg1.N) : Memref sig .tc .vmem S5000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x5000 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128x64 .f32 := win1_3.stage (cfg1.slots t 3)
abbrev hs1_3 (t : Fin cfg1.N) : (ms1_3 t).IsWhole := hstage1_3 ((cfg1.slots t 3).cast nbuf1_3)
/-- The scratch accumulator: a whole scoped buffer of the kernel's own, carried from point to point. -/
abbrev scM1_0 : Memref sig .tc .vmem S128x64 .f32 := Memref.whole cc1_scratch0
abbrev VS1_0 : View sig .tc .vmem S128x64 .f32 := scM1_0.view

/-- The scoped buffers that are not this region's staging buffers, with the scratch accumulator in state `S`: the
    first region's six staging buffers at some contents beside it. -/
def restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- The region's class invariant, with the scratch accumulator as a memref owned at some contents. -/
theorem PhiA1_eq (c : Dev nD) :
    (Pipeline.ΦA spec1 c : sProp 𝕄)
      = iprop(restWith c (iprop(∃ d, owns (c : Thread nD τ) scM1_0 fullShare d)) ∗ (∃ r, prngReg c r)) := by
  unfold Pipeline.ΦA restWith; rw [scopedRest1_eq]; simp only [scM1_0, owns_whole]; try rfl

/-! ## The body's three runs -/

set_option maxHeartbeats 2000000 in
/-- The body's run in case A of its two conditionals, on whole staging memrefs: the pieces its stores leave in the
    output block and in the scratch accumulator are found by the run itself. -/
noncomputable def kernelRun1_A (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : cond1_0 i) (hc1 : ¬cond1_1 i)
    (x0 : Vec F S5000x64 .f32) (x1 : Vec F S1x1x5000 .i32) (x2 : Vec F S1x64 .f32) :
    Σ' (L3 : List (View.Piece (Elt F) S1x128x64 .f32)), { LS0 : List (View.Piece (Elt F) S128x64 .f32) //
      ∀ (xi3 : Vec F S1x128x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__prelu_pool_kernel i arg2 harg2 arg3 harg3 arg4 harg4 arg5 harg5 arg6 harg6) K } := by
  refine ⟨[], ?_, fun xi3 E K => ?run⟩
  case run =>
    simp only [cc1__prelu_pool_kernel_eq_skeleton]; unfold cc1__prelu_pool_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 2000000 in
/-- The body's run in case B of its two conditionals, on whole staging memrefs: the pieces its stores leave in the
    output block and in the scratch accumulator are found by the run itself. -/
noncomputable def kernelRun1_B (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : ¬cond1_0 i) (hc1 : ¬cond1_1 i)
    (x0 : Vec F S5000x64 .f32) (x1 : Vec F S1x1x5000 .i32) (x2 : Vec F S1x64 .f32) (xs0 : Vec F S128x64 .f32) :
    Σ' (L3 : List (View.Piece (Elt F) S1x128x64 .f32)), { LS0 : List (View.Piece (Elt F) S128x64 .f32) //
      ∀ (xi3 : Vec F S1x128x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__prelu_pool_kernel i arg2 harg2 arg3 harg3 arg4 harg4 arg5 harg5 arg6 harg6) K } := by
  refine ⟨[], ?_, fun xi3 E K => ?run⟩
  case run =>
    simp only [cc1__prelu_pool_kernel_eq_skeleton]; unfold cc1__prelu_pool_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 2000000 in
/-- The body's run in case C of its two conditionals, on whole staging memrefs: the pieces its stores leave in the
    output block and in the scratch accumulator are found by the run itself. -/
noncomputable def kernelRun1_C (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : ¬cond1_0 i) (hc1 : cond1_1 i)
    (x0 : Vec F S5000x64 .f32) (x1 : Vec F S1x1x5000 .i32) (x2 : Vec F S1x64 .f32) (xs0 : Vec F S128x64 .f32) :
    Σ' (L3 : List (View.Piece (Elt F) S1x128x64 .f32)), { LS0 : List (View.Piece (Elt F) S128x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__prelu_pool_kernel i arg2 harg2 arg3 harg3 arg4 harg4 arg5 harg5 arg6 harg6) K } := by
  refine ⟨?_, ?_, fun E K => ?run⟩
  case run =>
    simp only [cc1__prelu_pool_kernel_eq_skeleton]; unfold cc1__prelu_pool_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.BRegion1.lean ====
/-
  The second pallas_call as one region of the program's run, at the buffer contents `V` the region is entered
  with: what the output block and the scratch accumulator hold after every grid point (by recursion on the point:
  the case the point is in, over what the point before left in the accumulator), the region's invariant carrying
  the accumulator at those contents, the pipeline's proof data, and the body obligation at every point.
-/
import proofs.«425288_j64493228916781_3_alg».proof.Proof.BRegion1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output window's staging buffer: its pieces read back (none: the window is idle there, a placeholder nothing consults). -/
def out1_A_3 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : cond1_0 i) (hc1 : ¬cond1_1 i)
    (x0 : Vec F S5000x64 .f32) (x1 : Vec F S1x1x5000 .i32) (x2 : Vec F S1x64 .f32) : Vec F S1x128x64 .f32 :=
  VO1_3.read (Elt F) (VO1_3.writes (Elt F) VO1_3.junk (kernelRun1_A c i arg2 harg2 arg3 harg3 arg4 harg4 arg5 harg5 arg6 harg6 hc0 hc1 x0 x1 x2).1)

/-- Case A's pieces for the scratch accumulator cover it. -/
theorem scover1_A_0 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : cond1_0 i) (hc1 : ¬cond1_1 i)
    (x0 : Vec F S5000x64 .f32) (x1 : Vec F S1x1x5000 .i32) (x2 : Vec F S1x64 .f32) (y : S128x64.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S128x64.size (by sl_kernel_rfl) y

/-- What case A leaves in the scratch accumulator: its pieces read back. -/
def sout1_A_0 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : cond1_0 i) (hc1 : ¬cond1_1 i)
    (x0 : Vec F S5000x64 .f32) (x1 : Vec F S1x1x5000 .i32) (x2 : Vec F S1x64 .f32) : Vec F S128x64 .f32 :=
  VS1_0.read (Elt F) (VS1_0.writes (Elt F) VS1_0.junk (kernelRun1_A c i arg2 harg2 arg3 harg3 arg4 harg4 arg5 harg5 arg6 harg6 hc0 hc1 x0 x1 x2).2.1)

/-- What case B leaves in the output window's staging buffer: its pieces read back (none: the window is idle there, a placeholder nothing consults). -/
def out1_B_3 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : ¬cond1_0 i) (hc1 : ¬cond1_1 i)
    (x0 : Vec F S5000x64 .f32) (x1 : Vec F S1x1x5000 .i32) (x2 : Vec F S1x64 .f32) (xs0 : Vec F S128x64 .f32) : Vec F S1x128x64 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's pieces for the scratch accumulator cover it. -/
theorem scover1_B_0 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : ¬cond1_0 i) (hc1 : ¬cond1_1 i)
    (x0 : Vec F S5000x64 .f32) (x1 : Vec F S1x1x5000 .i32) (x2 : Vec F S1x64 .f32) (xs0 : Vec F S128x64 .f32) (y : S128x64.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S128x64.size (by sl_kernel_rfl) y

/-- What case B leaves in the scratch accumulator: its pieces read back. -/
def sout1_B_0 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : ¬cond1_0 i) (hc1 : ¬cond1_1 i)
    (x0 : Vec F S5000x64 .f32) (x1 : Vec F S1x1x5000 .i32) (x2 : Vec F S1x64 .f32) (xs0 : Vec F S128x64 .f32) : Vec F S128x64 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's pieces for the output block cover it. -/
theorem cover1_C_3 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : ¬cond1_0 i) (hc1 : cond1_1 i)
    (x0 : Vec F S5000x64 .f32) (x1 : Vec F S1x1x5000 .i32) (x2 : Vec F S1x64 .f32) (xs0 : Vec F S128x64 .f32) (y : S1x128x64.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1x128x64.size (by sl_kernel_rfl) y

/-- What case C leaves in the output window's staging buffer: its pieces read back. -/
def out1_C_3 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : ¬cond1_0 i) (hc1 : cond1_1 i)
    (x0 : Vec F S5000x64 .f32) (x1 : Vec F S1x1x5000 .i32) (x2 : Vec F S1x64 .f32) (xs0 : Vec F S128x64 .f32) : Vec F S1x128x64 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's pieces for the scratch accumulator cover it. -/
theorem scover1_C_0 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : ¬cond1_0 i) (hc1 : cond1_1 i)
    (x0 : Vec F S5000x64 .f32) (x1 : Vec F S1x1x5000 .i32) (x2 : Vec F S1x64 .f32) (xs0 : Vec F S128x64 .f32) (y : S128x64.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S128x64.size (by sl_kernel_rfl) y

/-- What case C leaves in the scratch accumulator: its pieces read back. -/
def sout1_C_0 (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : ¬cond1_0 i) (hc1 : cond1_1 i)
    (x0 : Vec F S5000x64 .f32) (x1 : Vec F S1x1x5000 .i32) (x2 : Vec F S1x64 .f32) (xs0 : Vec F S128x64 .f32) : Vec F S128x64 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output block and the accumulator hold after each point -/

/-- After the body at position `n`: (the output window's staging buffer, the scratch accumulator). -/
def outsAt1 (c : Dev nD) : (n : ℕ) → n < cfg1.N → Vec F S1x128x64 .f32 × Vec F S128x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 10 = 0 then
      if h1 : (n + 1) % 10 = 9 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 10 = 9 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 10 = 0) (h1 : ¬t.val % 10 = 9) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 10 = 0) (h1 : ¬t.val % 10 = 9) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 10 = 0) (h1 : t.val % 10 = 9) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at anything);
    afterwards the same with the accumulator at what the point before left in it. -/
def PhiS (c : Dev nD) : (n : ℕ) → n ≤ cfg1.N → sProp 𝕄
  | 0, _ => Pipeline.ΦA spec1 c
  | n + 1, hn => iprop(restWith c (owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restWith c (owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(restWith c (owns (c : Thread nD τ) scM1_0 fullShare ((outsAt1 V c (n - 1) (by omega)).2)) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 20 := lt_of_lt_of_eq t.isLt (show cfg1.N = 20 from N_1)
  by_cases h0 : t.val % 10 = 0
  · have h1 : ¬t.val % 10 = 9 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold sout1_A_0; (try dsimp only)
    have hrun := (kernelRun1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)).2.2
    by_cases hz : t.val = 0
    · rw [PhiS_castSucc V c t, PhiS_zero V c _ _ hz, PhiA1_eq]
      unfold restWith
      iintro ⟨⟨⟨R1, R2, R3, R4, R5, R6, HS0⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [R1 R2 R3 R4 R5 R6 HS0 Hg]
      · isplitl [R1 R2 R3 R4 R5 R6 HS0]
        · isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      unfold restWith
      iintro ⟨⟨⟨R1, R2, R3, R4, R5, R6, HS0⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [R1 R2 R3 R4 R5 R6 HS0 Hg]
      · isplitl [R1 R2 R3 R4 R5 R6 HS0]
        · isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 10 = 9
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      have hrun := (kernelRun1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2).2.2
      rw [PhiS_castSucc V c t, PhiS_pos V c _ _ hz]
      unfold restWith
      iintro ⟨⟨⟨R1, R2, R3, R4, R5, R6, HS0⟩, Hg⟩, Ho, ⟨%d0, H0⟩, ⟨%d1, H1⟩, ⟨%d2, H2⟩, ⟨%d3, H3⟩⟩
      iapply (hrun Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [R1 R2 R3 R4 R5 R6 HS0 Hg]
      · isplitl [R1 R2 R3 R4 R5 R6 HS0]
        · isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact View.read_writes_of_cover _ _ _ _ _ (scover1_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      have hrun := (kernelRun1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2).2.2
      rw [PhiS_castSucc V c t, PhiS_pos V c _ _ hz]
      unfold restWith
      iintro ⟨⟨⟨R1, R2, R3, R4, R5, R6, HS0⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [R1 R2 R3 R4 R5 R6 HS0 Hg]
      · isplitl [R1 R2 R3 R4 R5 R6 HS0]
        · isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact View.read_writes_of_cover _ _ _ _ _ (scover1_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 20 := N_1; omega), PhiA1_eq]
  unfold restWith
  iintro ⟨⟨R1, R2, R3, R4, R5, R6, HS0⟩, Hg⟩
  isplitl [R1 R2 R3 R4 R5 R6 HS0]
  · isplitl [R1]; · iexact R1
    isplitl [R2]; · iexact R2
    isplitl [R3]; · iexact R3
    isplitl [R4]; · iexact R4
    isplitl [R5]; · iexact R5
    isplitl [R6]; · iexact R6
    iexists _; iexact HS0
  iexact Hg

end Cert.Kernel.Hand

end
-- ==== Proof.BRun.lean ====
/-
  The program's run from launch to return: @main as six segments (a stretch of host operations, the first
  pallas_call, two stretches, the second pallas_call, a last stretch), the buffer contents at every segment boundary
  as a fold from the launch memory (a stretch applies its operations; a region leaves its arrays at what its
  pipeline's write-backs fold to and every other buffer as entered), and the run itself: every weakly fair execution
  terminates with every unscoped buffer at the last boundary's contents.
-/
import proofs.«425288_j64493228916781_3_alg».proof.Proof.BRegion0
import proofs.«425288_j64493228916781_3_alg».proof.Proof.BRegion1
import proofs.«425288_j64493228916781_3_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev W4 : Dev nD → Valuation τ sig (Elt F) := fun c => StableHlo.after hostOps1_1 (W3 m c)
abbrev V4 : (c : Dev nD) → (b : Ref sig .tc) → Buf (Elt F) ((c : Thread nD τ).loc b) := fun c b => W4 m c b
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)
abbrev W6 : Dev nD → Valuation τ sig (Elt F) := fun c => StableHlo.after hostOps2 (W5 m c)

/-! ## A buffer nothing writes reaches the end as launched -/

theorem W6_of (c : Dev nD) (b : Ref sig .tc) (h0 : b ∉ hostOps0_W) (h1 : b ∉ hostOps1_W) (h11 : b ∉ hostOps1_1_W) (h2 : b ∉ hostOps2_W)
    (hr0 : ∀ w, Pipeline.arrRef spec0 w ≠ b) (hr1 : ∀ w, Pipeline.arrRef spec1 w ≠ b) :
    W6 m c (Proc.devRef .tc b) = m ((c : Thread nD τ).loc b) :=
  calc W6 m c (Proc.devRef .tc b)
    _ = W5 m c (Proc.devRef .tc b) := StableHlo.after_of_writes_sub hostOps2 _ hostOps2_writes h2
    _ = W4 m c (Proc.devRef .tc b) := W5_of_ne m c b hr1
    _ = W3 m c (Proc.devRef .tc b) := StableHlo.after_of_writes_sub hostOps1_1 _ hostOps1_1_writes h11
    _ = W2 m c (Proc.devRef .tc b) := StableHlo.after_of_writes_sub hostOps1 _ hostOps1_writes h1
    _ = W1 m c (Proc.devRef .tc b) := W2_of_ne m c b hr0
    _ = W0 m c (Proc.devRef .tc b) := StableHlo.after_of_writes_sub hostOps0 _ hostOps0_writes h0
    _ = m ((c : Thread nD τ).loc b) := rfl

/-- The node features are the first region's first input window: an input's array is left as entered. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps2 _ hostOps2_writes (by decide)
    _ = W4 m c (Proc.devRef .tc main_arg0) := W5_of_ne m c main_arg0 (by decide)
    _ = W3 m c (Proc.devRef .tc main_arg0) := StableHlo.after_of_writes_sub hostOps1_1 _ hostOps1_1_writes (by decide)
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V4 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W4`, left at `W5`. Its arrays are
    split out of the unscoped buffers and put back at the exit contents; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h1 : (pdats m 1 c).Φ (Fin.last _) ⊢ (Pipeline.ΦA spec1 c : sProp 𝕄) := hout1 (V4 m) c
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact h1.trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .region (reg1 m),
    .host (hseg hostOps2 hostOps2_sub hostOps2_fresh (W5 m)) ]

set_option backward.isDefEq.respectTransparency.types false in
/-- THE RUN: from any memory with zero counters, every weakly fair execution of @main terminates, nothing faulting,
    and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W6_main_arg0 m c),
      (h c _ (mem_uc main_arg1 (by decide))).trans (W6_of m c main_arg1 (by decide) (by decide) (by decide) (by decide) (by decide) (by decide)),
      (h c _ (mem_uc main_arg2 (by decide))).trans (W6_of m c main_arg2 (by decide) (by decide) (by decide) (by decide) (by decide) (by decide)),
      (h c _ (mem_uc main_arg3 (by decide))).trans (W6_of m c main_arg3 (by decide) (by decide) (by decide) (by decide) (by decide) (by decide)),
      (h c _ (mem_uc main_arg4 (by decide))).trans (W6_of m c main_arg4 (by decide) (by decide) (by decide) (by decide) (by decide) (by decide)),
      (h c _ (mem_uc main_arg5 (by decide))).trans (W6_of m c main_arg5 (by decide) (by decide) (by decide) (by decide) (by decide) (by decide)),
      (h c _ (mem_uc main_arg6 (by decide))).trans (W6_of m c main_arg6 (by decide) (by decide) (by decide) (by decide) (by decide) (by decide)),
      (h c _ (mem_uc main_arg7 (by decide))).trans (W6_of m c main_arg7 (by decide) (by decide) (by decide) (by decide) (by decide) (by decide)),
      (h c _ (mem_uc main_arg8 (by decide))).trans (W6_of m c main_arg8 (by decide) (by decide) (by decide) (by decide) (by decide) (by decide)),
      (h c _ (mem_uc main_arg9 (by decide))).trans (W6_of m c main_arg9 (by decide) (by decide) (by decide) (by decide) (by decide) (by decide)),
      (h c _ (mem_uc main_arg10 (by decide))).trans (W6_of m c main_arg10 (by decide) (by decide) (by decide) (by decide) (by decide) (by decide)),
      (h c _ (mem_uc main_arg11 (by decide))).trans (W6_of m c main_arg11 (by decide) (by decide) (by decide) (by decide) (by decide) (by decide)),
      (h c _ (mem_uc main_arg12 (by decide))).trans (W6_of m c main_arg12 (by decide) (by decide) (by decide) (by decide) (by decide) (by decide))⟩) (run_all m ρ)

/-- The run with the result named: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v23) = W6 m c main_v23
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v23 (by decide)),
      (h c _ (mem_uc main_arg0 (by decide))).trans (W6_main_arg0 m c),
      (h c _ (mem_uc main_arg1 (by decide))).trans (W6_of m c main_arg1 (by decide) (by decide) (by decide) (by decide) (by decide) (by decide)),
      (h c _ (mem_uc main_arg2 (by decide))).trans (W6_of m c main_arg2 (by decide) (by decide) (by decide) (by decide) (by decide) (by decide)),
      (h c _ (mem_uc main_arg3 (by decide))).trans (W6_of m c main_arg3 (by decide) (by decide) (by decide) (by decide) (by decide) (by decide)),
      (h c _ (mem_uc main_arg4 (by decide))).trans (W6_of m c main_arg4 (by decide) (by decide) (by decide) (by decide) (by decide) (by decide)),
      (h c _ (mem_uc main_arg5 (by decide))).trans (W6_of m c main_arg5 (by decide) (by decide) (by decide) (by decide) (by decide) (by decide)),
      (h c _ (mem_uc main_arg6 (by decide))).trans (W6_of m c main_arg6 (by decide) (by decide) (by decide) (by decide) (by decide) (by decide)),
      (h c _ (mem_uc main_arg7 (by decide))).trans (W6_of m c main_arg7 (by decide) (by decide) (by decide) (by decide) (by decide) (by decide)),
      (h c _ (mem_uc main_arg8 (by decide))).trans (W6_of m c main_arg8 (by decide) (by decide) (by decide) (by decide) (by decide) (by decide)),
      (h c _ (mem_uc main_arg9 (by decide))).trans (W6_of m c main_arg9 (by decide) (by decide) (by decide) (by decide) (by decide) (by decide)),
      (h c _ (mem_uc main_arg10 (by decide))).trans (W6_of m c main_arg10 (by decide) (by decide) (by decide) (by decide) (by decide) (by decide)),
      (h c _ (mem_uc main_arg11 (by decide))).trans (W6_of m c main_arg11 (by decide) (by decide) (by decide) (by decide) (by decide) (by decide)),
      (h c _ (mem_uc main_arg12 (by decide))).trans (W6_of m c main_arg12 (by decide) (by decide) (by decide) (by decide) (by decide) (by decide))⟩) (run_all m ρ)

end Cert.Kernel.Hand

end
-- ==== Proof.KDefs.lean ====
/-
  The host stages of the kernel's program before its first pallas_call, each named once as a function of its
  operands and generic in the float family: the batch norm's scale `γ · rsqrt(var + ε)`, the weight with the scale
  folded into its columns, and the bias row `(b − μ) · scale + β`.
-/
import proofs.«425288_j64493228916781_3_alg».proof.KernelIdeal
import Idealize.ShloMosaic.PureOps.Ideal
import Idealize.ShloMosaic.Lib.ValueIdx

noncomputable section

namespace Cert.KernelIdeal.KDefs

open Idealize.ShloMosaic Cert.KernelIdeal Cert.KernelIdeal.Facts₀

variable {F : FTy → Type} [FloatOps F] [Cert.KernelIdeal.Facts₀]

/-- `γ · rsqrt(var + ε)`, per column. -/
def scaleK (g mv : FVec F S64 .f32) : FVec F S64 .f32 :=
  mulf g (Host.rsqrt (addf mv (broadcastInDim S64 ![] bcast_S_S64 (constant S_ .f32 0x3A83126F#32))))

/-- The weight with the scale folded into its columns. -/
def wpK (w : FVec F S64x64 .f32) (g mv : FVec F S64 .f32) : FVec F S64x64 .f32 :=
  mulf w (broadcastInDim S64x64 ![0, 1] bcast_S1x64_S64x64_0_1 (broadcastInDim S1x64 ![1] bcast_S64_S1x64_1 (scaleK g mv)))

/-- The folded bias, as a row. -/
def bpK (b mm g mv be : FVec F S64 .f32) : FVec F S1x64 .f32 :=
  broadcastInDim S1x64 ![1] bcast_S64_S1x64_1 (addf (mulf (subf b mm) (scaleK g mv)) be)

/-- The first pallas_call's result as one array: row `n` of `x` times the folded weight plus the folded bias
    (the matrix product into a zero accumulator, as the matrix unit computes it on the extended reals). -/
def hK (x : FVec Ideal S100000x64 .f32) (wp : FVec Ideal S64x64 .f32) (bp : FVec Ideal S1x64 .f32) : FVec Ideal S100000x64 .f32 :=
  fun i => (0 + ∑ k : Fin 64, x (ValueIdx.ix2 (⟨(i 0).val, (i 0).isLt⟩ : Fin 100000) k) * wp (ValueIdx.ix2 k (⟨(i 1).val, (i 1).isLt⟩ : Fin 64)))
    + bp (ValueIdx.ix2 (0 : Fin 1) (⟨(i 1).val, (i 1).isLt⟩ : Fin 64))

end Cert.KernelIdeal.KDefs

end
-- ==== Proof.Region0Value.lean ====
/-
  The first pallas_call's output array after the region, as one function of the arrays the region was entered with.

  The grid has 20 points. At point t the body finds rows 5000·t … 5000·t + 4999 of the node features in its first
  block, the whole [64, 64] weight in its second and the whole [1, 64] bias row in its third, and stores
      (row r of the block) · weight + bias row
  over its whole output block, which the pipeline writes back to rows 5000·t … 5000·t + 4999 of the output array.
  Element (r, j) of that block is  (0 + Σ_k x_{5000·t + r, k} · W_{k, j}) + bias_{0, j}  — the matrix product into a zero
  accumulator, the narrowing of its operands to bf16 being the identity at the ideal values — which is the
  whole-array function at row 5000·t + r, column j. The 20 blocks tile the array (row n lies in the block of point
  n / 5000), so the array ends holding that function everywhere.
-/
import proofs.«425288_j64493228916781_3_alg».proof.Proof.Region0
import proofs.«425288_j64493228916781_3_alg».proof.Proof.KDefs
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/-- The zero offsets of a whole-buffer access, as the constant function. -/
theorem zero_off2 : (![0, 0] : Fin 2 → Nat) = fun _ => 0 := funext fun a => by fin_cases a <;> rfl

/-! ## The matrix product's operand indices, axis by axis -/

theorem lhs_mm_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_mm_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_mm_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_mm_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's payload at row r and column j of the block: the row of the first operand times the column of the
    second, summed over the 64 contracted positions into a zero accumulator, plus the bias row at j. At the ideal
    values the narrowing to bf16 before the product is the identity. -/
theorem pay1_apply (x0 : Vec Ideal S5000x64 .f32) (x1 : Vec Ideal S64x64 .f32) (x2 : Vec Ideal S1x64 .f32) (r : Fin 5000) (j : Fin 64) :
    k0_pay1 (F := Ideal) x0 x1 x2 (ix2 r j)
      = (0 + ∑ k : Fin 64, x0 (ix2 r k) * x1 (ix2 k j)) + x2 (ix2 (0 : Fin 1) j) := by
  unfold k0_pay1
  rw [addf_apply, shapeCast_self, shapeCast_self]
  congr 1
  · simp only [matmul]
    rw [Ideal.matmul_apply, constant_apply, Ideal.ofBits_zero_f32,
      ← Equiv.sum_comp (contrEquiv1 dot_S5000x64_S64x64_S5000x64_1_0_0_1_n_n 64 rfl rfl).symm]
    refine congrArg (0 + ·) (Finset.sum_congr rfl fun k _ => ?_)
    have hk := contrEquiv1_symm_val dot_S5000x64_S64x64_S5000x64_1_0_0_1_n_n 64 rfl rfl k
    have el : dot_S5000x64_S64x64_S5000x64_1_0_0_1_n_n.lhsIdx (ix2 r j) ((contrEquiv1 dot_S5000x64_S64x64_S5000x64_1_0_0_1_n_n 64 rfl rfl).symm k) = ix2 r k := funext fun a => Fin.ext (by
      match a with
      | ⟨0, _⟩ => exact lhs_mm_0 _ _
      | ⟨1, _⟩ => exact (lhs_mm_1 _ _).trans hk)
    have er : dot_S5000x64_S64x64_S5000x64_1_0_0_1_n_n.rhsIdx (ix2 r j) ((contrEquiv1 dot_S5000x64_S64x64_S5000x64_1_0_0_1_n_n 64 rfl rfl).symm k) = ix2 k j := funext fun a => Fin.ext (by
      match a with
      | ⟨0, _⟩ => exact (rhs_mm_0 _ _).trans hk
      | ⟨1, _⟩ => exact rhs_mm_1 _ _)
    rw [el, er, truncf_apply, truncf_apply]
  · exact broadcastTo_apply x2 _ (ix2 r j) (ix2 (0 : Fin 1) j) (fun a => by
      match a with
      | ⟨0, _⟩ => show 0 = if (1 : Nat) = 1 then 0 else _; rw [if_pos rfl]
      | ⟨1, _⟩ => show j.val = if (64 : Nat) = 1 then 0 else j.val; rw [if_neg (by decide)])

/-! ## From the blocks to the array -/

/-- The printed index maps over the 20 grid points: the row windows (the input rows and the output) are at block
    (t, 0) at point t, the weight and the bias row at block (0, 0) throughout. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One element of a point's output block against one element of the whole-array function: when the block's row
    block x0 is rows T·5000 … of the array A, and the weight and bias blocks are the whole arrays W and B, the payload at
    (r, j) of the block is the array function at row T·5000 + r and column j. -/
theorem pay1_eq_hK (A : FVec Ideal S100000x64 .f32) (W : FVec Ideal S64x64 .f32) (B : FVec Ideal S1x64 .f32)
    (x0 : Vec Ideal S5000x64 .f32) (x1 : Vec Ideal S64x64 .f32) (x2 : Vec Ideal S1x64 .f32)
    (T : Nat) (y : S5000x64.Idx) (i : S100000x64.Idx)
    (hi0 : (i 0).val = T * 5000 + (y 0).val) (hi1 : (i 1).val = (y 1).val)
    (h0 : ∀ (r : Fin 5000) (k : Fin 64) (i' : S100000x64.Idx), (i' 0).val = T * 5000 + r.val → (i' 1).val = k.val → x0 (ix2 r k) = A i')
    (h1 : x1 = W) (h2 : x2 = B) :
    k0_pay1 (F := Ideal) x0 x1 x2 y = Cert.KernelIdeal.KDefs.hK A W B i := by
  obtain ⟨r, j, rfl⟩ : ∃ (r : Fin 5000) (j : Fin 64), y = ix2 r j := ⟨y 0, y 1, eq_ix2 y⟩
  subst h1 h2
  rw [pay1_apply]
  unfold Cert.KernelIdeal.KDefs.hK
  have hj : (⟨(i 1).val, (i 1).isLt⟩ : Fin 64) = j := Fin.ext hi1
  rw [hj]
  refine congrArg (· + x2 (ix2 (0 : Fin 1) j)) (congrArg (0 + ·) (Finset.sum_congr rfl fun k _ => ?_))
  rw [h0 r k (ix2 (⟨(i 0).val, (i 0).isLt⟩ : Fin 100000) k) hi0 rfl]

/-- WHAT POINT t WRITES BACK is block t of the whole-array function of the arrays the region was entered with. -/
theorem flushed0_3_eq (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal) (Cert.KernelIdeal.KDefs.hK (V c main_arg0) (V c main_v6) (V c main_v10)) := by
  show (cfg0.win 3).cut (grid0.coords t) ((dat0 V c).after 3 t) = _
  rw [after0_3]
  unfold out0_3
  rw [View.canon_unit_zero zero_off2]
  simp only [View.ld_unit_zero (S := S5000x64) zero_off2, View.ld_unit_zero (S := S64x64) zero_off2, View.ld_unit_zero (S := S1x64) zero_off2]
  obtain ⟨e00, e01, e10, e11, e20, e21, e30, e31⟩ := idx_facts0 t
  funext y
  show k0_pay1 (F := Ideal) (iblk0 V c 0 t) (iblk0 V c 1 t) (iblk0 V c 2 t) y
    = Cert.KernelIdeal.KDefs.hK (V c main_arg0) (V c main_v6) (V c main_v10) (((cfg0.win 3).blk t).view.emb y)
  refine pay1_eq_hK _ _ _ _ _ _ t.val y _ ?_ ?_ (fun r k i' hr hk => ?_) ?_ ?_
  · show win0_3.index t (0 : Fin 2) * 5000 + 1 * (y 0).val = t.val * 5000 + (y 0).val
    rw [e30]; omega
  · show win0_3.index t (1 : Fin 2) * 64 + 1 * (y 1).val = (y 1).val
    rw [e31]; omega
  · show V c main_arg0 (((cfg0.win 0).blk t).view.emb (ix2 r k)) = V c main_arg0 i'
    refine congrArg (V c main_arg0) (funext fun a => Fin.ext ?_)
    match a with
    | ⟨0, _⟩ => show win0_0.index t (0 : Fin 2) * 5000 + 1 * r.val = (i' 0).val; rw [e00, hr]; omega
    | ⟨1, _⟩ => show win0_0.index t (1 : Fin 2) * 64 + 1 * k.val = (i' 1).val; rw [e01, hk]; omega
  · funext z
    show V c main_v6 (((cfg0.win 1).blk t).view.emb z) = V c main_v6 z
    refine congrArg (V c main_v6) (funext fun a => Fin.ext ?_)
    match a with
    | ⟨0, _⟩ => show win0_1.index t (0 : Fin 2) * 64 + 1 * (z 0).val = (z 0).val; rw [e10]; omega
    | ⟨1, _⟩ => show win0_1.index t (1 : Fin 2) * 64 + 1 * (z 1).val = (z 1).val; rw [e11]; omega
  · funext z
    show V c main_v10 (((cfg0.win 2).blk t).view.emb z) = V c main_v10 z
    refine congrArg (V c main_v10) (funext fun a => Fin.ext ?_)
    match a with
    | ⟨0, _⟩ => show win0_2.index t (0 : Fin 2) * 1 + 1 * (z 0).val = (z 0).val; rw [e20]; omega
    | ⟨1, _⟩ => show win0_2.index t (1 : Fin 2) * 64 + 1 * (z 1).val = (z 1).val; rw [e21]; omega

/-- An index of the output array is in point t's block iff each coordinate is in the block's range on its axis. -/
theorem mem_blk0_3 (t : Fin cfg0.N) (i : S100000x64.Idx) :
    i ∈ ((cfg0.win 3).blk t).view.set
      ↔ ∀ a : Fin 2, win0_3.index t a * S5000x64.size a ≤ (i a).val ∧ (i a).val < win0_3.index t a * S5000x64.size a + S5000x64.size a := by
  show i ∈ ((View.whole main_v11).slice (win0_3.rect t)).set ↔ _
  rw [View.set_slice_whole, Rect.mem_set_unit]
  exact Iff.rfl

/-- The 20 row blocks tile the array: row n is in the block of point n / 5000. -/
theorem covered0_3 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hlt : (i 0).val / 5000 < cfg0.N := by
    show (i 0).val / 5000 < grid0.N
    rw [N_0]; omega
  obtain ⟨t, ht⟩ : ∃ t : Fin cfg0.N, t.val = (i 0).val / 5000 := ⟨⟨(i 0).val / 5000, hlt⟩, rfl⟩
  obtain ⟨-, -, -, -, -, -, e30, e31⟩ := idx_facts0 t
  refine ⟨t, flush0_3 t, ?_⟩
  rw [mem_blk0_3]
  intro a
  match a with
  | ⟨0, _⟩ =>
    show win0_3.index t (0 : Fin 2) * 5000 ≤ (i 0).val ∧ (i 0).val < win0_3.index t (0 : Fin 2) * 5000 + 5000
    rw [e30, ht]; omega
  | ⟨1, _⟩ =>
    show win0_3.index t (1 : Fin 2) * 64 ≤ (i 1).val ∧ (i 1).val < win0_3.index t (1 : Fin 2) * 64 + 64
    rw [e31]; omega

/-- THE OUTPUT ARRAY after the region: the whole-array function of the arrays the region was entered with. -/
theorem arr0_3 (V : (c : Dev nD) → (b : Ref sig .tc) → Buf (Elt Ideal) ((c : Thread nD τ).loc b)) (c : Dev nD) :
    (dat0 (F := Ideal) V c).arrAt 3 cfg0.N = Cert.KernelIdeal.KDefs.hK (V c main_arg0) (V c main_v6) (V c main_v10) :=
  (dat0 (F := Ideal) V c).arrAt_eq_of_cover 3 (Cert.KernelIdeal.KDefs.hK (V c main_arg0) (V c main_v6) (V c main_v10))
    (fun t _ => flushed0_3_eq V c t) covered0_3

end Cert.KernelIdeal.Hand

end
-- ==== Proof.PoolDefs.lean ====
/-
  The blocks the pooling kernel walks, and the accumulator it carries: block `p` of the node array is its rows
  `p·5000 … p·5000+4999` with their graph ids; core `c` takes blocks `c·10 … c·10+9` in order, each step adding
  the block's one-hot-weighted PReLU rows to the running `[128, 64]` sums, which start from zero.
-/
import proofs.«425288_j64493228916781_3_alg».proof.Proof.Gen.KernelIdeal.Skeleton
import Idealize.ShloMosaic.Lib.ValueIdx

noncomputable section

namespace Cert.PoolLaw

open Cert.KernelIdeal Cert.KernelIdeal.Gen Idealize.ShloMosaic

/-- rows p·5000 … p·5000+4999 of the node array -/
def aggBlk (a : FVec Ideal S100000x64 .f32) (p : ℕ) (hp : p < 20) : FVec Ideal S5000x64 .f32 :=
  fun y => a (ValueIdx.ix2 (⟨p * 5000 + (y 0).val, by have h : (y 0).val < 5000 := (y 0).isLt; omega⟩ : Fin 100000)
    (⟨(y 1).val, (y 1).isLt⟩ : Fin 64))

/-- graph ids of those rows, as the [1,1,5000] block the kernel loads -/
def segBlk (seg : IVec S100000 32) (p : ℕ) (hp : p < 20) : IVec S1x1x5000 32 :=
  fun y => seg (ValueIdx.ix1 (⟨p * 5000 + (y 2).val, by have h : (y 2).val < 5000 := (y 2).isLt; omega⟩ : Fin 100000))

/-- the scratch accumulator after step i of core c's row of the grid -/
def accK (a : FVec Ideal S100000x64 .f32) (seg : IVec S100000 32) (al : FVec Ideal S64 .f32) (c : Fin 2) :
    (i : ℕ) → i < 10 → FVec Ideal S128x64 .f32
  | 0, _ => k1_pay2 (F := Ideal) (aggBlk a (c.val * 10 + 0) (by have := c.isLt; omega))
      (broadcastInDim S1x64 ![1] bcast_S64_S1x64_1 al) (segBlk seg (c.val * 10 + 0) (by have := c.isLt; omega)) (k1_pay1 (F := Ideal))
  | i + 1, h => k1_pay2 (F := Ideal) (aggBlk a (c.val * 10 + (i + 1)) (by have := c.isLt; omega))
      (broadcastInDim S1x64 ![1] bcast_S64_S1x64_1 al) (segBlk seg (c.val * 10 + (i + 1)) (by have := c.isLt; omega))
      (accK a seg al c i (by omega))

end Cert.PoolLaw

end
-- ==== Proof.Region1Blocks.lean ====
/-
  The blocks the second pallas_call's body finds at a grid point. The grid is 2 × 10; at its point number t (core
  t / 10, step t % 10) the first window's block is rows t·5000 … t·5000 + 4999 of the aggregated node array, the
  second window's [1, 1, 5000] block is slab t of the graph ids laid out [20, 1, 5000] (ids of the same rows), and
  the third window's block is the whole [1, 64] slope row.
-/
import proofs.«425288_j64493228916781_3_alg».proof.Proof.Region1Runs
import proofs.«425288_j64493228916781_3_alg».proof.Proof.PoolDefs
import Idealize.ShloMosaic.Lib.Pipeline.Value
import Idealize.ShloMosaic.Lib.ValueIdx

noncomputable section

namespace Cert.KernelIdeal.Hand

open Idealize.ShloMosaic Idealize.ShloMosaic.TcCoe Idealize.SL.Sem
open Idealize.ShloMosaic.ValueIdx
open Cert.KernelIdeal Cert.KernelIdeal.Gen

/-- The printed index maps over the 20 grid points: the row window is at block (t, 0) at point t, the graph-id window
    at block (t, 0, 0), the slope row at block (0, 0) throughout. -/
theorem idx_facts1 : ∀ t : Fin cfg1.N,
    win1_0.index t (0 : Fin 2) = t.val ∧ win1_0.index t (1 : Fin 2) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0 :=
  (by decide +kernel : ∀ t : Fin grid1.N, _)

/-- The number of a grid point is below 20. -/
theorem t_lt_20 (t : Fin cfg1.N) : t.val < 20 := by
  have h1 := t.isLt
  have h2 : cfg1.N = 20 := N_1
  omega

/-- The first window's block at point t: rows t·5000 … of the aggregated node array. -/
theorem iblk1_0_eq (V : (c : Dev nD) → (b : Ref sig .tc) → Buf (Elt Ideal) ((c : Thread nD τ).loc b)) (c : Dev nD) (t : Fin cfg1.N) :
    (iblk1 V c 0 t : Vec Ideal S5000x64 .f32) = Cert.PoolLaw.aggBlk (V c main_v15) t.val (t_lt_20 t) := by
  obtain ⟨e00, e01, -, -, -, -, -⟩ := idx_facts1 t
  funext y
  unfold iblk1 Cert.PoolLaw.aggBlk
  show V c main_v15 (((cfg1.win 0).blk t).view.emb y) = V c main_v15 _
  refine congrArg (V c main_v15) (funext fun a => Fin.ext ?_)
  match a with
  | ⟨0, _⟩ => show win1_0.index t (0 : Fin 2) * 5000 + 1 * (y 0).val = t.val * 5000 + (y 0).val; rw [e00]; omega
  | ⟨1, _⟩ => show win1_0.index t (1 : Fin 2) * 64 + 1 * (y 1).val = (y 1).val; rw [e01]; omega

/-- The second window's block at point t: the graph ids of those rows, when the [20, 1, 5000] array is the ids
    laid out slab by slab. -/
theorem iblk1_1_eq (V : (c : Dev nD) → (b : Ref sig .tc) → Buf (Elt Ideal) ((c : Thread nD τ).loc b)) (c : Dev nD) (t : Fin cfg1.N)
    (seg : IVec S100000 32)
    (h16 : ∀ (p : Fin 20) (r : Fin 5000), V c main_v16 (ix3 p (0 : Fin 1) r)
      = seg (ix1 (⟨p.val * 5000 + r.val, by have := p.isLt; have := r.isLt; omega⟩ : Fin 100000))) :
    (iblk1 V c 1 t : Vec Ideal S1x1x5000 .i32) = Cert.PoolLaw.segBlk seg t.val (t_lt_20 t) := by
  obtain ⟨-, -, e10, e11, e12, -, -⟩ := idx_facts1 t
  funext y
  have hy0 : (y 0).val < 1 := (y 0).isLt
  have hy1 : (y 1).val < 1 := (y 1).isLt
  have hy2 : (y 2).val < 5000 := (y 2).isLt
  unfold iblk1 Cert.PoolLaw.segBlk
  show V c main_v16 (((cfg1.win 1).blk t).view.emb y) = _
  refine (congrArg (V c main_v16) (funext fun a => Fin.ext ?_)).trans (h16 ⟨t.val, t_lt_20 t⟩ ⟨(y 2).val, hy2⟩)
  match a with
  | ⟨0, _⟩ => show win1_1.index t (0 : Fin 3) * 1 + 1 * (y 0).val = t.val; rw [e10]; omega
  | ⟨1, _⟩ => show win1_1.index t (1 : Fin 3) * 1 + 1 * (y 1).val = 0; rw [e11]; omega
  | ⟨2, _⟩ => show win1_1.index t (2 : Fin 3) * 5000 + 1 * (y 2).val = (y 2).val; rw [e12]; omega

/-- The third window's block at every point: the whole slope row. -/
theorem iblk1_2_eq (V : (c : Dev nD) → (b : Ref sig .tc) → Buf (Elt Ideal) ((c : Thread nD τ).loc b)) (c : Dev nD) (t : Fin cfg1.N) :
    (iblk1 V c 2 t : Vec Ideal S1x64 .f32) = V c main_v17 := by
  obtain ⟨-, -, -, -, -, e20, e21⟩ := idx_facts1 t
  funext z
  unfold iblk1
  show V c main_v17 (((cfg1.win 2).blk t).view.emb z) = V c main_v17 z
  refine congrArg (V c main_v17) (funext fun a => Fin.ext ?_)
  match a with
  | ⟨0, _⟩ => show win1_2.index t (0 : Fin 2) * 1 + 1 * (z 0).val = (z 0).val; rw [e20]; omega
  | ⟨1, _⟩ => show win1_2.index t (1 : Fin 2) * 64 + 1 * (z 1).val = (z 1).val; rw [e21]; omega

end Cert.KernelIdeal.Hand

end
-- ==== Proof.Region1Value.lean ====
/-
  The second pallas_call's output array after the region, read as a value.

  The grid is 2 × 10: point t is step i = t mod 10 of core c' = t div 10. The body carries a [128, 64] accumulator
  from point to point: at the first step of a core's row it is reset to zeros, at every step it is updated by the
  point's blocks (rows t·5000 … of the node array, their graph ids, the slope row), and at the last step it is
  written, under a leading unit axis, to block c' of the [2, 128, 64] output array.

  So: (1) what each of the three control cases leaves in the accumulator and in the output block is the update
  payload of what it found; (2) by induction on the step, the accumulator after point c'·10 + i is the accumulator
  function after step i of core c'; (3) the block written back at point c'·10 + 9 is block c' of the array
  (c', g, j) ↦ acc(c', 9)(g, j); (4) those two blocks cover the array, so the array ends holding that function.
-/
import proofs.«425288_j64493228916781_3_alg».proof.Proof.Region1
import proofs.«425288_j64493228916781_3_alg».proof.Proof.Region1Blocks
import proofs.«425288_j64493228916781_3_alg».proof.Proof.PoolDefs
import Idealize.ShloMosaic.Lib.Pipeline.Value
import Idealize.ShloMosaic.Lib.ValueLayout
import Idealize.ShloMosaic.Lib.ValueIdx
import Idealize.ShloMosaic.Lib.Tactic

set_option maxRecDepth 16384

noncomputable section

namespace Cert.KernelIdeal.Hand

open Idealize.ShloMosaic Idealize.ShloMosaic.TcCoe Idealize.ShloMosaic.Tactic
open Idealize.SL.Sem
open Idealize.ShloMosaic.Pipeline (Dat)
open Cert.KernelIdeal Cert.KernelIdeal.Gen

/-! ## What each case leaves: the pieces read back -/

section Pieces

variable {F : FTy → Type} [FloatOps F]

/-- The zero offsets of a whole-buffer access, rank 2 and rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A step that is neither first nor last leaves, in the accumulator holding xs0, the update of xs0 by the blocks. -/
theorem sout1_B_0_eq (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : ¬cond1_0 i) (hc1 : ¬cond1_1 i)
    (x0 : Vec F S5000x64 .f32) (x1 : Vec F S1x1x5000 .i32) (x2 : Vec F S1x64 .f32) (xs0 : Vec F S128x64 .f32) :
    sout1_B_0 c i arg2 harg2 arg3 harg3 arg4 harg4 arg5 harg5 arg6 harg6 hc0 hc1 x0 x1 x2 xs0 = k1_pay2 x0 x2 x1 xs0 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  sl_unfold_words
  rw [View.canon_unit_zero hz2]
  simp only [View.readAt_eq_ld, harg2.read_unread, harg3.read_unread, harg4.read_unread, harg6.read_unread,
    View.ld_unit_zero (S := S5000x64) hz2, View.ld_unit_zero (S := S1x64) hz2, View.ld_unit_zero (S := S1x1x5000) hz3,
    View.ld_unit_zero (S := S128x64) hz2]

/-- The last step of a core's row leaves the same update in the accumulator. -/
theorem sout1_C_0_eq (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : ¬cond1_0 i) (hc1 : cond1_1 i)
    (x0 : Vec F S5000x64 .f32) (x1 : Vec F S1x1x5000 .i32) (x2 : Vec F S1x64 .f32) (xs0 : Vec F S128x64 .f32) :
    sout1_C_0 c i arg2 harg2 arg3 harg3 arg4 harg4 arg5 harg5 arg6 harg6 hc0 hc1 x0 x1 x2 xs0 = k1_pay2 x0 x2 x1 xs0 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero hz2]
  simp only [View.readAt_eq_ld, harg2.read_unread, harg3.read_unread, harg4.read_unread, harg6.read_unread,
    View.ld_unit_zero (S := S5000x64) hz2, View.ld_unit_zero (S := S1x64) hz2, View.ld_unit_zero (S := S1x1x5000) hz3,
    View.ld_unit_zero (S := S128x64) hz2]

/-- The last step writes the updated accumulator, with a leading unit axis, to the output block. -/
theorem out1_C_3_eq (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : ¬cond1_0 i) (hc1 : cond1_1 i)
    (x0 : Vec F S5000x64 .f32) (x1 : Vec F S1x1x5000 .i32) (x2 : Vec F S1x64 .f32) (xs0 : Vec F S128x64 .f32) :
    out1_C_3 c i arg2 harg2 arg3 harg3 arg4 harg4 arg5 harg5 arg6 harg6 hc0 hc1 x0 x1 x2 xs0 = k1_pay3 (k1_pay2 x0 x2 x1 xs0) := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero hz3]
  simp only [View.readAt_eq_ld, harg2.read_unread, harg3.read_unread, harg4.read_unread, harg6.read_unread,
    View.ld_unit_zero (S := S5000x64) hz2, View.ld_unit_zero (S := S1x64) hz2, View.ld_unit_zero (S := S1x1x5000) hz3,
    View.ld_unit_zero (S := S128x64) hz2, View.readCov_unit_zero (S := S128x64) _ hz2]

/-- The first step of a core's row resets the accumulator to zeros, then updates it. -/
theorem sout1_A_0_eq (c : Dev nD) (i : grid1.Coords) (arg2 : Memref sig .tc .vmem S5000x64 .f32) (harg2 : arg2.IsWhole) (arg3 : Memref sig .tc .vmem S1x1x5000 .i32) (harg3 : arg3.IsWhole) (arg4 : Memref sig .tc .vmem S1x64 .f32) (harg4 : arg4.IsWhole) (arg5 : Memref sig .tc .vmem S1x128x64 .f32) (harg5 : arg5.IsWhole) (arg6 : Memref sig .tc .vmem S128x64 .f32) (harg6 : arg6.IsWhole) (hc0 : cond1_0 i) (hc1 : ¬cond1_1 i)
    (x0 : Vec F S5000x64 .f32) (x1 : Vec F S1x1x5000 .i32) (x2 : Vec F S1x64 .f32) :
    sout1_A_0 c i arg2 harg2 arg3 harg3 arg4 harg4 arg5 harg5 arg6 harg6 hc0 hc1 x0 x1 x2 = k1_pay2 x0 x2 x1 (k1_pay1 (F := F)) := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S128x64) hz2]
  simp only [View.readAt_eq_ld, harg2.read_unread, harg3.read_unread, harg4.read_unread,
    View.ld_unit_zero (S := S5000x64) hz2, View.ld_unit_zero (S := S1x64) hz2, View.ld_unit_zero (S := S1x1x5000) hz3,
    View.ld_unit_zero (S := S128x64) hz2, View.readCov_unit_zero (S := S128x64) _ hz2]

end Pieces

/-! ## The accumulator along a core's row, the block written back, the array -/

section Value
variable (V : (c : Dev nD) → (b : Ref sig .tc) → Buf (Elt Ideal) ((c : Thread nD τ).loc b)) (c : Dev nD)
variable (seg : IVec S100000 32) (al : FVec Ideal S64 .f32)

/-- The accumulator after step i + 1 is the update of the accumulator after step i. -/
theorem accK_succ (a : FVec Ideal S100000x64 .f32) (c' : Fin 2) (i : ℕ) (h : i + 1 < 10) :
    Cert.PoolLaw.accK a seg al c' (i + 1) h
      = k1_pay2 (F := Ideal) (Cert.PoolLaw.aggBlk a (c'.val * 10 + (i + 1)) (by have := c'.isLt; omega))
          (broadcastInDim S1x64 ![1] bcast_S64_S1x64_1 al) (Cert.PoolLaw.segBlk seg (c'.val * 10 + (i + 1)) (by have := c'.isLt; omega))
          (Cert.PoolLaw.accK a seg al c' i (by omega)) := rfl

/-- The scratch accumulator after the point c'·10 + i holds the accumulator function after step i of core c'. -/
theorem acc_eq
    (h16 : ∀ (p : Fin 20) (r : Fin 5000), V c main_v16 (ValueIdx.ix3 p (0 : Fin 1) r) = seg (ValueIdx.ix1 (⟨p.val * 5000 + r.val, by omega⟩ : Fin 100000)))
    (h17 : V c main_v17 = broadcastInDim S1x64 ![1] bcast_S64_S1x64_1 al) (c' : Fin 2) :
    ∀ (i : ℕ) (hi : i < 10) (t : Fin cfg1.N) (ht : t.val = c'.val * 10 + i),
      (outsAt1 V c t.val t.isLt).2 = Cert.PoolLaw.accK (V c main_v15) seg al c' i hi := by
  intro i
  induction i with
  | zero =>
    intro hi t ht
    have h0 : t.val % 10 = 0 := by omega
    have h1 : ¬t.val % 10 = 9 := by omega
    rw [outsAt1_A V c t h0 h1]
    dsimp only
    refine (sout1_A_0_eq c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)).trans ?_
    rw [iblk1_0_eq V c t, iblk1_1_eq V c t seg h16, iblk1_2_eq V c t, h17]
    obtain ⟨n, hn⟩ := t
    dsimp only at ht
    subst ht
    rfl
  | succ i ih =>
    intro hi t ht
    have hN : t.val < 20 := lt_of_lt_of_eq t.isLt (show cfg1.N = 20 from N_1)
    have h0 : ¬t.val % 10 = 0 := by omega
    have hprev := ih (by omega) ⟨t.val - 1, Nat.lt_of_le_of_lt (Nat.sub_le _ _) t.isLt⟩ (by dsimp only; omega)
    dsimp only at hprev
    have hblk : k1_pay2 (F := Ideal) (iblk1 V c 0 t) (iblk1 V c 2 t) (iblk1 V c 1 t) (outsAt1 V c (t.val - 1) (Nat.lt_of_le_of_lt (Nat.sub_le _ _) t.isLt)).2
        = Cert.PoolLaw.accK (V c main_v15) seg al c' (i + 1) hi := by
      rw [hprev, iblk1_0_eq V c t, iblk1_1_eq V c t seg h16, iblk1_2_eq V c t, h17, accK_succ]
      obtain ⟨n, hn⟩ := t
      dsimp only at ht
      subst ht
      rfl
    by_cases h9 : t.val % 10 = 9
    · rw [outsAt1_C V c t h0 h9]
      dsimp only
      exact (sout1_C_0_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h9) (iblk1 V c 0 t) (iblk1 V c 1 t) (iblk1 V c 2 t) (outsAt1 V c (t.val - 1) (Nat.lt_of_le_of_lt (Nat.sub_le _ _) t.isLt)).2).trans hblk
    · rw [outsAt1_B V c t h0 h9]
      dsimp only
      exact (sout1_B_0_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h9 ((hcond1_1 t).mp h)) (iblk1 V c 0 t) (iblk1 V c 1 t) (iblk1 V c 2 t) (outsAt1 V c (t.val - 1) (Nat.lt_of_le_of_lt (Nat.sub_le _ _) t.isLt)).2).trans hblk

/-- At the last step of a core's row the output block is the accumulator with a leading unit axis. -/
theorem out_eq_pay3 {F : FTy → Type} [FloatOps F] (V : (c : Dev nD) → (b : Ref sig .tc) → Buf (Elt F) ((c : Thread nD τ).loc b)) (c : Dev nD)
    (t : Fin cfg1.N) (h0 : ¬t.val % 10 = 0) (h9 : t.val % 10 = 9) :
    (outsAt1 V c t.val t.isLt).1 = k1_pay3 (outsAt1 V c t.val t.isLt).2 := by
  rw [outsAt1_C V c t h0 h9]
  dsimp only
  rw [out1_C_3_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h9) (iblk1 V c 0 t) (iblk1 V c 1 t) (iblk1 V c 2 t) (outsAt1 V c (t.val - 1) (Nat.lt_of_le_of_lt (Nat.sub_le _ _) t.isLt)).2,
    sout1_C_0_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h9) (iblk1 V c 0 t) (iblk1 V c 1 t) (iblk1 V c 2 t) (outsAt1 V c (t.val - 1) (Nat.lt_of_le_of_lt (Nat.sub_le _ _) t.isLt)).2]

/-- The pooled partial sums as one [2, 128, 64] array: core c', graph g, column j. -/
def poolArr (a : FVec Ideal S100000x64 .f32) : FVec Ideal S2x128x64 .f32 :=
  fun y => Cert.PoolLaw.accK a seg al (⟨(y 0).val, (y 0).isLt⟩ : Fin 2) 9 (by omega)
    (ValueIdx.ix2 (⟨(y 1).val, (y 1).isLt⟩ : Fin 128) (⟨(y 2).val, (y 2).isLt⟩ : Fin 64))

theorem hidx3 : ∀ t : Fin cfg1.N, win1_3.index t (0 : Fin 3) = t.val / 10 ∧ win1_3.index t (1 : Fin 3) = 0 ∧ win1_3.index t (2 : Fin 3) = 0 :=
  (by decide +kernel : ∀ t : Fin grid1.N, win1_3.index t (0 : Fin 3) = t.val / 10 ∧ win1_3.index t (1 : Fin 3) = 0 ∧ win1_3.index t (2 : Fin 3) = 0)

/-- What a flushing point writes back is its block of that array. -/
theorem flushed_eq
    (h16 : ∀ (p : Fin 20) (r : Fin 5000), V c main_v16 (ValueIdx.ix3 p (0 : Fin 1) r) = seg (ValueIdx.ix1 (⟨p.val * 5000 + r.val, by omega⟩ : Fin 100000)))
    (h17 : V c main_v17 = broadcastInDim S1x64 ![1] bcast_S64_S1x64_1 al)
    (t : Fin cfg1.N) (hf : (cfg1.win 3).flush t = true) :
    (dat1 V c).flushed 3 t = ((cfg1.win 3).blk t).view.read (Elt Ideal) (poolArr seg al (V c main_v15) : Buf (Elt Ideal) ((c : Thread nD τ).loc main_v18)) := by
  have hN : t.val < 20 := lt_of_lt_of_eq t.isLt (show cfg1.N = 20 from N_1)
  have h9 : t.val % 10 = 9 := (flush1_3 t).mp hf
  have h0 : ¬t.val % 10 = 0 := by omega
  have hc : t.val / 10 < 2 := by omega
  have hacc := acc_eq V c seg al h16 h17 ⟨t.val / 10, hc⟩ 9 (by omega) t (by dsimp only; omega)
  funext y
  show (dat1 V c).after 3 t ((cfg1.win 3).xinj (grid1.coords t) y) = _
  rw [after1_3, out_eq_pay3 V c t h0 h9, hacc, View.read_apply]
  have hy0 : (y 0).val < 1 := (y 0).isLt
  have hy1 : (y 1).val < 128 := (y 1).isLt
  have hy2 : (y 2).val < 64 := (y 2).isLt
  have e1 : (cfg1.win 3).xinj (grid1.coords t) y = ValueIdx.ix3 (⟨(y 0).val, hy0⟩ : Fin 1) (⟨(y 1).val, hy1⟩ : Fin 128) (⟨(y 2).val, hy2⟩ : Fin 64) :=
    funext fun a => match a with | ⟨0, _⟩ => rfl | ⟨1, _⟩ => rfl | ⟨2, _⟩ => rfl
  have e2 : ((cfg1.win 3).blk t).view.emb y = ValueIdx.ix3 (⟨t.val / 10, hc⟩ : Fin 2) (⟨(y 1).val, hy1⟩ : Fin 128) (⟨(y 2).val, hy2⟩ : Fin 64) :=
    funext fun a => Fin.ext (match a with
      | ⟨0, _⟩ => by show win1_3.index t 0 * 1 + 1 * (y 0).val = t.val / 10; rw [(hidx3 t).1]; omega
      | ⟨1, _⟩ => by show win1_3.index t 1 * 128 + 1 * (y 1).val = (y 1).val; rw [(hidx3 t).2.1]; omega
      | ⟨2, _⟩ => by show win1_3.index t 2 * 64 + 1 * (y 2).val = (y 2).val; rw [(hidx3 t).2.2]; omega)
  rw [e1, e2]
  unfold k1_pay3
  exact ValueIdx.shapeCast_ab_1ab_apply _ shapeCasts_S128x64_S1x128x64 _ _ _

/-- Every element of the [2, 128, 64] array is in the block written back at the last step of its core's row. -/
theorem cover3 (y : S2x128x64.Idx) :
    ∃ t : Fin cfg1.N, (cfg1.win 3).flush t = true ∧ y ∈ ((cfg1.win 3).blk t).view.set := by
  have hy0 : (y 0).val < 2 := (y 0).isLt
  have hy1 : (y 1).val < 128 := (y 1).isLt
  have hy2 : (y 2).val < 64 := (y 2).isLt
  have hlt : (y 0).val * 10 + 9 < cfg1.N := by rw [show cfg1.N = 20 from N_1]; omega
  refine ⟨⟨(y 0).val * 10 + 9, hlt⟩, (flush1_3 _).mpr (by dsimp only; omega), ?_⟩
  generalize ht : (⟨(y 0).val * 10 + 9, hlt⟩ : Fin cfg1.N) = t
  have htv : t.val = (y 0).val * 10 + 9 := by rw [← ht]
  show y ∈ ((View.whole main_v18).slice (win1_3.rect t)).set
  rw [View.set_slice_whole, Rect.mem_set_unit]
  intro a
  match a with
  | ⟨0, _⟩ =>
    show win1_3.index t 0 * 1 ≤ (y 0).val ∧ (y 0).val < win1_3.index t 0 * 1 + 1
    rw [(hidx3 t).1]; omega
  | ⟨1, _⟩ =>
    show win1_3.index t 1 * 128 ≤ (y 1).val ∧ (y 1).val < win1_3.index t 1 * 128 + 128
    rw [(hidx3 t).2.1]; omega
  | ⟨2, _⟩ =>
    show win1_3.index t 2 * 64 ≤ (y 2).val ∧ (y 2).val < win1_3.index t 2 * 64 + 64
    rw [(hidx3 t).2.2]; omega

/-- After the region the output array holds, at (c', g, j), the accumulator after the last step of core c' at (g, j). -/
theorem arr1_3 (V : (c : Dev nD) → (b : Ref sig .tc) → Buf (Elt Ideal) ((c : Thread nD τ).loc b)) (c : Dev nD)
    (seg : IVec S100000 32) (al : FVec Ideal S64 .f32)
    (h16 : ∀ (p : Fin 20) (r : Fin 5000), V c main_v16 (ValueIdx.ix3 p (0 : Fin 1) r) = seg (ValueIdx.ix1 (⟨p.val * 5000 + r.val, by omega⟩ : Fin 100000)))
    (h17 : V c main_v17 = broadcastInDim S1x64 ![1] bcast_S64_S1x64_1 al)
    (c' : Fin 2) (g : Fin 128) (j : Fin 64) :
    (dat1 (F := Ideal) V c).arrAt 3 cfg1.N (ValueIdx.ix3 c' g j) = Cert.PoolLaw.accK (V c main_v15) seg al c' 9 (by omega) (ValueIdx.ix2 g j) :=
  congrFun ((dat1 (F := Ideal) V c).arrAt_eq_of_cover 3 (poolArr seg al (V c main_v15) : Buf (Elt Ideal) ((c : Thread nD τ).loc main_v18))
    (flushed_eq V c seg al h16 h17) cover3) (ValueIdx.ix3 c' g j)

end Value

end Cert.KernelIdeal.Hand

end
-- ==== Proof.Chain.lean ====
/-
  The stages the kernel's program and the reference share, each named once as a function of its operands and
  generic in the float family: the neighbour gather by (wrapped) source index, the scatter-add by destination
  index, the PReLU, the per-graph scatter-add pooling and the dense head. A proof compares the VALUES going into
  a stage and never opens the stage.
-/
import proofs.«425288_j64493228916781_3_alg».proof.ReferenceIdeal

noncomputable section

namespace Cert.Chain

open Idealize.ShloMosaic Cert.ReferenceIdeal Cert.ReferenceIdeal.Facts₀

variable {F : FTy → Type} [FloatOps F] [Cert.ReferenceIdeal.Facts₀]

/-- numpy's index normalisation: a negative index counts from the end (adds the extent 100000), as a column. -/
def wrapIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The messages: row `wrapIdx src e` of `h` for every edge `e` (the host gather, which clamps). -/
def msgs (h : FVec F S100000x64 .f32) (src : IVec S1600000 32) : FVec F S1600000x64 .f32 :=
  Host.gather gather_S100000x64_S1600000x1_S1600000x64_1_0_n_n_0_1_164 h (wrapIdx src)

/-- Sum of the message rows landing on each node (rows whose destination is out of range are dropped). -/
def aggOf (ms : FVec F S1600000x64 .f32) (dst : IVec S1600000 32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst) ms

/-- PReLU with a per-column slope. -/
def prelu (a : FVec F S100000x64 .f32) (alpha : FVec F S64 .f32) : FVec F S100000x64 .f32 :=
  select (cmpf .ogt a (broadcastInDim S100000x64 ![] bcast_S_S100000x64 (constant S_ .f32 0x00000000#32))) a
    (mulf (broadcastInDim S100000x64 ![0, 1] bcast_S1x64_S100000x64_0_1 (broadcastInDim S1x64 ![1] bcast_S64_S1x64_1 alpha)) a)

/-- Per-graph sum of the node rows (a node whose graph id is out of range is dropped). -/
def pooled (o : FVec F S100000x64 .f32) (seg : IVec S100000 32) : FVec F S128x64 .f32 :=
  Host.scatterAdd scatter_S128x64_S100000x1_S100000x64_1_0_0_1
    (broadcastInDim S128x64 ![] bcast_S_S128x64 (constant S_ .f32 0x00000000#32))
    (broadcastInDim S100000x1 ![0] bcast_S100000_S100000x1_0 seg) o

/-- The dense head: `p · Wd + bd`. -/
def head (p : FVec F S128x64 .f32) (wd : FVec F S64x1 .f32) (bd : FVec F S1 .f32) : FVec F S128x1 .f32 :=
  addf (Host.dotGeneral dot_S128x64_S64x1_S128x1_1_0_0_1_n_n none p wd)
    (broadcastInDim S128x1 ![0, 1] bcast_S1x1_S128x1_0_1 (broadcastInDim S1x1 ![1] bcast_S1_S1x1_1 bd))

/-- The reference's linear layer followed by inference-mode batch norm, as the host computes it. -/
def hRef (x : FVec F S100000x64 .f32) (w : FVec F S64x64 .f32) (b g be mm mv : FVec F S64 .f32) : FVec F S100000x64 .f32 :=
  addf
    (mulf
      (mulf (broadcastInDim S100000x64 ![0, 1] bcast_S1x64_S100000x64_0_1 (broadcastInDim S1x64 ![1] bcast_S64_S1x64_1 g))
        (subf
          (addf (Host.dotGeneral dot_S100000x64_S64x64_S100000x64_1_0_0_1_n_n none x w)
            (broadcastInDim S100000x64 ![0, 1] bcast_S1x64_S100000x64_0_1 (broadcastInDim S1x64 ![1] bcast_S64_S1x64_1 b)))
          (broadcastInDim S100000x64 ![0, 1] bcast_S1x64_S100000x64_0_1 (broadcastInDim S1x64 ![1] bcast_S64_S1x64_1 mm))))
      (broadcastInDim S100000x64 ![0, 1] bcast_S1x64_S100000x64_0_1 (broadcastInDim S1x64 ![1] bcast_S64_S1x64_1
        (Host.rsqrt (addf mv (broadcastInDim S64 ![] bcast_S_S64 (constant S_ .f32 0x3A83126F#32)))))))
    (broadcastInDim S100000x64 ![0, 1] bcast_S1x64_S100000x64_0_1 (broadcastInDim S1x64 ![1] bcast_S64_S1x64_1 be))

/-- The whole reference, as a composition of the stages. -/
def refOut (x : FVec F S100000x64 .f32) (src dst : IVec S1600000 32) (seg : IVec S100000 32) (w : FVec F S64x64 .f32)
    (b g be mm mv al : FVec F S64 .f32) (wd : FVec F S64x1 .f32) (bd : FVec F S1 .f32) : FVec F S128x1 .f32 :=
  head (pooled (prelu (aggOf (msgs (hRef x w b g be mm mv) src) dst) al) seg) wd bd

end Cert.Chain

end
-- ==== Proof.HostReads.lean ====
import proofs.«425288_j64493228916781_3_alg».proof.Proof.Gen.KernelIdeal.Launch
import proofs.«425288_j64493228916781_3_alg».proof.Proof.KDefs
import proofs.«425288_j64493228916781_3_alg».proof.Proof.Chain
import Idealize.ShloMosaic.Lib.StableHlo.Run
import Idealize.ShloMosaic.Lib.Pipeline.Value
import Idealize.ShloMosaic.Lib.ValueIdx

/-!
# What the host stretches of the kernel's program leave in the buffers the next stage reads

The program's `@main` runs host operations before, between and after its two pallas_calls. For an arbitrary
valuation `W` of the TensorCore's buffers, each lemma reads one buffer after one stretch as a named function of
`W`'s entries at the stretch's inputs: the folded weight and bias row before the first call; the scatter-add of
the messages by destination, the graph ids reshaped to `[20, 1, 5000]` and the PReLU slope as a row before the
second call; the dense head applied to the sum of the two partial pools after it.
-/

noncomputable section

namespace Cert.KernelIdeal.HostReads

open Idealize.ShloMosaic Idealize.ShloMosaic.TcCoe Idealize.SL.Sem
open Cert.KernelIdeal Cert.KernelIdeal.Facts₀
open Cert.KernelIdeal.Gen (hostOps0 hostOps1 hostOps1_1 hostOps2)

variable {F : FTy → Type} [FloatOps F] [Cert.ReferenceIdeal.Facts₀]

/-! ## Before the first pallas_call -/

/-- The weight operand: the weight with the batch norm's scale folded into its columns. -/
theorem after0_v6 (W : Valuation τ sig (Elt F)) :
    StableHlo.after hostOps0 W main_v6 = KDefs.wpK (W main_arg4) (W main_arg6) (W main_arg9) := by
  show StableHlo.after hostOps0 W (Proc.devRef .tc main_v6) = _
  unfold KDefs.wpK KDefs.scaleK
  after_results

/-- The bias operand: `(b − μ) · scale + β` as a row. -/
theorem after0_v10 (W : Valuation τ sig (Elt F)) :
    StableHlo.after hostOps0 W main_v10
      = KDefs.bpK (W main_arg5) (W main_arg8) (W main_arg6) (W main_arg9) (W main_arg7) := by
  show StableHlo.after hostOps0 W (Proc.devRef .tc main_v10) = _
  unfold KDefs.bpK KDefs.scaleK
  after_results

/-! ## Between the gather and the second pallas_call -/

/-- The graph ids laid out as 20 blocks of 5000: the reshape of the id vector to `[20, 1, 5000]`. -/
def segK (seg : IVec S100000 32) : IVec S20x1x5000 32 :=
  shapeCast S20x1x5000 seg shapeCasts_S100000_S20x1x5000

/-- The aggregate: the message rows summed into a zero array by destination index. The scatter's dimension
    record of this program and the reference's have the same fields, so the two stages are one term. -/
theorem after11_v15 (W : Valuation τ sig (Elt F)) :
    StableHlo.after hostOps1_1 W main_v15 = Cert.Chain.aggOf (W main_v12) (W main_arg2) := by
  show StableHlo.after hostOps1_1 W (Proc.devRef .tc main_v15) = _
  unfold Cert.Chain.aggOf
  after_results
  rfl

/-- The graph ids, reshaped. -/
theorem after11_v16 (W : Valuation τ sig (Elt F)) :
    StableHlo.after hostOps1_1 W main_v16 = segK (W main_arg3) := by
  show StableHlo.after hostOps1_1 W (Proc.devRef .tc main_v16) = _
  unfold segK
  after_results
  rfl

/-- The PReLU slope as a row. -/
theorem after11_v17 (W : Valuation τ sig (Elt F)) :
    StableHlo.after hostOps1_1 W main_v17 = broadcastInDim S1x64 ![1] bcast_S64_S1x64_1 (W main_arg10) := by
  show StableHlo.after hostOps1_1 W (Proc.devRef .tc main_v17) = _
  after_results

/-! ## After the second pallas_call -/

/-- The output: the dense head of the two partial pools' sum. -/
theorem after2_v23 (W : Valuation τ sig (Elt F)) :
    StableHlo.after hostOps2 W main_v23
      = Cert.Chain.head
          (Host.reduceAdd (W main_v18) (constant (F := F) S_ .f32 0x00000000#32) reducesTo_S2x128x64_S128x64_d0 h_S_)
          (W main_arg11) (W main_arg12) := by
  show StableHlo.after hostOps2 W (Proc.devRef .tc main_v23) = _
  unfold Cert.Chain.head
  after_results
  rfl

/-! ## The reshaped graph ids at an index -/

/-- Entry `(p, 0, r)` of the reshaped ids is id `5000 p + r`: the two indices have the same row-major position. -/
theorem segK_apply (seg : IVec S100000 32) (p : Fin 20) (r : Fin 5000) :
    segK seg (ValueIdx.ix3 p (0 : Fin 1) r) = seg (ValueIdx.ix1 (⟨p.val * 5000 + r.val, by omega⟩ : Fin 100000)) := by
  unfold segK
  refine shapeCast_apply seg _ _ _ ?_
  rw [Shape.rowMajor_val_one, Shape.rowMajor_val_three]
  show p.val * 5000 + r.val = (p.val * 1 + 0) * 5000 + r.val
  omega

end Cert.KernelIdeal.HostReads

end
-- ==== Proof.LibTypedRead.lean ====
/-
  Reading a host operation's result through a TYPED reference, without transports.

  A function that jax outlined (a softmax, a clip) prints once, over references that carry the type of the tensor they
  hold (`StableHlo.TRef sig T`); each of its operations moves its function to the reference's own buffer type along the
  equation `ref.ty = T` (`TRef.toBuf` / `TRef.ofBuf`: a `cast` each way). Read back with the untyped result lemmas, every
  intermediate value comes out wrapped in such a pair of casts, and a term with a cast at its head above a large
  operation is expensive to compare with anything: the comparison opens the operation before it opens the cast.

  So read a typed reference AT ITS TYPE: `read x V` is `V` at `x`'s buffer, moved to `T`. Then every typed builder has a
  result lemma with no cast in it — `read y` of a `TRef.binary a b y f` is `f (read a V) (read b V)` — because moving a value
  to the buffer's type and back is the identity for ANY typed reference (`ofBuf_toBuf`: by `subst` of the reference's
  type equation, no computation). At a literal reference `read (.of r) V = V r` by `rfl`, on a term with nothing under it.
-/
import Idealize.ShloMosaic.Lib.StableHlo.Run

noncomputable section

namespace Cert.TypedRead

open Idealize.ShloMosaic Idealize.ShloMosaic.StableHlo

variable {τ : Topo} {sig : RefSig} {Val : EltTy → Type} {T Tx Ta Tb Ty : BufTy}

/-- The contents of a typed reference's buffer, at the reference's type. -/
def read (x : TRef sig T) (V : Valuation τ sig Val) : T.Contents Val := x.ofBuf (V (Proc.devRef .tc x.ref))

/-- To the buffer's type and back is the identity, whatever the reference. -/
theorem ofBuf_toBuf (x : TRef sig T) (v : T.Contents Val) : x.ofBuf (x.toBuf (Val := Val) v) = v := by
  obtain ⟨r, h, h2, h3⟩ := x
  subst h
  rfl

/-! ## A typed builder's result at its own reference -/

theorem read_nullary (y : TRef sig Ty) (v : Ty.Contents Val) (V : Valuation τ sig Val) :
    read y ((no_index (TRef.nullary (τ := τ) y v)).result V) = v := by
  unfold read
  exact (congrArg y.ofBuf (nullary_result y.ref (y.toBuf v) y.dev V)).trans (ofBuf_toBuf y v)

theorem read_unary (x : TRef sig Tx) (y : TRef sig Ty) (f : Tx.Contents Val → Ty.Contents Val) (V : Valuation τ sig Val) :
    read y ((no_index (TRef.unary (τ := τ) x y f)).result V) = f (read x V) := by
  unfold read
  exact (congrArg y.ofBuf (unary_result x.ref y.ref (fun u => y.toBuf (f (x.ofBuf u))) x.dev y.dev V)).trans
    (ofBuf_toBuf y _)

theorem read_binary (a : TRef sig Ta) (b : TRef sig Tb) (y : TRef sig Ty)
    (f : Ta.Contents Val → Tb.Contents Val → Ty.Contents Val) (V : Valuation τ sig Val) :
    read y ((no_index (TRef.binary (τ := τ) a b y f)).result V) = f (read a V) (read b V) := by
  unfold read
  exact (congrArg y.ofBuf (binary_result a.ref b.ref y.ref (fun u v => y.toBuf (f (a.ofBuf u) (b.ofBuf v))) a.dev b.dev y.dev V)).trans
    (ofBuf_toBuf y _)

/-! ## … and at any other reference: what was there -/

theorem read_nullary_ne (z : TRef sig T) (y : TRef sig Ty) (v : Ty.Contents Val) (V : Valuation τ sig Val) (h : z.ref ≠ y.ref) :
    read z ((no_index (TRef.nullary (τ := τ) y v)).result V) = read z V := by
  unfold read
  exact congrArg z.ofBuf (nullary_result_ne (y := y.ref) (y.toBuf v) y.dev V h)

theorem read_unary_ne (z : TRef sig T) (x : TRef sig Tx) (y : TRef sig Ty) (f : Tx.Contents Val → Ty.Contents Val)
    (V : Valuation τ sig Val) (h : z.ref ≠ y.ref) :
    read z ((no_index (TRef.unary (τ := τ) x y f)).result V) = read z V := by
  unfold read
  exact congrArg z.ofBuf (unary_result_ne (x := x.ref) (y := y.ref) (fun u => y.toBuf (f (x.ofBuf u))) x.dev y.dev V h)

theorem read_binary_ne (z : TRef sig T) (a : TRef sig Ta) (b : TRef sig Tb) (y : TRef sig Ty)
    (f : Ta.Contents Val → Tb.Contents Val → Ty.Contents Val) (V : Valuation τ sig Val) (h : z.ref ≠ y.ref) :
    read z ((no_index (TRef.binary (τ := τ) a b y f)).result V) = read z V := by
  unfold read
  exact congrArg z.ofBuf (binary_result_ne (a := a.ref) (b := b.ref) (y := y.ref) (fun u v => y.toBuf (f (a.ofBuf u) (b.ofBuf v))) a.dev b.dev y.dev V h)

end Cert.TypedRead

end
-- ==== Proof.HostReads1.lean ====
import proofs.«425288_j64493228916781_3_alg».proof.Proof.Gen.KernelIdeal.Launch
import proofs.«425288_j64493228916781_3_alg».proof.Proof.Chain
import proofs.«425288_j64493228916781_3_alg».proof.Proof.LibTypedRead
import Idealize.ShloMosaic.Lib.StableHlo.Run

/-!
# The neighbour gather between the two pallas_calls, read as one function

`jnp.take` with fill mode prints as a module-local function over typed references: the source indices are
wrapped (a negative index counts from the end), laid out as a column, tested for `0 ≤ idx ≤ 99999` (the test
reduced by `and` over the column axis), the rows gathered (the host gather clamps), and every row whose index
fails the test replaced by the fill value, a NaN pattern. The lemma reads the function's result buffer after the
stretch as that composition of the first call's result and the source indices.
-/

noncomputable section

namespace Cert.KernelIdeal.HostReads

open Idealize.ShloMosaic Idealize.ShloMosaic.TcCoe Idealize.SL.Sem
open Cert.TypedRead

/-! ## A three-operand typed operation read at a typed reference -/

section Typed

variable {τ : Topo} {sig : RefSig} {Val : EltTy → Type} {T Ta Tb Tc Ty : BufTy}

/-- At its own reference a three-operand operation leaves its function of the operands' contents. -/
theorem read_ternary (c : StableHlo.TRef sig Tc) (a : StableHlo.TRef sig Ta) (b : StableHlo.TRef sig Tb)
    (y : StableHlo.TRef sig Ty) (f : Tc.Contents Val → Ta.Contents Val → Tb.Contents Val → Ty.Contents Val)
    (V : Valuation τ sig Val) :
    read y ((no_index (StableHlo.TRef.ternary (τ := τ) c a b y f)).result V) = f (read c V) (read a V) (read b V) := by
  unfold Cert.TypedRead.read
  exact (congrArg y.ofBuf (StableHlo.ternary_result c.ref a.ref b.ref y.ref
    (fun w u v => y.toBuf (f (c.ofBuf w) (a.ofBuf u) (b.ofBuf v))) c.dev a.dev b.dev y.dev V)).trans (ofBuf_toBuf y _)

/-- At any other reference it leaves what was there. -/
theorem read_ternary_ne (z : StableHlo.TRef sig T) (c : StableHlo.TRef sig Tc) (a : StableHlo.TRef sig Ta)
    (b : StableHlo.TRef sig Tb) (y : StableHlo.TRef sig Ty)
    (f : Tc.Contents Val → Ta.Contents Val → Tb.Contents Val → Ty.Contents Val) (V : Valuation τ sig Val)
    (h : z.ref ≠ y.ref) :
    read z ((no_index (StableHlo.TRef.ternary (τ := τ) c a b y f)).result V) = read z V := by
  unfold Cert.TypedRead.read
  exact congrArg z.ofBuf (StableHlo.ternary_result_ne (c := c.ref) (a := a.ref) (b := b.ref) (y := y.ref)
    (fun w u v => y.toBuf (f (c.ofBuf w) (a.ofBuf u) (b.ofBuf v))) c.dev a.dev b.dev y.dev V h)

end Typed

/-- Reads `read z (after ops V)` for a literal list `ops` of typed operations: unfolds the fold, then rewrites each
    operation's result at its own reference to its function of the operands' contents and at any other reference
    to what was there (the two references told apart by computation), outermost first, until none applies. -/
macro "typed_results" : tactic =>
  `(tactic| (simp only [StableHlo.after_cons, StableHlo.after_nil]
             repeat (first
               | rw [read_nullary] | rw [read_unary] | rw [read_binary] | rw [read_ternary]
               | (rw [read_nullary_ne]; rotate_left; decide)
               | (rw [read_unary_ne]; rotate_left; decide)
               | (rw [read_binary_ne]; rotate_left; decide)
               | (rw [read_ternary_ne]; rotate_left; decide))))

/-! ## The take -/

open Cert.KernelIdeal Cert.KernelIdeal.Facts₀
open Cert.KernelIdeal.Gen (hostOps1)

variable {F : FTy → Type} [FloatOps F]

/-- The source indices with a negative index counted from the end (the extent 100000 added), as a column. -/
def wrapK (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Per edge, whether the (wrapped) index is a row of the table: `0 ≤ idx ≤ 99999`, signed, the conjunction
    reduced over the column axis. -/
def inRangeK (idx : IVec S1600000x1 32) : IVec S1600000 1 :=
  Host.reduce IntOp.andi
    (andi (cmpi .sge idx (broadcastInDim S1600000x1 ![] bcast_S_S1600000x1 (constantI S_ 32 0#32)))
      (cmpi .sle idx (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The take: row `wrapK src e` of `h` for every edge `e` whose wrapped index is in range, the NaN fill
    elsewhere. -/
def takeK' (h : FVec F S100000x64 .f32) (src : IVec S1600000 32) : FVec F S1600000x64 .f32 :=
  select (broadcastInDim S1600000x64 ![0] bcast_S1600000_S1600000x64_0 (inRangeK (wrapK src)))
    (Host.gather gather_S100000x64_S1600000x1_S1600000x64_1_0_n_n_0_1_164 h (wrapK src))
    (broadcastInDim S1600000x64 ![] bcast_S_S1600000x64 (constant (F := F) S_ .f32 0x7FC00000#32))

/-- The wrapped column is the reference's: the two programs state the same broadcasts. -/
theorem wrapK_eq [Cert.ReferenceIdeal.Facts₀] (src : IVec S1600000 32) : wrapK src = Cert.Chain.wrapIdx src := rfl

/-- Where the take does not fill, it is the reference's messages. -/
theorem takeK'_eq [Cert.ReferenceIdeal.Facts₀] (h : FVec F S100000x64 .f32) (src : IVec S1600000 32) :
    takeK' h src
      = select (broadcastInDim S1600000x64 ![0] bcast_S1600000_S1600000x64_0 (inRangeK (wrapK src)))
          (Cert.Chain.msgs h src)
          (broadcastInDim S1600000x64 ![] bcast_S_S1600000x64 (constant (F := F) S_ .f32 0x7FC00000#32)) := rfl

set_option maxHeartbeats 1000000 in
/-- The stretch read through typed references, with the two inputs named. -/
theorem after1_typed (W : Valuation τ sig (Elt F)) (h : FVec F S100000x64 .f32) (src : IVec S1600000 32)
    (hh : read (.of main_v11 : StableHlo.TRef sig ⟨S100000x64, .f32⟩) W = h)
    (hs : read (.of main_arg1 : StableHlo.TRef sig ⟨S1600000, .i32⟩) W = src) :
    read (.of main_v12 : StableHlo.TRef sig ⟨S1600000x64, .f32⟩) (StableHlo.after hostOps1 W) = takeK' h src := by
  typed_results
  rw [hh, hs]
  rfl

/-- The gather's result buffer after the stretch: the take of the first call's result by the source indices. -/
theorem after1_v12 (W : Valuation τ sig (Elt F)) :
    StableHlo.after hostOps1 W main_v12 = takeK' (W main_v11) (W main_arg1) :=
  after1_typed W _ _ rfl rfl

end Cert.KernelIdeal.HostReads

end
-- ==== Proof.TakeFill.lean ====
/-
  The neighbour gather, written two ways. The kernel takes rows of the node array by source index with the
  "fill" convention: a negative index counts from the end, the gather clamps, and a row whose wrapped index falls
  outside [0, 99999] is replaced by NaN through a mask. The reference indexes directly: wrap, clamp, no mask. When
  every source index lies in [0, 100000) the wrap keeps it, both range tests hold in every row, the mask is all
  ones and the select returns the gathered rows: the two arrays are the same array. Nothing here is float
  arithmetic, so the statement holds in every float family.
-/
import proofs.«425288_j64493228916781_3_alg».proof.Proof.Gen.KernelIdeal
import proofs.«425288_j64493228916781_3_alg».proof.Proof.Gen.ReferenceIdeal
import proofs.«425288_j64493228916781_3_alg».proof.Proof.Chain
import Idealize.ShloMosaic.Lib.ValueIdx
import Idealize.ShloMosaic.PureOps.Reduce

noncomputable section

namespace Cert.TakeFill

open Idealize.ShloMosaic Idealize.ShloMosaic.TcCoe Idealize.SL.Sem
open Idealize.ShloMosaic.ValueIdx
open Cert.KernelIdeal Cert.KernelIdeal.Facts₀

/-- the kernel's take, as its 23 host operations compose it from the row array and the source indices -/
def takeK {F : FTy → Type} [FloatOps F] (h : FVec F S100000x64 .f32) (src : IVec S1600000 32) : FVec F S1600000x64 .f32 :=
  let v4 : IVec S1600000 32 := select (cmpi .slt src (broadcastInDim S1600000 ![] bcast_S_S1600000 (constantI S_ 32 0#32))) (addi src (broadcastInDim S1600000 ![] bcast_S_S1600000 (constantI S_ 32 100000#32))) src
  let v5 : IVec S1600000x1 32 := broadcastInDim S1600000x1 ![0] bcast_S1600000_S1600000x1_0 v4
  let v7 : IVec S1600000x1 1 := cmpi .sge v5 (broadcastInDim S1600000x1 ![] bcast_S_S1600000x1 (constantI S_ 32 0#32))
  let v10 : IVec S1600000x1 1 := cmpi .sle v5 (broadcastInDim S1600000x1 ![0, 1] bcast_S1x1_S1600000x1_0_1 (broadcastInDim S1x1 ![1] bcast_S1_S1x1_1 (constantI S1 32 99999#32)))
  let v12 : IVec S1600000 1 := Host.reduce IntOp.andi (andi v7 v10) (constantI S_ 1 1#1) reducesTo_S1600000x1_S1600000_d1 h_S_
  select (broadcastInDim S1600000x64 ![0] bcast_S1600000_S1600000x64_0 v12)
    (Host.gather gather_S100000x64_S1600000x1_S1600000x64_1_0_n_n_0_1_164 h v5)
    (broadcastInDim S1600000x64 ![] bcast_S_S1600000x64 (constant S_ .f32 0x7FC00000#32))

/-! ## Words: the wrap and the two range tests on an index already in range -/

/-- The wrap keeps a word that is not negative. -/
theorem wrap_keep (w : BitVec 32) (h0 : 0 ≤ w.toInt) :
    Scalar.select (IntOp.cmpi .slt w 0#32) (IntOp.addi w 100000#32) w = w := by
  have e0 : (0#32 : BitVec 32).toInt = 0 := by decide
  have hc : IntOp.cmpi .slt w 0#32 = 0#1 := by
    show BitVec.ofBool (w.slt 0#32) = 0#1
    simp only [BitVec.slt, e0]
    rw [decide_eq_false (by omega)]
    rfl
  rw [hc, select_zero]

/-- A word in [0, 100000) passes both range tests. -/
theorem inrange_bit (w : BitVec 32) (h0 : 0 ≤ w.toInt) (h1 : w.toInt < 100000) :
    IntOp.andi (IntOp.cmpi .sge w 0#32) (IntOp.cmpi .sle w 99999#32) = 1#1 := by
  have e0 : (0#32 : BitVec 32).toInt = 0 := by decide
  have e9 : (99999#32 : BitVec 32).toInt = 99999 := by decide
  have ha : IntOp.cmpi .sge w 0#32 = 1#1 := by
    show BitVec.ofBool ((0#32 : BitVec 32).sle w) = 1#1
    simp only [BitVec.sle, e0]
    rw [decide_eq_true h0]
    rfl
  have hb : IntOp.cmpi .sle w 99999#32 = 1#1 := by
    show BitVec.ofBool (w.sle 99999#32) = 1#1
    simp only [BitVec.sle, e9]
    rw [decide_eq_true (by omega)]
    rfl
  rw [ha, hb]
  rfl

/-! ## Reads: a broadcast reads its operand somewhere, a broadcast constant reads the constant -/

/-- A broadcast read at an index is the operand read at some index. -/
theorem bcast_read {α : Type} {s t : Shape} (dims : Fin s.rank → Fin t.rank) (hb : s.BroadcastsInDim t dims)
    (x : s.Idx → α) (j : t.Idx) : ∃ k, broadcastInDim t dims hb x j = x k := ⟨_, rfl⟩

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from rfl]
    exact foldl_andi_ones f hf l

/-! ## The mask is all ones, and the take is the gather -/

variable {F : FTy → Type} [FloatOps F]

/-- The wrap, as an array: source indices that are not negative are kept. -/
theorem wrap_eq (src : IVec S1600000 32) (hsrc : ∀ i, 0 ≤ (src i).toInt) :
    select (cmpi .slt src (broadcastInDim S1600000 ![] bcast_S_S1600000 (constantI S_ 32 0#32)))
      (addi src (broadcastInDim S1600000 ![] bcast_S_S1600000 (constantI S_ 32 100000#32))) src = src :=
  funext fun k => wrap_keep (src k) (hsrc k)

/-- The row mask of a column of indices all in [0, 100000): the `and` along the one column of the two range
    tests is 1 in every row. -/
theorem mask_eq_one (c : IVec S1600000x1 32) (hc : ∀ n, 0 ≤ (c n).toInt ∧ (c n).toInt < 100000) (j : S1600000.Idx) :
    Host.reduce IntOp.andi
      (andi (cmpi .sge c (broadcastInDim S1600000x1 ![] bcast_S_S1600000x1 (constantI S_ 32 0#32)))
        (cmpi .sle c (broadcastInDim S1600000x1 ![0, 1] bcast_S1x1_S1600000x1_0_1
          (broadcastInDim S1x1 ![1] bcast_S1_S1x1_1 (constantI S1 32 99999#32)))))
      (constantI S_ 1 1#1) reducesTo_S1600000x1_S1600000_d1 h_S_ j = 1#1 := by
  rw [Host.reduce_eq_foldl]
  exact foldl_andi_ones _ (fun n => inrange_bit (c n) (hc n).1 (hc n).2) _

/-! ## The reference's records are the kernel's -/

/-- The two programs print the same gather dimension numbers. -/
theorem gatherDims_eq :
    Cert.ReferenceIdeal.gather_S100000x64_S1600000x1_S1600000x64_1_0_n_n_0_1_164
      = gather_S100000x64_S1600000x1_S1600000x64_1_0_n_n_0_1_164 := rfl

/-- The reference's wrapped index column, over the kernel's records. -/
theorem wrapIdx_eq (src : IVec S1600000 32) :
    Cert.Chain.wrapIdx src = broadcastInDim S1600000x1 ![0] bcast_S1600000_S1600000x1_0
      (select (cmpi .slt src (broadcastInDim S1600000 ![] bcast_S_S1600000 (constantI S_ 32 0#32)))
        (addi src (broadcastInDim S1600000 ![] bcast_S_S1600000 (constantI S_ 32 100000#32))) src) := rfl

/-- The reference's messages, over the kernel's records. -/
theorem msgs_eq (h : FVec F S100000x64 .f32) (src : IVec S1600000 32) :
    Cert.Chain.msgs h src
      = Host.gather gather_S100000x64_S1600000x1_S1600000x64_1_0_n_n_0_1_164 h (Cert.Chain.wrapIdx src) := by
  unfold Cert.Chain.msgs
  rw [gatherDims_eq]

/-! ## The statement -/

/-- With every source index in [0, 100000) the kernel's masked take is the reference's gather. -/
theorem takeK_eq_msgs (h : FVec F S100000x64 .f32) (src : IVec S1600000 32)
    (hsrc : ∀ i, 0 ≤ (src i).toInt ∧ (src i).toInt < 100000) : takeK h src = Cert.Chain.msgs h src := by
  have hw := wrap_eq src fun k => (hsrc k).1
  -- the index column reads a source index in every row
  have hcol : ∀ n, 0 ≤ (broadcastInDim S1600000x1 ![0] bcast_S1600000_S1600000x1_0 src n).toInt
      ∧ (broadcastInDim S1600000x1 ![0] bcast_S1600000_S1600000x1_0 src n).toInt < 100000 := by
    intro n
    obtain ⟨k, hk⟩ := bcast_read ![0] bcast_S1600000_S1600000x1_0 src n
    rw [hk]
    exact hsrc k
  rw [msgs_eq, wrapIdx_eq, hw]
  funext i
  simp only [takeK, hw]
  rw [select_apply]
  -- the broadcast mask reads the row mask, which is 1
  obtain ⟨j, hj⟩ := bcast_read ![0] bcast_S1600000_S1600000x64_0
    (Host.reduce IntOp.andi
      (andi (cmpi .sge (broadcastInDim S1600000x1 ![0] bcast_S1600000_S1600000x1_0 src) (broadcastInDim S1600000x1 ![] bcast_S_S1600000x1 (constantI S_ 32 0#32)))
        (cmpi .sle (broadcastInDim S1600000x1 ![0] bcast_S1600000_S1600000x1_0 src) (broadcastInDim S1600000x1 ![0, 1] bcast_S1x1_S1600000x1_0_1
          (broadcastInDim S1x1 ![1] bcast_S1_S1x1_1 (constantI S1 32 99999#32)))))
      (constantI S_ 1 1#1) reducesTo_S1600000x1_S1600000_d1 h_S_) i
  rw [hj, mask_eq_one _ hcol j, select_one]

end Cert.TakeFill

end
-- ==== Proof.RefH.lean ====
/-
  The reference program's result read as the composition of its named stages, and the first stage — the
  linear layer followed by inference-mode batch normalisation — read at one element.

  With x the node features, W the weight matrix, b the bias, γ and β the scale and shift, μ and σ² the running
  mean and variance and ε the constant added to the variance, the element (n, j) of the first stage is
      γ_j · ((Σ_k x_{n,k} · W_{k,j} + b_j) − μ_j) · rsqrt(σ²_j + ε) + β_j ,
  every per-column vector reaching the [100000, 64] array through the two broadcasts [64] → [1, 64] → [100000, 64],
  which read the vector at the column j whatever the row.
-/
import proofs.«425288_j64493228916781_3_alg».proof.Proof.Gen.ReferenceIdeal.Read
import proofs.«425288_j64493228916781_3_alg».proof.Proof.Chain

noncomputable section

namespace Cert.RefH

open Idealize.ShloMosaic Idealize.ShloMosaic.TcCoe Idealize.SL.Sem
open Cert.ReferenceIdeal Cert.ReferenceIdeal.Facts₀

/-- The reference's result term is the composition of the stages: the stages were cut out of that term, so the two
    sides are the same expression once every stage's name is opened. Stated for every float family. -/
theorem res_eq_refOut {F : FTy → Type} [FloatOps F] (m : (ℓ : Loc nD τ sig) → Buf (Elt F) ℓ) (c : Dev nD) :
    Cert.ReferenceIdeal.Value.res_main_v41 m c
      = Cert.Chain.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold Cert.ReferenceIdeal.Value.res_main_v41 Cert.Chain.refOut Cert.Chain.head Cert.Chain.pooled Cert.Chain.prelu
    Cert.Chain.aggOf Cert.Chain.msgs Cert.Chain.wrapIdx Cert.Chain.hRef
  rfl

/-- A per-column vector broadcast [64] → [1, 64] → [100000, 64] reads, at row n and column j, the vector at j. -/
theorem bcast_col_apply {F : FTy → Type} [FloatOps F] (v : FVec F S64 .f32) (n : Fin 100000) (j : Fin 64) :
    broadcastInDim S100000x64 ![0, 1] bcast_S1x64_S100000x64_0_1 (broadcastInDim S1x64 ![1] bcast_S64_S1x64_1 v)
        (ValueIdx.ix2 n j)
      = v (ValueIdx.ix1 j) :=
  (Cert.ReferenceIdeal.Read.val_main_v2_apply (F := F) v (ValueIdx.ix2 n j)).trans
    ((Cert.ReferenceIdeal.Read.val_main_v1_apply (F := F) v _).trans
      (congrArg v (funext fun a => match a with | ⟨0, _⟩ => rfl)))

/-- The linear layer at the ideal values: element (n, j) of x · W is the sum over k of x_{n,k} · W_{k,j}. -/
theorem dot_apply (x : FVec Ideal S100000x64 .f32) (w : FVec Ideal S64x64 .f32) (n : Fin 100000) (j : Fin 64) :
    Host.dotGeneral (F := Ideal) dot_S100000x64_S64x64_S100000x64_1_0_0_1_n_n none x w (ValueIdx.ix2 n j)
      = ∑ k : Fin 64, x (ValueIdx.ix2 n k) * w (ValueIdx.ix2 k j) := by
  refine (Cert.ReferenceIdeal.Read.val_main_v0_apply x w (ValueIdx.ix2 n j)).trans (Finset.sum_congr rfl fun k _ => ?_)
  have el : Cert.ReferenceIdeal.Read.lidx_main_v0 (ValueIdx.ix2 n j) k = ValueIdx.ix2 n k :=
    funext fun a => match a with | ⟨0, _⟩ => rfl | ⟨1, _⟩ => rfl
  have er : Cert.ReferenceIdeal.Read.ridx_main_v0 (ValueIdx.ix2 n j) k = ValueIdx.ix2 k j :=
    funext fun a => match a with | ⟨0, _⟩ => rfl | ⟨1, _⟩ => rfl
  rw [el, er]

/-- The first stage at element (n, j), at the ideal values. -/
theorem hRef_apply (x : FVec Ideal S100000x64 .f32) (w : FVec Ideal S64x64 .f32) (b g be mm mv : FVec Ideal S64 .f32)
    (n : Fin 100000) (j : Fin 64) :
    Cert.Chain.hRef (F := Ideal) x w b g be mm mv (ValueIdx.ix2 n j)
      = g (ValueIdx.ix1 j) * (((0 + ∑ k : Fin 64, x (ValueIdx.ix2 n k) * w (ValueIdx.ix2 k j)) + b (ValueIdx.ix1 j)) - mm (ValueIdx.ix1 j))
          * Host.rsqrt (F := Ideal) (addf mv (broadcastInDim S64 ![] bcast_S_S64 (constant (F := Ideal) S_ .f32 0x3A83126F#32))) (ValueIdx.ix1 j)
        + be (ValueIdx.ix1 j) := by
  unfold Cert.Chain.hRef
  simp only [ValueIdx.addf_apply, ValueIdx.mulf_apply, ValueIdx.subf_apply]
  rw [bcast_col_apply g n j, bcast_col_apply b n j, bcast_col_apply mm n j, bcast_col_apply be n j,
    bcast_col_apply (Host.rsqrt (F := Ideal) (addf mv (broadcastInDim S64 ![] bcast_S_S64 (constant (F := Ideal) S_ .f32 0x3A83126F#32)))) n j,
    dot_apply x w n j, zero_add]

end Cert.RefH

end
-- ==== Proof.HLaw.lean ====
/-
  The algebraic law that joins a folded batch normalisation to the unfolded one, on the extended reals.

  Folded:    x · (W · (γ · s)) + ((b − μ) · (γ · s) + β)
  Unfolded:  γ · ((x · W + b) − μ) · s + β
  with s = rsqrt (var + ε).  The two agree when every quantity is a finite real: on the extended reals
  multiplication does not distribute over addition at the infinities, so finiteness is a hypothesis, and
  the proof moves the whole identity into ℝ, where it is commutative-ring algebra plus pulling a constant
  factor out of a finite sum.

  Also here: rsqrt (v + ε) is a finite real when v is a non-negative real and ε is the f32 pattern of
  1e-3, a positive dyadic rational (8589935 · 2⁻³³), so that v + ε > 0 and rsqrt is the real (√(v+ε))⁻¹.
-/
import Idealize.ShloMosaic.PureOps.Ideal
import Idealize.ShloMosaic.PureOps.Ideal.Laws

noncomputable section

open Idealize.ShloMosaic Idealize.ShloMosaic.TcCoe Idealize.SL.Sem

namespace Cert.HLaw

/-- The coercion ℝ → EReal commutes with finite sums (it is additive and sends 0 to 0). -/
theorem coe_finset_sum {ι : Type} (t : Finset ι) (f : ι → ℝ) :
    ((∑ k ∈ t, f k : ℝ) : EReal) = ∑ k ∈ t, (f k : EReal) := by
  classical
  refine Finset.induction_on t (by simp) ?_
  intro a t ha ih
  rw [Finset.sum_insert ha, Finset.sum_insert ha, EReal.coe_add, ih]

/-- The identity in ℝ: a constant right factor comes out of the sum, the rest is ring algebra. -/
theorem fold_bn_real (x w : Fin 64 → ℝ) (b g be mm s : ℝ) :
    (∑ k : Fin 64, x k * (w k * (g * s))) + ((b - mm) * (g * s) + be)
      = g * (((∑ k : Fin 64, x k * w k) + b) - mm) * s + be := by
  have h : (∑ k : Fin 64, x k * (w k * (g * s))) = (∑ k : Fin 64, x k * w k) * (g * s) := by
    rw [Finset.sum_mul]
    refine Finset.sum_congr rfl (fun k _ => ?_)
    ring
  rw [h]
  ring

/-- The folded batch normalisation equals the unfolded one when all the quantities are finite reals. -/
theorem fold_bn (x w : Fin 64 → EReal) (b g be mm s : EReal)
    (hx : ∀ k, ∃ r : ℝ, x k = (r : EReal)) (hw : ∀ k, ∃ r : ℝ, w k = (r : EReal))
    (hb : ∃ r : ℝ, b = (r : EReal)) (hg : ∃ r : ℝ, g = (r : EReal)) (hbe : ∃ r : ℝ, be = (r : EReal))
    (hmm : ∃ r : ℝ, mm = (r : EReal)) (hs : ∃ r : ℝ, s = (r : EReal)) :
    (0 + ∑ k : Fin 64, x k * (w k * (g * s))) + ((b - mm) * (g * s) + be)
      = g * (((0 + ∑ k : Fin 64, x k * w k) + b) - mm) * s + be := by
  choose xr hxr using hx
  choose wr hwr using hw
  obtain ⟨br, rfl⟩ := hb
  obtain ⟨gr, rfl⟩ := hg
  obtain ⟨ber, rfl⟩ := hbe
  obtain ⟨mr, rfl⟩ := hmm
  obtain ⟨sr, rfl⟩ := hs
  obtain rfl : x = fun k => (xr k : EReal) := funext hxr
  obtain rfl : w = fun k => (wr k : EReal) := funext hwr
  simp only [zero_add, ← EReal.coe_mul, ← coe_finset_sum, ← EReal.coe_add, ← EReal.coe_sub]
  rw [fold_bn_real]

/-- The f32 pattern 0x3A83126F (the nearest f32 to 1e-3) denotes the dyadic rational 8589935 · 2⁻³³. -/
theorem ofBits_eps :
    Ideal.ofBits .f32 0x3A83126F#32 = (((8589935 : ℝ) * (2 : ℝ) ^ (-33 : Int) : ℝ) : EReal) := by
  simp [Ideal.ofBits, Ideal.ieee, -EReal.coe_mul]

/-- rsqrt of (a non-negative real + that positive ε) is a finite real: the argument is a positive real,
    where rsqrt is (√·)⁻¹. -/
theorem host_rsqrt_real {s : Shape} (a e : FVec Ideal s .f32) (i : s.Idx) (v : ℝ) (ha : a i = (v : EReal))
    (hv : 0 ≤ v) (he : e i = Ideal.ofBits .f32 0x3A83126F#32) :
    ∃ r : ℝ, Host.rsqrt (F := Ideal) (addf a e) i = (r : EReal) := by
  have hε : (0 : ℝ) < (8589935 : ℝ) * (2 : ℝ) ^ (-33 : Int) := by positivity
  have hpos : (0 : ℝ) < v + (8589935 : ℝ) * (2 : ℝ) ^ (-33 : Int) := by linarith
  have hsum : addf a e i = ((v + (8589935 : ℝ) * (2 : ℝ) ^ (-33 : Int) : ℝ) : EReal) := by
    show a i + e i = _
    rw [ha, he, ofBits_eps, ← EReal.coe_add]
  refine ⟨(Real.sqrt (v + (8589935 : ℝ) * (2 : ℝ) ^ (-33 : Int)))⁻¹, ?_⟩
  show Ideal.rsqrt (addf a e i) = _
  rw [hsum, Ideal.rsqrt_coe, if_neg (not_lt.mpr hpos.le), if_neg hpos.ne']

end Cert.HLaw

end
-- ==== Proof.HBridge.lean ====
/-
  The kernel's first stage equals the reference's, as arrays of extended reals.

  Kernel:     h = x · W' + b',   W'_{k,j} = W_{k,j} · (γ_j · s_j),   b'_j = (b_j − μ_j) · (γ_j · s_j) + β_j
  Reference:  h_{n,j} = γ_j · ((Σ_k x_{n,k} · W_{k,j} + b_j) − μ_j) · s_j + β_j
  with s_j = rsqrt (σ²_j + ε).  When every input is a finite real and σ² ≥ 0, s_j is a finite real (σ²_j + ε > 0)
  and the two agree element by element by the folding law on finite reals: the scale γ_j · s_j is a common right
  factor of every term of the sum and of the bias, and comes out.

  The per-column vectors reach the kernel's operands through the broadcasts [64] → [1, 64] (read at (0, j): the
  vector at j) and [1, 64] → [64, 64] (read at (k, j): the row at (0, j)).
-/
import proofs.«425288_j64493228916781_3_alg».proof.Proof.KDefs
import proofs.«425288_j64493228916781_3_alg».proof.Proof.Chain
import proofs.«425288_j64493228916781_3_alg».proof.Proof.RefH
import proofs.«425288_j64493228916781_3_alg».proof.Proof.HLaw
import proofs.«425288_j64493228916781_3_alg».proof.Proof.Gen.KernelIdeal
import proofs.«425288_j64493228916781_3_alg».proof.Proof.Gen.ReferenceIdeal

noncomputable section

namespace Cert.HBridge

open Idealize.ShloMosaic Idealize.ShloMosaic.TcCoe Idealize.SL.Sem
open Cert.KernelIdeal Cert.KernelIdeal.Facts₀ Cert.KernelIdeal.KDefs

/-- A vector broadcast [64] → [1, 64] reads, at (z, j), the vector at j. -/
theorem row_apply {F : FTy → Type} [FloatOps F] (v : FVec F S64 .f32) (z : Fin 1) (j : Fin 64) :
    broadcastInDim S1x64 ![1] bcast_S64_S1x64_1 v (ValueIdx.ix2 z j) = v (ValueIdx.ix1 j) :=
  broadcastInDim_apply _ bcast_S64_S1x64_1 v (ValueIdx.ix2 z j) (ValueIdx.ix1 j) (fun a => match a with
    | ⟨0, _⟩ => by show j.val = if (64 : Nat) = 1 then 0 else j.val; rw [if_neg (by decide)])

/-- A row broadcast [1, 64] → [64, 64] reads, at (k, j), the row at (0, j). -/
theorem tile_apply {F : FTy → Type} [FloatOps F] (r : FVec F S1x64 .f32) (k j : Fin 64) :
    broadcastInDim S64x64 ![0, 1] bcast_S1x64_S64x64_0_1 r (ValueIdx.ix2 k j) = r (ValueIdx.ix2 (0 : Fin 1) j) :=
  broadcastInDim_apply _ bcast_S1x64_S64x64_0_1 r (ValueIdx.ix2 k j) (ValueIdx.ix2 (0 : Fin 1) j) (fun a => match a with
    | ⟨0, _⟩ => by show 0 = if (1 : Nat) = 1 then 0 else k.val; rw [if_pos rfl]
    | ⟨1, _⟩ => by show j.val = if (64 : Nat) = 1 then 0 else j.val; rw [if_neg (by decide)])

/-- rsqrt (σ² + ε), per column. -/
def rs (mv : FVec Ideal S64 .f32) : FVec Ideal S64 .f32 :=
  Host.rsqrt (F := Ideal) (addf mv (broadcastInDim S64 ![] bcast_S_S64 (constant (F := Ideal) S_ .f32 0x3A83126F#32)))

/-- The scale is γ · rsqrt (σ² + ε), element by element. -/
theorem scaleK_apply (g mv : FVec Ideal S64 .f32) (j : Fin 64) :
    scaleK (F := Ideal) g mv (ValueIdx.ix1 j) = g (ValueIdx.ix1 j) * rs mv (ValueIdx.ix1 j) := rfl

/-- The folded weight at (k, j). -/
theorem wpK_apply (w : FVec Ideal S64x64 .f32) (g mv : FVec Ideal S64 .f32) (k j : Fin 64) :
    wpK (F := Ideal) w g mv (ValueIdx.ix2 k j) = w (ValueIdx.ix2 k j) * (g (ValueIdx.ix1 j) * rs mv (ValueIdx.ix1 j)) := by
  unfold wpK
  rw [ValueIdx.mulf_apply, tile_apply, row_apply, scaleK_apply]

/-- The folded bias row at (0, j). -/
theorem bpK_apply (b mm g mv be : FVec Ideal S64 .f32) (j : Fin 64) :
    bpK (F := Ideal) b mm g mv be (ValueIdx.ix2 (0 : Fin 1) j)
      = (b (ValueIdx.ix1 j) - mm (ValueIdx.ix1 j)) * (g (ValueIdx.ix1 j) * rs mv (ValueIdx.ix1 j)) + be (ValueIdx.ix1 j) := by
  unfold bpK
  rw [row_apply, ValueIdx.addf_apply, ValueIdx.mulf_apply, ValueIdx.subf_apply, scaleK_apply]

/-- The kernel's first stage at (n, j). -/
theorem hK_apply (x : FVec Ideal S100000x64 .f32) (wp : FVec Ideal S64x64 .f32) (bp : FVec Ideal S1x64 .f32)
    (n : Fin 100000) (j : Fin 64) :
    hK x wp bp (ValueIdx.ix2 n j)
      = (0 + ∑ k : Fin 64, x (ValueIdx.ix2 n k) * wp (ValueIdx.ix2 k j)) + bp (ValueIdx.ix2 (0 : Fin 1) j) := rfl

/-- The kernel's first stage is the reference's, when every input is a finite real and the variance is non-negative. -/
theorem hK_eq_hRef (x : FVec Ideal S100000x64 .f32) (w : FVec Ideal S64x64 .f32) (b g be mm mv : FVec Ideal S64 .f32)
    (hx : ∀ i, ∃ r : ℝ, x i = (r : EReal)) (hw : ∀ i, ∃ r : ℝ, w i = (r : EReal)) (hb : ∀ i, ∃ r : ℝ, b i = (r : EReal))
    (hg : ∀ i, ∃ r : ℝ, g i = (r : EReal)) (hbe : ∀ i, ∃ r : ℝ, be i = (r : EReal)) (hmm : ∀ i, ∃ r : ℝ, mm i = (r : EReal))
    (hmv : ∀ i, ∃ r : ℝ, mv i = (r : EReal)) (hmv0 : ∀ i, (0 : EReal) ≤ mv i) :
    Cert.KernelIdeal.KDefs.hK x (Cert.KernelIdeal.KDefs.wpK w g mv) (Cert.KernelIdeal.KDefs.bpK b mm g mv be)
      = Cert.Chain.hRef (F := Ideal) x w b g be mm mv := by
  funext i
  obtain ⟨n, j, rfl⟩ : ∃ (n : Fin 100000) (j : Fin 64), i = ValueIdx.ix2 n j := ⟨i 0, i 1, ValueIdx.eq_ix2 i⟩
  refine (hK_apply x _ _ n j).trans ?_
  refine Eq.trans ?_ (Cert.RefH.hRef_apply x w b g be mm mv n j).symm
  rw [bpK_apply]
  simp only [wpK_apply]
  obtain ⟨v, hv⟩ := hmv (ValueIdx.ix1 j)
  have hv0 : 0 ≤ v := by
    have h0 := hmv0 (ValueIdx.ix1 j)
    rw [hv] at h0
    exact EReal.coe_nonneg.mp h0
  have hs : ∃ r : ℝ, rs mv (ValueIdx.ix1 j) = (r : EReal) :=
    Cert.HLaw.host_rsqrt_real mv (broadcastInDim S64 ![] bcast_S_S64 (constant (F := Ideal) S_ .f32 0x3A83126F#32))
      (ValueIdx.ix1 j) v hv hv0 rfl
  exact Cert.HLaw.fold_bn (fun k => x (ValueIdx.ix2 n k)) (fun k => w (ValueIdx.ix2 k j)) (b (ValueIdx.ix1 j)) (g (ValueIdx.ix1 j))
    (be (ValueIdx.ix1 j)) (mm (ValueIdx.ix1 j)) (rs mv (ValueIdx.ix1 j)) (fun k => hx _) (fun k => hw _) (hb _) (hg _) (hbe _) (hmm _) hs

end Cert.HBridge

end
-- ==== Proof.PoolLaw.lean ====
/-
  The pooling law. Per graph `g` and column `j`, the kernel's two cores each walk ten blocks of 5000 rows, adding
  to a zeroed `[128, 64]` accumulator the product of a one-hot matrix (row `r` of the block belongs to graph `g`:
  an iota compared with the block's graph ids) with the block's PReLU'd rows, and the two accumulators are added;
  the reference scatter-adds the PReLU'd rows by graph id into zeros. On the extended reals both are the sum, over
  all 100000 rows `n`, of `[seg n = g] · PReLU(a n j)`: `1 · x = x` and `0 · x = 0` hold at the infinities too,
  addition is associative and commutative, and a graph id outside `[0, 128)` equals no iota row and is dropped by
  the scatter alike. The rows are regrouped as `n = (c·10 + i)·5000 + r`.
-/
import proofs.«425288_j64493228916781_3_alg».proof.Proof.PoolDefs
import proofs.«425288_j64493228916781_3_alg».proof.Proof.Gen.ReferenceIdeal
import proofs.«425288_j64493228916781_3_alg».proof.Proof.Chain
import Idealize.ShloMosaic.Lib.ValueIdx
import Idealize.ShloMosaic.Lib.Pipeline.Value
import Idealize.ShloMosaic.Lib.ValueLayout
import Idealize.ShloMosaic.PureOps.Ideal.Laws

noncomputable section

namespace Cert.PoolLaw

open Cert.KernelIdeal Cert.KernelIdeal.Gen Idealize.ShloMosaic Idealize.ShloMosaic.TcCoe Idealize.SL.Sem
open scoped BigOperators

/-! ## Sums and words -/

/-- A sum over `m * k` consecutive naturals, taken block by block. -/
theorem sum_range_blocks {M : Type*} [AddCommMonoid M] (f : ℕ → M) (k : ℕ) :
    ∀ m : ℕ, ∑ n ∈ Finset.range (m * k), f n = ∑ p ∈ Finset.range m, ∑ r ∈ Finset.range k, f (p * k + r)
  | 0 => by simp
  | m + 1 => by
    rw [Nat.succ_mul, Finset.sum_range_add, sum_range_blocks f k m, Finset.sum_range_succ]

/-- A 32-bit word is the word of a small natural exactly when it reads, signed, as that natural. -/
theorem ofNat_eq_iff_toInt (x : BitVec 32) (g : ℕ) (hg : g < 128) :
    BitVec.ofNat 32 g = x ↔ x.toInt = (g : ℤ) := by
  have h1 : (BitVec.ofNat 32 g).toNat = g := by
    rw [BitVec.toNat_ofNat]; exact Nat.mod_eq_of_lt (by omega)
  constructor
  · rintro rfl
    rw [BitVec.toInt_eq_toNat_of_lt (by rw [h1]; omega), h1]
  · intro h
    apply BitVec.eq_of_toNat_eq
    rw [h1]
    have h2 := BitVec.toInt_eq_toNat_cond x
    have h3 := x.isLt
    split at h2 <;> omega

/-- The comparison word of two words is `1` exactly when they are equal. -/
theorem cmpi_eq_one_iff (x y : BitVec 32) : IntOp.cmpi .eq x y = 1#1 ↔ x = y := by
  show BitVec.ofBool (x == y) = 1#1 ↔ x = y
  by_cases h : x = y
  · subst h; simp
  · have hb : (x == y) = false := beq_false_of_ne h
    rw [hb]
    exact iff_of_false (by decide) h

/-- A one-bit word, widened and converted, is the extended real `1` or `0`. -/
theorem sitofp_bit (b : BitVec 1) :
    (FloatOps.sitofp (F := Ideal) .f32 (b.setWidth 32) : EReal) = if b = 1#1 then 1 else 0 := by
  show (((b.setWidth 32).toInt : ℝ) : EReal) = _
  rcases BitVec.eq_zero_or_eq_one b with h | h <;> subst h
  · rw [if_neg (by decide), show ((0#1 : BitVec 1).setWidth 32).toInt = 0 by decide]; simp
  · rw [if_pos rfl, show ((1#1 : BitVec 1).setWidth 32).toInt = 1 by decide]; simp

/-! ## The kernel's payloads at an index -/

open ValueIdx

/-- PReLU of one extended real with slope `al`: `x` where `x > 0`, else `al * x`. -/
def preluElt (x al : EReal) : EReal :=
  Scalar.select (Ideal.cmp .ogt x (Ideal.ofBits .f32 0x00000000#32)) x (al * x)

/-- The zero block the accumulator is reset to reads `0` everywhere. -/
theorem pay1_apply (g : Fin 128) (j : Fin 64) : k1_pay1 (F := Ideal) (ix2 g j) = 0 := by
  unfold k1_pay1
  simp only [shapeCast_self]
  exact Ideal.ofBits_zero_f32

theorem dot_lhs_0 (i : S128x64.Idx) (q : dot_S128x5000_S5000x64_S128x64_1_0_0_1_n_n.contr.Idx) :
    (dot_S128x5000_S5000x64_S128x64_1_0_0_1_n_n.lhsIdx i q 0).val = (i 0).val := by
  unfold DotDims.lhsIdx
  rw [dif_neg (show ¬(0 : Fin S128x5000.rank) ∈ dot_S128x5000_S5000x64_S128x64_1_0_0_1_n_n.lhsBatch by decide), dif_pos (show (0 : Fin S128x5000.rank) ∈ dot_S128x5000_S5000x64_S128x64_1_0_0_1_n_n.lhsNonContracting by decide)]
  rfl
theorem dot_lhs_1 (i : S128x64.Idx) (q : dot_S128x5000_S5000x64_S128x64_1_0_0_1_n_n.contr.Idx) :
    (dot_S128x5000_S5000x64_S128x64_1_0_0_1_n_n.lhsIdx i q 1).val = (q ⟨0, by decide⟩).val :=
  dot_S128x5000_S5000x64_S128x64_1_0_0_1_n_n.lhsIdx_val_of_single rfl i q
theorem dot_rhs_0 (i : S128x64.Idx) (q : dot_S128x5000_S5000x64_S128x64_1_0_0_1_n_n.contr.Idx) :
    (dot_S128x5000_S5000x64_S128x64_1_0_0_1_n_n.rhsIdx i q 0).val = (q ⟨0, by decide⟩).val :=
  dot_S128x5000_S5000x64_S128x64_1_0_0_1_n_n.rhsIdx_val_of_single rfl i q
theorem dot_rhs_1 (i : S128x64.Idx) (q : dot_S128x5000_S5000x64_S128x64_1_0_0_1_n_n.contr.Idx) :
    (dot_S128x5000_S5000x64_S128x64_1_0_0_1_n_n.rhsIdx i q 1).val = (i 1).val := by
  unfold DotDims.rhsIdx
  rw [dif_neg (show ¬(1 : Fin S5000x64.rank) ∈ dot_S128x5000_S5000x64_S128x64_1_0_0_1_n_n.rhsBatch by decide), dif_pos (show (1 : Fin S5000x64.rank) ∈ dot_S128x5000_S5000x64_S128x64_1_0_0_1_n_n.rhsNonContracting by decide)]
  rfl

/-- One step's stored value at `(g, j)`: the accumulator there plus the sum over the block's rows of
    the one-hot entry (row `r` belongs to graph `g`) times the PReLU'd entry. -/
theorem pay2_apply (x : FVec Ideal S5000x64 .f32) (al2 : FVec Ideal S1x64 .f32) (sg : IVec S1x1x5000 32)
    (acc : FVec Ideal S128x64 .f32) (g : Fin 128) (j : Fin 64) :
    k1_pay2 (F := Ideal) x al2 sg acc (ix2 g j)
      = acc (ix2 g j) + ∑ r : Fin 5000,
          (if BitVec.ofNat 32 g.val = sg (ix3 (0 : Fin 1) (0 : Fin 1) r) then (1 : EReal) else 0)
            * preluElt (x (ix2 r j)) (al2 (ix2 (0 : Fin 1) j)) := by
  unfold k1_pay2
  simp only [shapeCast_self]
  rw [ValueIdx.addf_apply]
  refine congrArg (acc (ix2 g j) + ·) ?_
  refine (Ideal.matmul_constant_zero_apply dot_S128x5000_S5000x64_S128x64_1_0_0_1_n_n none _ _ (ix2 g j)).trans ?_
  rw [← Equiv.sum_comp (ValueIdx.contrEquiv1 dot_S128x5000_S5000x64_S128x64_1_0_0_1_n_n 5000 rfl rfl).symm]
  refine Finset.sum_congr rfl fun r _ => ?_
  have hk := ValueIdx.contrEquiv1_symm_val dot_S128x5000_S5000x64_S128x64_1_0_0_1_n_n 5000 rfl rfl r
  have el : dot_S128x5000_S5000x64_S128x64_1_0_0_1_n_n.lhsIdx (ix2 g j) ((ValueIdx.contrEquiv1 dot_S128x5000_S5000x64_S128x64_1_0_0_1_n_n 5000 rfl rfl).symm r) = ix2 g r := funext fun a => Fin.ext (by
    match a with
    | ⟨0, _⟩ => exact dot_lhs_0 _ _
    | ⟨1, _⟩ => exact (dot_lhs_1 _ _).trans hk)
  have er : dot_S128x5000_S5000x64_S128x64_1_0_0_1_n_n.rhsIdx (ix2 g j) ((ValueIdx.contrEquiv1 dot_S128x5000_S5000x64_S128x64_1_0_0_1_n_n 5000 rfl rfl).symm r) = ix2 r j := funext fun a => Fin.ext (by
    match a with
    | ⟨0, _⟩ => exact (dot_rhs_0 _ _).trans hk
    | ⟨1, _⟩ => exact dot_rhs_1 _ _)
  rw [el, er]
  refine congrArg₂ (· * ·) ?_ ?_
  · show FloatOps.sitofp (F := Ideal) .f32
        ((IntOp.cmpi .eq (iota .tc S128x5000 32 [0] iota_S128x5000_d0_w32 (ix2 g r))
          (broadcastTo S128x5000 (shapeCast S1x5000 sg shapeCasts_S1x1x5000_S1x5000) broadcasts_S1x5000_S128x5000 (ix2 g r))).setWidth 32) = _
    rw [sitofp_bit, iota_single_apply, ValueIdx.broadcastTo_1b_ab_apply, ValueIdx.shapeCast_1ab_ab_apply]
    exact if_congr (cmpi_eq_one_iff _ _) rfl rfl
  · show Scalar.select (FloatOps.cmpf .ogt (x (ix2 r j)) (FloatOps.ofBits (F := Ideal) .f32 0x00000000#32)) (x (ix2 r j))
        (broadcastTo S5000x64 al2 broadcasts_S1x64_S5000x64 (ix2 r j) * x (ix2 r j)) = _
    rw [ValueIdx.broadcastTo_1b_ab_apply]
    rfl

/-! ## The reference's stages at an index -/

/-- The slope row, broadcast from the vector of slopes, reads the slope of its column. -/
theorem alRow_apply (al : FVec Ideal S64 .f32) (j : Fin 64) :
    broadcastInDim S1x64 ![1] bcast_S64_S1x64_1 al (ix2 (0 : Fin 1) j) = al (ix1 j) :=
  broadcastInDim_apply _ bcast_S64_S1x64_1 al (ix2 (0 : Fin 1) j) (ix1 j) (fun a => match a with
    | ⟨0, _⟩ => by show j.val = if (64 : Nat) = 1 then 0 else j.val; rw [if_neg (by decide)])

/-- The reference's PReLU of the node array at `(n, j)`. -/
theorem ref_prelu_apply (a : FVec Ideal S100000x64 .f32) (al : FVec Ideal S64 .f32) (n : Fin 100000) (j : Fin 64) :
    Cert.Chain.prelu (F := Ideal) a al (ix2 n j) = preluElt (a (ix2 n j)) (al (ix1 j)) := by
  have h1 : broadcastInDim Cert.ReferenceIdeal.S100000x64 ![0, 1] Cert.ReferenceIdeal.Facts₀.bcast_S1x64_S100000x64_0_1
        (broadcastInDim Cert.ReferenceIdeal.S1x64 ![1] Cert.ReferenceIdeal.Facts₀.bcast_S64_S1x64_1 al) (ix2 n j) = al (ix1 j) :=
    (broadcastInDim_apply _ Cert.ReferenceIdeal.Facts₀.bcast_S1x64_S100000x64_0_1 _ (ix2 n j) (ix2 (0 : Fin 1) j) (fun a => match a with
      | ⟨0, _⟩ => by show 0 = if (1 : Nat) = 1 then 0 else n.val; rw [if_pos rfl]
      | ⟨1, _⟩ => by show j.val = if (64 : Nat) = 1 then 0 else j.val; rw [if_neg (by decide)])).trans
    (broadcastInDim_apply _ Cert.ReferenceIdeal.Facts₀.bcast_S64_S1x64_1 al (ix2 (0 : Fin 1) j) (ix1 j) (fun a => match a with
      | ⟨0, _⟩ => by show j.val = if (64 : Nat) = 1 then 0 else j.val; rw [if_neg (by decide)]))
  unfold Cert.Chain.prelu
  show Scalar.select (FloatOps.cmpf .ogt (a (ix2 n j)) (FloatOps.ofBits (F := Ideal) .f32 0x00000000#32)) (a (ix2 n j))
      (broadcastInDim Cert.ReferenceIdeal.S100000x64 ![0, 1] Cert.ReferenceIdeal.Facts₀.bcast_S1x64_S100000x64_0_1
        (broadcastInDim Cert.ReferenceIdeal.S1x64 ![1] Cert.ReferenceIdeal.Facts₀.bcast_S64_S1x64_1 al) (ix2 n j) * a (ix2 n j)) = _
  rw [h1]
  rfl

/-- The scatter's dimension numbers: rows of the updates go to the row their index names. -/
abbrev dS : ScatterDims Cert.ReferenceIdeal.S128x64 Cert.ReferenceIdeal.S100000x1 Cert.ReferenceIdeal.S100000x64 :=
  Cert.ReferenceIdeal.scatter_S128x64_S100000x1_S100000x64_1_0_0_1

/-- The graph ids as the column of scatter indices. -/
abbrev segCol (seg : IVec S100000 32) : IVec Cert.ReferenceIdeal.S100000x1 32 :=
  broadcastInDim Cert.ReferenceIdeal.S100000x1 ![0] Cert.ReferenceIdeal.Facts₀.bcast_S100000_S100000x1_0 seg

theorem scat_start0 (seg : IVec S100000 32) (u : Cert.ReferenceIdeal.S100000x64.Idx) :
    dS.start u (segCol seg) 0 = (seg (ix1 (u 0))).toInt := by
  unfold ScatterDims.start
  rw [dif_pos (show (0 : Fin Cert.ReferenceIdeal.S128x64.rank) ∈ dS.scatterDimsToOperandDims by decide)]
  refine congrArg BitVec.toInt ?_
  refine broadcastInDim_apply _ _ seg _ (ix1 (u 0)) (fun a => match a with
    | ⟨0, _⟩ => ?_)
  show (u 0).val = if (100000 : Nat) = 1 then 0 else _
  rw [if_neg (by decide)]
  rfl

theorem scat_start1 (seg : IVec S100000 32) (u : Cert.ReferenceIdeal.S100000x64.Idx) :
    dS.start u (segCol seg) 1 = 0 := by
  unfold ScatterDims.start
  rw [dif_neg (show ¬(1 : Fin Cert.ReferenceIdeal.S128x64.rank) ∈ dS.scatterDimsToOperandDims by decide)]

theorem scat_window0 (u : Cert.ReferenceIdeal.S100000x64.Idx) : dS.window u 0 = 0 := by
  unfold ScatterDims.window
  rw [dif_neg (show ¬(0 : Fin Cert.ReferenceIdeal.S128x64.rank) ∈ dS.sKept by decide)]

theorem scat_window1 (u : Cert.ReferenceIdeal.S100000x64.Idx) : dS.window u 1 = (u 1).val := by
  unfold ScatterDims.window
  rw [dif_pos (show (1 : Fin Cert.ReferenceIdeal.S128x64.rank) ∈ dS.sKept by decide)]
  rfl

/-- An update element `u` lands on `(g, j)` exactly when its row's graph id, read signed, is `g` and its
    column is `j`; a row whose id is outside `[0, 128)` lands nowhere. -/
theorem resultIdx_iff (seg : IVec S100000 32) (u : Cert.ReferenceIdeal.S100000x64.Idx) (g : Fin 128) (j : Fin 64) :
    dS.resultIdx? u (segCol seg) = some (ix2 g j) ↔ (seg (ix1 (u 0))).toInt = (g.val : ℤ) ∧ u 1 = j := by
  have hs0 := scat_start0 seg u
  have hs1 := scat_start1 seg u
  have hw0 := scat_window0 u
  have hw1 := scat_window1 u
  have hg := g.isLt
  have hj := j.isLt
  have hu1 : (u 1).val < 64 := (u 1).isLt
  unfold ScatterDims.resultIdx?
  split
  · next h =>
    rw [Option.some.injEq]
    constructor
    · intro e
      have e0 : (dS.start u (segCol seg) 0 + (dS.window u 0 : ℤ)).toNat = g.val := congrArg (fun f => (f 0).val) e
      have e1 : (dS.start u (segCol seg) 1 + (dS.window u 1 : ℤ)).toNat = j.val := congrArg (fun f => (f 1).val) e
      have h0 := (h 0).1
      rw [hs0, hw0] at e0 h0
      rw [hs1, hw1] at e1
      exact ⟨by omega, Fin.ext (by omega)⟩
    · rintro ⟨e0, e1⟩
      funext b
      apply Fin.ext
      match b with
      | ⟨0, _⟩ =>
        show (dS.start u (segCol seg) 0 + (dS.window u 0 : ℤ)).toNat = g.val
        rw [hs0, hw0, e0]; omega
      | ⟨1, _⟩ =>
        show (dS.start u (segCol seg) 1 + (dS.window u 1 : ℤ)).toNat = j.val
        rw [hs1, hw1, ← e1]; omega
  · next h =>
    refine iff_of_false (by simp) ?_
    rintro ⟨e0, e1⟩
    apply h
    intro b
    match b with
    | ⟨0, _⟩ =>
      show 0 ≤ dS.start u (segCol seg) 0 + (dS.window u 0 : ℤ) ∧ dS.start u (segCol seg) 0 + (dS.window u 0 : ℤ) < ((128 : ℕ) : ℤ)
      rw [hs0, hw0, e0]; omega
    | ⟨1, _⟩ =>
      show 0 ≤ dS.start u (segCol seg) 1 + (dS.window u 1 : ℤ) ∧ dS.start u (segCol seg) 1 + (dS.window u 1 : ℤ) < ((64 : ℕ) : ℤ)
      rw [hs1, hw1]; omega

/-- The updates that land on `(g, j)`, summed: the rows whose graph id is `g`, at column `j`. -/
theorem scatter_sum (seg : IVec S100000 32) (upd : Cert.ReferenceIdeal.S100000x64.Idx → EReal) (g : Fin 128) (j : Fin 64)
    [DecidablePred fun u => dS.resultIdx? u (segCol seg) = some (ix2 g j)] :
    ∑ u ∈ Finset.univ.filter (fun u => dS.resultIdx? u (segCol seg) = some (ix2 g j)), upd u
      = ∑ n : Fin 100000, if (seg (ix1 n)).toInt = (g.val : ℤ) then upd (ix2 n j) else 0 := by
  rw [Finset.sum_filter, ValueIdx.sum_idx2]
  refine Finset.sum_congr rfl fun n _ => ?_
  rw [Finset.sum_eq_single j]
  · exact if_congr ((resultIdx_iff seg (ix2 n j) g j).trans ⟨fun h => h.1, fun h => ⟨h, rfl⟩⟩) rfl rfl
  · intro b _ hb
    rw [if_neg]
    rw [resultIdx_iff]
    exact fun h => hb h.2
  · intro h; exact absurd (Finset.mem_univ j) h

/-! ## Both sides as one sum over the rows -/

/-- Row `n`'s contribution to graph `g` at column `j`: its PReLU'd entry if its graph id is `g`, else nothing
    (and nothing past the last row). -/
def term (a : FVec Ideal S100000x64 .f32) (seg : IVec S100000 32) (al : FVec Ideal S64 .f32) (g : Fin 128) (j : Fin 64)
    (n : ℕ) : EReal :=
  if h : n < 100000 then
    (if BitVec.ofNat 32 g.val = seg (ix1 ⟨n, h⟩) then (1 : EReal) else 0) * preluElt (a (ix2 ⟨n, h⟩ j)) (al (ix1 j))
  else 0

/-- The sum one step adds, over block `p`, is the sum of that block's rows' contributions. -/
theorem block_sum (a : FVec Ideal S100000x64 .f32) (seg : IVec S100000 32) (al : FVec Ideal S64 .f32) (p : ℕ) (hp : p < 20)
    (g : Fin 128) (j : Fin 64) :
    ∑ r : Fin 5000, (if BitVec.ofNat 32 g.val = segBlk seg p hp (ix3 (0 : Fin 1) (0 : Fin 1) r) then (1 : EReal) else 0)
        * preluElt (aggBlk a p hp (ix2 r j)) (broadcastInDim S1x64 ![1] bcast_S64_S1x64_1 al (ix2 (0 : Fin 1) j))
      = ∑ r ∈ Finset.range 5000, term a seg al g j (p * 5000 + r) := by
  rw [← Fin.sum_univ_eq_sum_range (fun r => term a seg al g j (p * 5000 + r)) 5000]
  refine Finset.sum_congr rfl fun r _ => ?_
  have hr := r.isLt
  unfold term
  rw [dif_pos (show p * 5000 + r.val < 100000 by omega), alRow_apply]
  rfl

/-- Core `c`'s accumulator after step `i`: the contributions of the rows of its first `i + 1` blocks. -/
theorem accK_apply (a : FVec Ideal S100000x64 .f32) (seg : IVec S100000 32) (al : FVec Ideal S64 .f32) (c : Fin 2)
    (g : Fin 128) (j : Fin 64) :
    ∀ (i : ℕ) (hi : i < 10), accK a seg al c i hi (ix2 g j)
      = ∑ i' ∈ Finset.range (i + 1), ∑ r ∈ Finset.range 5000, term a seg al g j ((c.val * 10 + i') * 5000 + r)
  | 0, hi => by
    rw [accK, pay2_apply, pay1_apply, zero_add, block_sum, Finset.sum_range_one]
  | i + 1, hi => by
    rw [accK, pay2_apply, accK_apply a seg al c g j i (by omega), block_sum]
    exact (Finset.sum_range_succ (fun i' => ∑ r ∈ Finset.range 5000, term a seg al g j ((c.val * 10 + i') * 5000 + r)) (i + 1)).symm

theorem pool_law (a : FVec Ideal S100000x64 .f32) (seg : IVec S100000 32) (al : FVec Ideal S64 .f32) (P : FVec Ideal S2x128x64 .f32)
    (hP : ∀ (c : Fin 2) (g : Fin 128) (j : Fin 64), P (ValueIdx.ix3 c g j) = accK a seg al c 9 (by omega) (ValueIdx.ix2 g j)) :
    (Host.reduceAdd (F := Ideal) P (constant (F := Ideal) S_ .f32 0x00000000#32) reducesTo_S2x128x64_S128x64_d0 h_S_ : FVec Ideal S128x64 .f32)
      = Cert.Chain.pooled (F := Ideal) (Cert.Chain.prelu (F := Ideal) a al) seg := by
  funext y
  obtain ⟨g, j, rfl⟩ : ∃ (g : Fin 128) (j : Fin 64), y = ix2 g j := ⟨y 0, y 1, eq_ix2 y⟩
  -- the kernel: the two cores' accumulators, added, are the rows' contributions block by block
  have hsplit : ∑ n ∈ Finset.range 100000, term a seg al g j n
      = ∑ p ∈ Finset.range 10, ∑ r ∈ Finset.range 5000, term a seg al g j (p * 5000 + r)
        + ∑ p ∈ Finset.range 10, ∑ r ∈ Finset.range 5000, term a seg al g j ((10 + p) * 5000 + r) :=
    (sum_range_blocks (term a seg al g j) 5000 20).trans
      (Finset.sum_range_add (fun p => ∑ r ∈ Finset.range 5000, term a seg al g j (p * 5000 + r)) 10 10)
  have hK : (Host.reduceAdd (F := Ideal) P (constant (F := Ideal) S_ .f32 0x00000000#32) reducesTo_S2x128x64_S128x64_d0 h_S_
        : FVec Ideal S128x64 .f32) (ix2 g j) = ∑ n ∈ Finset.range 100000, term a seg al g j n := by
    have hR : S2x128x64.Reduces [0] S128x64 := by decide
    show Ideal.hostReduceAdd reducesTo_S2x128x64_S128x64_d0 P (Ideal.ofBits .f32 0x00000000#32) (ix2 g j) = _
    rw [Ideal.hostReduceAdd_single reducesTo_S2x128x64_S128x64_d0 hR, Ideal.ofBits_zero_f32, zero_add]
    show ∑ k : Fin 2, P (hR.lift (ix2 g j) k) = _
    rw [Fin.sum_univ_two]
    have l0 : hR.lift (ix2 g j) (0 : Fin 2) = ix3 (0 : Fin 2) g j := funext fun b => Fin.ext (by
      match b with
      | ⟨0, _⟩ => rfl
      | ⟨1, _⟩ => rfl
      | ⟨2, _⟩ => rfl)
    have l1 : hR.lift (ix2 g j) (1 : Fin 2) = ix3 (1 : Fin 2) g j := funext fun b => Fin.ext (by
      match b with
      | ⟨0, _⟩ => rfl
      | ⟨1, _⟩ => rfl
      | ⟨2, _⟩ => rfl)
    rw [l0, l1, hP, hP, accK_apply, accK_apply, hsplit]
    refine congrArg₂ (· + ·) ?_ ?_
    · exact Finset.sum_congr rfl fun i' _ => Finset.sum_congr rfl fun r _ =>
        congrArg (term a seg al g j) (by show (0 * 10 + i') * 5000 + r = i' * 5000 + r; omega)
    · exact Finset.sum_congr rfl fun i' _ => Finset.sum_congr rfl fun r _ =>
        congrArg (term a seg al g j) (by show (1 * 10 + i') * 5000 + r = (10 + i') * 5000 + r; omega)
  -- the reference: the scatter-add at (g, j) is the same sum
  have hRf : Cert.Chain.pooled (F := Ideal) (Cert.Chain.prelu (F := Ideal) a al) seg (ix2 g j)
      = ∑ n ∈ Finset.range 100000, term a seg al g j n := by
    unfold Cert.Chain.pooled
    show Ideal.hostScatterAdd dS _ (segCol seg) (Cert.Chain.prelu (F := Ideal) a al) (ix2 g j) = _
    unfold Ideal.hostScatterAdd
    show Ideal.ofBits .f32 0x00000000#32 + _ = _
    rw [Ideal.ofBits_zero_f32, zero_add, scatter_sum, ← Fin.sum_univ_eq_sum_range (term a seg al g j) 100000]
    refine Finset.sum_congr rfl fun n _ => ?_
    unfold term
    rw [dif_pos n.isLt, ref_prelu_apply, ite_mul, one_mul, zero_mul]
    exact if_congr (ofNat_eq_iff_toInt _ _ g.isLt).symm rfl rfl
  rw [hK, hRf]

end Cert.PoolLaw

end
-- ==== Proof.PreFacts.lean ====
import proofs.«425288_j64493228916781_3_alg».proof.Pre_finite_inputs
import proofs.«425288_j64493228916781_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal
import Idealize.ShloMosaic.PureOps.Ideal.Laws

/-!
# The precondition `finite_inputs`, decoded at the ideal values

The printed predicate is a conjunction of `jnp.all`s: for each float input, `all(|v| < +∞)`; for the moving
variance, `all(v ≥ 0)`; for the source indices, `all((v ≥ 0) & (v < 100000))` with signed comparisons. Each
`jnp.all` is a reduction by `and` from the constant 1 into the rank-0 shape, and the conjunction is a chain of
`and`s of one-bit words. Read at the extended reals, `|v| < +∞` says that `v` is a real number (neither
infinity), `v ≥ 0` is the order of the extended reals, and the signed word comparisons are inequalities between
the words' signed values.
-/

noncomputable section

namespace Cert.PreFacts

open Idealize.ShloMosaic Idealize.ShloMosaic.TcCoe Idealize.SL.Sem
open Cert.Pre_finite_inputs

/-- The rank-0 shape has exactly one index. -/
instance : Subsingleton S_.Idx := ⟨fun a b => funext fun d => d.elim0⟩

/-! ## Single comparisons read back -/

/-- The f32 pattern `0x7F800000` denotes `+∞`. -/
theorem ofBits_inf_f32 : Ideal.ofBits .f32 0x7F800000#32 = (⊤ : EReal) := by
  simp [Ideal.ofBits, Ideal.ieee]

/-- An extended real whose absolute value `max x (-x)` is below `+∞` is a real number:
    at `⊥` and at `⊤` the maximum is `⊤`. -/
theorem real_of_abs_lt_top (x : EReal) (h : max x (-x) < ⊤) : ∃ r : ℝ, x = (r : EReal) := by
  induction x using EReal.rec with
  | bot => simp at h
  | top => simp at h
  | coe r => exact ⟨r, rfl⟩

/-- A one-bit word made from a decidable proposition is 1 only when the proposition holds. -/
theorem of_ofBool_decide_eq_one {p : Prop} [Decidable p] (h : BitVec.ofBool (decide p) = 1#1) : p := by
  by_cases hp : p
  · exact hp
  · rw [decide_eq_false hp] at h; exact absurd h (by decide)

/-- One element of `|x| < +∞`: where the comparison's bit is set, the entry of `x` is a real number. -/
theorem real_of_elem {s : Shape} (x : FVec Ideal s .f32)
    (hb : S_.BroadcastsInDim s (![] : Fin 0 → Fin s.rank)) (i : s.Idx)
    (e : cmpf .olt (Host.absf x) (broadcastInDim s ![] hb (constant (F := Ideal) S_ .f32 0x7F800000#32)) i = 1#1) :
    ∃ r : ℝ, x i = (r : EReal) := by
  have e' : BitVec.ofBool (decide (max (x i) (-(x i)) < Ideal.ofBits .f32 0x7F800000#32)) = 1#1 := e
  rw [ofBits_inf_f32] at e'
  exact real_of_abs_lt_top (x i) (of_ofBool_decide_eq_one e')

/-- One element of `x ≥ 0`: where the comparison's bit is set, the entry of `x` is at least zero. -/
theorem nonneg_of_elem {s : Shape} (x : FVec Ideal s .f32)
    (hb : S_.BroadcastsInDim s (![] : Fin 0 → Fin s.rank)) (i : s.Idx)
    (e : cmpf .oge x (broadcastInDim s ![] hb (constant (F := Ideal) S_ .f32 0x00000000#32)) i = 1#1) :
    (0 : EReal) ≤ x i := by
  have e' : BitVec.ofBool (decide (Ideal.ofBits .f32 0x00000000#32 ≤ x i)) = 1#1 := e
  rw [Ideal.ofBits_zero_f32] at e'
  exact of_ofBool_decide_eq_one e'

/-- One element of `(v ≥ 0) & (v < 100000)` over signed 32-bit words: where the bit is set, the word, read
    signed, lies in `[0, 100000)`. -/
theorem range_of_elem {s : Shape} (v : IVec s 32)
    (hb : S_.BroadcastsInDim s (![] : Fin 0 → Fin s.rank)) (i : s.Idx)
    (e : andi (cmpi .sge v (broadcastInDim s ![] hb (constantI S_ 32 0#32)))
              (cmpi .slt v (broadcastInDim s ![] hb (constantI S_ 32 100000#32))) i = 1#1) :
    0 ≤ (v i).toInt ∧ (v i).toInt < 100000 := by
  have e' : IntOp.andi (BitVec.ofBool ((0#32 : BitVec 32).sle (v i)))
      (BitVec.ofBool ((v i).slt (100000#32 : BitVec 32))) = 1#1 := e
  obtain ⟨h1, h2⟩ := IntOp.andi_eq_one.1 e'
  rw [StableHlo.Predicate.ofBool_eq_one_iff] at h1 h2
  have z : (0#32 : BitVec 32).toInt = 0 := by decide
  have c : (100000#32 : BitVec 32).toInt = 100000 := by decide
  simp only [BitVec.sle, BitVec.slt, decide_eq_true_eq, z, c] at h1 h2
  exact ⟨h1, h2⟩

/-! ## A `jnp.all` and a conjunction read back -/

/-- The conjunction of two rank-0 one-bit arrays is 1 only when both are. -/
theorem and_ix0 (a b : IVec S_ 1) (h : andi a b ValueIdx.ix0 = 1#1) :
    a ValueIdx.ix0 = 1#1 ∧ b ValueIdx.ix0 = 1#1 :=
  IntOp.andi_eq_one.1 h

/-- `jnp.all(|x| < +∞)` read back: every entry of `x` is a real number. -/
theorem real_of_all {s : Shape} {axes : List (Fin s.rank)} (x : FVec Ideal s .f32)
    (hb : S_.BroadcastsInDim s (![] : Fin 0 → Fin s.rank)) (hr : s.ReducesTo axes S_) (hS : 0 < S_.numel)
    (h : Host.reduce IntOp.andi
          (cmpf .olt (Host.absf x) (broadcastInDim s ![] hb (constant (F := Ideal) S_ .f32 0x7F800000#32)))
          (constantI S_ 1 1#1) hr hS ValueIdx.ix0 = 1#1) :
    ∀ i, ∃ r : ℝ, x i = (r : EReal) :=
  fun i => real_of_elem x hb i (Host.reduce_andi_all _ _ hr hS ValueIdx.ix0 h i)

/-- `jnp.all((v ≥ 0) & (v < 100000))` read back: every word, read signed, lies in `[0, 100000)`. -/
theorem range_of_all {s : Shape} {axes : List (Fin s.rank)} (v : IVec s 32)
    (hb : S_.BroadcastsInDim s (![] : Fin 0 → Fin s.rank)) (hr : s.ReducesTo axes S_) (hS : 0 < S_.numel)
    (h : Host.reduce IntOp.andi
          (andi (cmpi .sge v (broadcastInDim s ![] hb (constantI S_ 32 0#32)))
                (cmpi .slt v (broadcastInDim s ![] hb (constantI S_ 32 100000#32))))
          (constantI S_ 1 1#1) hr hS ValueIdx.ix0 = 1#1) :
    ∀ i, 0 ≤ (v i).toInt ∧ (v i).toInt < 100000 :=
  fun i => range_of_elem v hb i (Host.reduce_andi_all _ _ hr hS ValueIdx.ix0 h i)

/-! ## The printed predicate, part by part

The predicate is printed in four parts, each ending in the call of the next; a later part receives the
conjunction so far (a rank-0 bit) and, where a comparison was computed in the part before, that comparison's
array of bits. Each lemma reads one part: the incoming conjunction is 1, every bit of an incoming comparison
array is 1, and the facts of the `jnp.all`s the part itself closes. -/

section parts

variable [Cert.Pre_finite_inputs.Facts]

/-- The last part: the incoming conjunction, every bit of the incoming `moving_var ≥ 0` comparison, and the
    range of the source indices. -/
theorem part3 (a1 : IVec S1600000 32) (v48 : IVec S_ 1) (v50 : IVec S64 1)
    (h : fn_part3 (F := Ideal) a1 v48 v50 ValueIdx.ix0 = 1#1) :
    v48 ValueIdx.ix0 = 1#1 ∧ (∀ i, v50 i = 1#1) ∧ ∀ i, 0 ≤ (a1 i).toInt ∧ (a1 i).toInt < 100000 := by
  dsimp only [fn_part3] at h
  obtain ⟨h1, h2⟩ := and_ix0 _ _ h
  obtain ⟨h3, h4⟩ := and_ix0 _ _ h1
  exact ⟨h3, Host.reduce_andi_all _ _ _ _ ValueIdx.ix0 h4, range_of_all a1 _ _ _ h2⟩

/-- The third part: the incoming conjunction; `alpha`, the decoder's weight and its bias are real; the moving
    variance is at least zero; the source indices are in range. -/
theorem part2 (a1 : IVec S1600000 32) (a9 a10 : FVec Ideal S64 .f32) (a11 : FVec Ideal S64x1 .f32)
    (a12 : FVec Ideal S1 .f32) (v33 : IVec S_ 1)
    (h : fn_part2 (F := Ideal) a1 a9 a10 a11 a12 v33 ValueIdx.ix0 = 1#1) :
    v33 ValueIdx.ix0 = 1#1 ∧ (∀ i, ∃ r : ℝ, a10 i = (r : EReal)) ∧ (∀ i, ∃ r : ℝ, a11 i = (r : EReal))
      ∧ (∀ i, ∃ r : ℝ, a12 i = (r : EReal)) ∧ (∀ i, (0 : EReal) ≤ a9 i)
      ∧ ∀ i, 0 ≤ (a1 i).toInt ∧ (a1 i).toInt < 100000 := by
  dsimp only [fn_part2] at h
  obtain ⟨h48, h50, hsrc⟩ := part3 _ _ _ h
  obtain ⟨h43, h47⟩ := and_ix0 _ _ h48
  obtain ⟨h38, h42⟩ := and_ix0 _ _ h43
  obtain ⟨h33, h37⟩ := and_ix0 _ _ h38
  exact ⟨h33, real_of_all a10 _ _ _ h37, real_of_all a11 _ _ _ h42, real_of_all a12 _ _ _ h47,
    fun i => nonneg_of_elem a9 _ i (h50 i), hsrc⟩

/-- The second part: the incoming conjunction and every bit of the incoming `|gamma| < +∞` comparison;
    `beta`, the moving mean and the moving variance are real; then the third part's facts. -/
theorem part1 (a1 : IVec S1600000 32) (a7 a8 a9 a10 : FVec Ideal S64 .f32) (a11 : FVec Ideal S64x1 .f32)
    (a12 : FVec Ideal S1 .f32) (v13 : IVec S_ 1) (v16 : IVec S64 1)
    (h : fn_part1 (F := Ideal) a1 a7 a8 a9 a10 a11 a12 v13 v16 ValueIdx.ix0 = 1#1) :
    v13 ValueIdx.ix0 = 1#1 ∧ (∀ i, v16 i = 1#1)
      ∧ (∀ i, ∃ r : ℝ, a7 i = (r : EReal)) ∧ (∀ i, ∃ r : ℝ, a8 i = (r : EReal))
      ∧ (∀ i, ∃ r : ℝ, a9 i = (r : EReal))
      ∧ (∀ i, ∃ r : ℝ, a10 i = (r : EReal)) ∧ (∀ i, ∃ r : ℝ, a11 i = (r : EReal))
      ∧ (∀ i, ∃ r : ℝ, a12 i = (r : EReal)) ∧ (∀ i, (0 : EReal) ≤ a9 i)
      ∧ ∀ i, 0 ≤ (a1 i).toInt ∧ (a1 i).toInt < 100000 := by
  dsimp only [fn_part1] at h
  obtain ⟨h33, r10, r11, r12, nn9, hsrc⟩ := part2 _ _ _ _ _ _ h
  obtain ⟨h28, h32⟩ := and_ix0 _ _ h33
  obtain ⟨h23, h27⟩ := and_ix0 _ _ h28
  obtain ⟨h18, h22⟩ := and_ix0 _ _ h23
  obtain ⟨h13, h17⟩ := and_ix0 _ _ h18
  exact ⟨h13, Host.reduce_andi_all _ _ _ _ ValueIdx.ix0 h17, real_of_all a7 _ _ _ h22, real_of_all a8 _ _ _ h27,
    real_of_all a9 _ _ _ h32, r10, r11, r12, nn9, hsrc⟩

end parts

/-! ## The decoded precondition -/

/-- What `finite_inputs` says of the inputs at the ideal values: every float input is real at every entry, the
    moving variance is nowhere negative, and every source index, read signed, is a row of the node table. -/
structure Good (a0 : FVec Ideal S100000x64 .f32) (a1 : IVec S1600000 32) (a4 : FVec Ideal S64x64 .f32)
    (a5 a6 a7 a8 a9 a10 : FVec Ideal S64 .f32) (a11 : FVec Ideal S64x1 .f32) (a12 : FVec Ideal S1 .f32) : Prop where
  x_real : ∀ i, ∃ r : ℝ, a0 i = (r : EReal)
  w_real : ∀ i, ∃ r : ℝ, a4 i = (r : EReal)
  b_real : ∀ i, ∃ r : ℝ, a5 i = (r : EReal)
  g_real : ∀ i, ∃ r : ℝ, a6 i = (r : EReal)
  be_real : ∀ i, ∃ r : ℝ, a7 i = (r : EReal)
  mm_real : ∀ i, ∃ r : ℝ, a8 i = (r : EReal)
  mv_real : ∀ i, ∃ r : ℝ, a9 i = (r : EReal)
  al_real : ∀ i, ∃ r : ℝ, a10 i = (r : EReal)
  wd_real : ∀ i, ∃ r : ℝ, a11 i = (r : EReal)
  bd_real : ∀ i, ∃ r : ℝ, a12 i = (r : EReal)
  mv_nonneg : ∀ i, (0 : EReal) ≤ a9 i
  src_range : ∀ i, 0 ≤ (a1 i).toInt ∧ (a1 i).toInt < 100000

/-- The printed precondition, all ones at the ideal values, gives the decoded facts. The first part closes the
    `jnp.all`s of the node features, the weight and the bias, computes the comparison for `gamma`, and hands on
    to the second part. -/
theorem good_of_pre [Cert.Pre_finite_inputs.Facts] (a0 : FVec Ideal S100000x64 .f32) (a1 a2 : IVec S1600000 32)
    (a3 : IVec S100000 32) (a4 : FVec Ideal S64x64 .f32) (a5 a6 a7 a8 a9 a10 : FVec Ideal S64 .f32)
    (a11 : FVec Ideal S64x1 .f32) (a12 : FVec Ideal S1 .f32)
    (h : Cert.Pre_finite_inputs.fn (F := Ideal) a0 a1 a2 a3 a4 a5 a6 a7 a8 a9 a10 a11 a12 = fun _ => 1#1) :
    Good a0 a1 a4 a5 a6 a7 a8 a9 a10 a11 a12 := by
  have h0 : Cert.Pre_finite_inputs.fn (F := Ideal) a0 a1 a2 a3 a4 a5 a6 a7 a8 a9 a10 a11 a12 ValueIdx.ix0 = 1#1 :=
    congrFun h ValueIdx.ix0
  dsimp only [Cert.Pre_finite_inputs.fn] at h0
  obtain ⟨h13, h16, r7, r8, r9, r10, r11, r12, nn9, hsrc⟩ := part1 _ _ _ _ _ _ _ _ _ h0
  obtain ⟨h8, h12⟩ := and_ix0 _ _ h13
  obtain ⟨h3, h7⟩ := and_ix0 _ _ h8
  exact
    { x_real := real_of_all a0 _ _ _ h3
      w_real := real_of_all a4 _ _ _ h7
      b_real := real_of_all a5 _ _ _ h12
      g_real := fun i => real_of_elem a6 _ i (h16 i)
      be_real := r7
      mm_real := r8
      mv_real := r9
      al_real := r10
      wd_real := r11
      bd_real := r12
      mv_nonneg := nn9
      src_range := hsrc }

end Cert.PreFacts

end
-- ==== Proof.KValue.lean ====
/-
  The kernel program's result is the reference's function of the launch arrays, at the ideal values.

  The program runs a host stretch (the batch norm folded into the linear layer's weight and bias), the first
  pallas_call (the folded linear layer), two host stretches (the neighbour gather by source index; the scatter-add by
  destination index, the graph ids cut into blocks, the PReLU slopes as a row), the second pallas_call (per core, the
  one-hot-weighted PReLU rows of ten blocks accumulated) and a last host stretch (the two cores' slabs added, the
  dense head). Reading the buffer contents boundary by boundary:
    * the first pallas_call leaves  x · W' + b'  with W', b' the folded weight and bias, which on finite inputs with a
      non-negative variance is the reference's linear layer followed by batch norm;
    * the gather, with every source index a row of the node table, is the reference's messages;
    * the scatter-add is the reference's aggregation;
    * the two cores' slabs added are the reference's per-graph pooling of the PReLU of the aggregation;
    * the dense head is the reference's.
  An argument array is still as launched wherever a stage reads it, since nothing writes it.
-/
import proofs.«425288_j64493228916781_3_alg».proof.Proof.Run
import proofs.«425288_j64493228916781_3_alg».proof.Proof.Region0Value
import proofs.«425288_j64493228916781_3_alg».proof.Proof.Region1Value
import proofs.«425288_j64493228916781_3_alg».proof.Proof.HostReads
import proofs.«425288_j64493228916781_3_alg».proof.Proof.HostReads1
import proofs.«425288_j64493228916781_3_alg».proof.Proof.TakeFill
import proofs.«425288_j64493228916781_3_alg».proof.Proof.HBridge
import proofs.«425288_j64493228916781_3_alg».proof.Proof.PoolLaw
import proofs.«425288_j64493228916781_3_alg».proof.Proof.PreFacts
import proofs.«425288_j64493228916781_3_alg».proof.Proof.Chain
import Idealize.ShloMosaic.Lib.ValueIdx

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

/-! ## A buffer nothing has written yet is as launched, boundary by boundary -/

section Boundaries

variable {F : FTy → Type} [FloatOps F] (m : (ℓ : Loc nD τ sig) → Buf (Elt F) ℓ)

/-- After the first host stretch. -/
theorem W1_of (c : Dev nD) (b : Ref sig .tc) (h0 : b ∉ hostOps0_W) :
    W1 m c (Proc.devRef .tc b) = m ((c : Thread nD τ).loc b) :=
  StableHlo.after_of_writes_sub hostOps0 _ hostOps0_writes h0

/-- After the first region. -/
theorem W2_of (c : Dev nD) (b : Ref sig .tc) (h0 : b ∉ hostOps0_W) (hr0 : ∀ w, Pipeline.arrRef spec0 w ≠ b) :
    W2 m c (Proc.devRef .tc b) = m ((c : Thread nD τ).loc b) :=
  (W2_of_ne m c b hr0).trans (W1_of m c b h0)

/-- After the second host stretch. -/
theorem W3_of (c : Dev nD) (b : Ref sig .tc) (h0 : b ∉ hostOps0_W) (hr0 : ∀ w, Pipeline.arrRef spec0 w ≠ b)
    (h1 : b ∉ hostOps1_W) : W3 m c (Proc.devRef .tc b) = m ((c : Thread nD τ).loc b) :=
  (StableHlo.after_of_writes_sub hostOps1 _ hostOps1_writes h1).trans (W2_of m c b h0 hr0)

/-- After the third host stretch. -/
theorem W4_of (c : Dev nD) (b : Ref sig .tc) (h0 : b ∉ hostOps0_W) (hr0 : ∀ w, Pipeline.arrRef spec0 w ≠ b)
    (h1 : b ∉ hostOps1_W) (h11 : b ∉ hostOps1_1_W) : W4 m c (Proc.devRef .tc b) = m ((c : Thread nD τ).loc b) :=
  (StableHlo.after_of_writes_sub hostOps1_1 _ hostOps1_1_writes h11).trans (W3_of m c b h0 hr0 h1)

/-- After the second region. -/
theorem W5_of (c : Dev nD) (b : Ref sig .tc) (h0 : b ∉ hostOps0_W) (hr0 : ∀ w, Pipeline.arrRef spec0 w ≠ b)
    (h1 : b ∉ hostOps1_W) (h11 : b ∉ hostOps1_1_W) (hr1 : ∀ w, Pipeline.arrRef spec1 w ≠ b) :
    W5 m c (Proc.devRef .tc b) = m ((c : Thread nD τ).loc b) :=
  (W5_of_ne m c b hr1).trans (W4_of m c b h0 hr0 h1 h11)

end Boundaries

/-! ## The take, spelt two ways -/

/-- The masked take with its stages named (the wrapped index column, the range test) and with them written in
    place are the same composition of the same operations. -/
theorem takeK'_eq_takeK {F : FTy → Type} [FloatOps F] (h : FVec F S100000x64 .f32) (src : IVec S1600000 32) :
    Cert.KernelIdeal.HostReads.takeK' h src = Cert.TakeFill.takeK h src := by
  unfold Cert.KernelIdeal.HostReads.takeK' Cert.KernelIdeal.HostReads.wrapK Cert.KernelIdeal.HostReads.inRangeK
    Cert.TakeFill.takeK
  rfl

/-! ## The stages, one boundary at a time, at the ideal values -/

section Value

variable (m : (ℓ : Loc nD τ sig) → Buf (Elt Ideal) ℓ)

/-- After the first region the output array of the first pallas_call holds the reference's first stage: the region
    leaves the folded linear layer of the arrays it was entered with, those are the launch's node features and the
    host's folded weight and bias, and on finite inputs with a non-negative variance the folding is exact. -/
theorem first_stage (c : Dev nD) (hgood : Cert.PreFacts.Good (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) :
    W2 (F := Ideal) m c main_v11 = (Cert.Chain.hRef (F := Ideal) (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  have e0 : V1 m c main_arg0 = (m ((c : Thread nD τ).loc main_arg0)) := W1_of m c main_arg0 (by decide)
  have e6 : V1 m c main_v6 = Cert.KernelIdeal.KDefs.wpK (F := Ideal) (m ((c : Thread nD τ).loc main_arg4)) (m ((c : Thread nD τ).loc main_arg6)) (m ((c : Thread nD τ).loc main_arg9)) :=
    Cert.KernelIdeal.HostReads.after0_v6 (W0 m c)
  have e10 : V1 m c main_v10 = Cert.KernelIdeal.KDefs.bpK (F := Ideal) (m ((c : Thread nD τ).loc main_arg5)) (m ((c : Thread nD τ).loc main_arg8)) (m ((c : Thread nD τ).loc main_arg6)) (m ((c : Thread nD τ).loc main_arg9)) (m ((c : Thread nD τ).loc main_arg7)) :=
    Cert.KernelIdeal.HostReads.after0_v10 (W0 m c)
  have ea : W2 (F := Ideal) m c main_v11
      = Cert.KernelIdeal.KDefs.hK (V1 m c main_arg0) (V1 m c main_v6) (V1 m c main_v10) :=
    (W2_arr m c 3).trans (arr0_3 (V1 m) c)
  rw [ea, e0, e6, e10]
  exact Cert.HBridge.hK_eq_hRef _ _ _ _ _ _ _ hgood.x_real hgood.w_real hgood.b_real hgood.g_real hgood.be_real
    hgood.mm_real hgood.mv_real hgood.mv_nonneg

/-- After the second host stretch the gathered rows are the reference's messages: the masked take of the first stage
    by the launch's source indices, all of which are rows of the node table. -/
theorem messages (c : Dev nD) (hgood : Cert.PreFacts.Good (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) :
    W3 (F := Ideal) m c main_v12 = (Cert.Chain.msgs (F := Ideal) (Cert.Chain.hRef (F := Ideal) (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg1))) := by
  have e : W3 (F := Ideal) m c main_v12
      = Cert.KernelIdeal.HostReads.takeK' (F := Ideal) (W2 m c main_v11) (W2 m c main_arg1) :=
    Cert.KernelIdeal.HostReads.after1_v12 (W2 m c)
  have e1 : W2 (F := Ideal) m c main_arg1 = (m ((c : Thread nD τ).loc main_arg1)) := W2_of m c main_arg1 (by decide) (by decide)
  rw [e, takeK'_eq_takeK, first_stage m c hgood, e1]
  exact Cert.TakeFill.takeK_eq_msgs _ _ hgood.src_range

/-- The second region is entered with the aggregated messages as its node array, -/
theorem entered_v15 (c : Dev nD) (hgood : Cert.PreFacts.Good (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) :
    V4 (F := Ideal) m c main_v15 = (Cert.Chain.aggOf (F := Ideal) (Cert.Chain.msgs (F := Ideal) (Cert.Chain.hRef (F := Ideal) (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg1))) (m ((c : Thread nD τ).loc main_arg2))) := by
  have e : V4 (F := Ideal) m c main_v15 = Cert.Chain.aggOf (F := Ideal) (W3 m c main_v12) (W3 m c main_arg2) :=
    Cert.KernelIdeal.HostReads.after11_v15 (W3 m c)
  have e2 : W3 (F := Ideal) m c main_arg2 = (m ((c : Thread nD τ).loc main_arg2)) := W3_of m c main_arg2 (by decide) (by decide) (by decide)
  rw [e, messages m c hgood, e2]

/-- the launch's graph ids cut into 20 blocks of 5000, -/
theorem entered_v16 (c : Dev nD) :
    V4 (F := Ideal) m c main_v16 = Cert.KernelIdeal.HostReads.segK (m ((c : Thread nD τ).loc main_arg3)) := by
  have e : V4 (F := Ideal) m c main_v16 = Cert.KernelIdeal.HostReads.segK (W3 m c main_arg3) :=
    Cert.KernelIdeal.HostReads.after11_v16 (W3 m c)
  have e3 : W3 (F := Ideal) m c main_arg3 = (m ((c : Thread nD τ).loc main_arg3)) := W3_of m c main_arg3 (by decide) (by decide) (by decide)
  rw [e, e3]

/-- and the PReLU slopes as a row. -/
theorem entered_v17 (c : Dev nD) :
    V4 (F := Ideal) m c main_v17 = broadcastInDim S1x64 ![1] bcast_S64_S1x64_1 (m ((c : Thread nD τ).loc main_arg10)) := by
  have e : V4 (F := Ideal) m c main_v17 = broadcastInDim S1x64 ![1] bcast_S64_S1x64_1 (W3 m c main_arg10) :=
    Cert.KernelIdeal.HostReads.after11_v17 (W3 m c)
  have e10 : W3 (F := Ideal) m c main_arg10 = (m ((c : Thread nD τ).loc main_arg10)) := W3_of m c main_arg10 (by decide) (by decide) (by decide)
  rw [e, e10]

/-- After the second region each core's slab of the output array holds that core's accumulator after its tenth block. -/
theorem slabs (c : Dev nD) (c' : Fin 2) (g : Fin 128) (j : Fin 64) :
    W5 (F := Ideal) m c main_v18 (ValueIdx.ix3 c' g j)
      = Cert.PoolLaw.accK (V4 m c main_v15) (m ((c : Thread nD τ).loc main_arg3)) (m ((c : Thread nD τ).loc main_arg10)) c' 9 (by omega) (ValueIdx.ix2 g j) :=
  (congrFun (W5_arr m c 3) (ValueIdx.ix3 c' g j)).trans
    (arr1_3 (V4 m) c (m ((c : Thread nD τ).loc main_arg3)) (m ((c : Thread nD τ).loc main_arg10))
      (fun p r => (congrFun (entered_v16 m c) (ValueIdx.ix3 p (0 : Fin 1) r)).trans
        (Cert.KernelIdeal.HostReads.segK_apply (m ((c : Thread nD τ).loc main_arg3)) p r))
      (entered_v17 m c) c' g j)

/-- THE KERNEL PROGRAM'S RESULT is the reference's function of the launch arrays: the last host stretch adds the two
    cores' slabs and applies the dense head; the sum of the slabs is the per-graph pooling of the PReLU of the node
    array the second region was entered with; that array is the aggregation of the messages gathered from the first
    stage; and the first stage is the reference's. -/
theorem kernel_value (c : Dev nD) (hgood : Cert.PreFacts.Good (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) :
    W6 (F := Ideal) m c main_v23 = Cert.Chain.refOut (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have e : W6 (F := Ideal) m c main_v23
      = Cert.Chain.head (F := Ideal)
          (Host.reduceAdd (F := Ideal) (W5 m c main_v18) (constant (F := Ideal) S_ .f32 0x00000000#32) reducesTo_S2x128x64_S128x64_d0 h_S_)
          (W5 m c main_arg11) (W5 m c main_arg12) :=
    Cert.KernelIdeal.HostReads.after2_v23 (W5 m c)
  have e11 : W5 (F := Ideal) m c main_arg11 = (m ((c : Thread nD τ).loc main_arg11)) :=
    W5_of m c main_arg11 (by decide) (by decide) (by decide) (by decide) (by decide)
  have e12 : W5 (F := Ideal) m c main_arg12 = (m ((c : Thread nD τ).loc main_arg12)) :=
    W5_of m c main_arg12 (by decide) (by decide) (by decide) (by decide) (by decide)
  have ep := Cert.PoolLaw.pool_law (V4 m c main_v15) (m ((c : Thread nD τ).loc main_arg3)) (m ((c : Thread nD τ).loc main_arg10)) (W5 m c main_v18) (slabs m c)
  rw [e, ep, entered_v15 m c hgood, e11, e12]
  unfold Cert.Chain.refOut
  rfl

end Value

end Cert.KernelIdeal.Hand

end
-- ==== Proof.lean ====
/-
  A graph layer — linear map, inference-mode batch norm, sum of neighbour rows over the edges, PReLU, per-graph sum
  pooling, a dense head — computed by a program with two Pallas kernels, against its plain jnp reference, over the
  extended reals.

  The kernel folds the batch norm into the linear layer on the host: with `s = γ · rsqrt(var + ε)` per column it
  multiplies the rows by `W · s` and adds `(b − μ) · s + β`, where the reference computes
  `γ · ((rows · W + b) − μ) · rsqrt(var + ε) + β`. The two are one array when every float input is a finite real and
  `var ≥ 0` (so that the reciprocal root is a finite real and multiplication distributes over the 64-term sum): the
  precondition's finiteness and the conjunct `mov_var ≥ 0`. The neighbour gather is `jnp.take` in the kernel (rows
  whose index is out of range are replaced by a fill value through a mask) and `h[src]` in the reference (which
  clamps): one array when every source index is in range, the conjunct `0 ≤ src < 100000`. The scatter-add over the
  destinations and the PReLU are the same operations on both sides. The pooling is, in the kernel, a one-hot matrix
  (graph id against an iota) times the PReLU'd block of 5000 rows, accumulated over the ten blocks of each
  TensorCore's half of the nodes in a scratch accumulator and the two halves added on the host; in the reference one
  scatter-add by graph id: the same sum of the rows of each graph, in another order, on every input (`0 · x = 0` and
  `1 · x = x` on the extended reals, an id outside [0, 128) matching no row on either side). The dense head is the
  same on both sides.

  The frames: @main is six segments — host operations, the first kernel's region (its body stores the block's rows
  times the weight plus the bias row), host operations twice, the second kernel's region (three cases over the
  grid: the accumulator reset at the first of a core's ten steps, added to at every step, written to the output
  block at the last; the region's invariant carries the accumulator's contents from point to point), host operations
  — and every argument array is left as launched. The same text proves it for the word-level program and for its
  idealization, which are one program text read at two float families.
-/
import proofs.«425288_j64493228916781_3_alg».proof.Defs
import proofs.«425288_j64493228916781_3_alg».proof.Proof.Gen.Kernel
import proofs.«425288_j64493228916781_3_alg».proof.Proof.Gen.KernelIdeal
import proofs.«425288_j64493228916781_3_alg».proof.Proof.Gen.ReferenceIdeal
import proofs.«425288_j64493228916781_3_alg».proof.Proof.Gen.Pre_finite_inputs
import proofs.«425288_j64493228916781_3_alg».proof.Proof.Gen.ReferenceIdeal.Run
import proofs.«425288_j64493228916781_3_alg».proof.Proof.Run
import proofs.«425288_j64493228916781_3_alg».proof.Proof.BRun
import proofs.«425288_j64493228916781_3_alg».proof.Proof.KValue
import proofs.«425288_j64493228916781_3_alg».proof.Proof.RefH
import proofs.«425288_j64493228916781_3_alg».proof.Proof.PreFacts
import Idealize.ShloMosaic.Adequacy
import Idealize.ShloMosaic.Init

noncomputable section

namespace Cert.Proof

open Idealize.ShloMosaic Idealize.SL.Sem

/-- The word-level program runs to the end and leaves its arguments as launched. -/
theorem frame_k : Cert.frame_Kernel := fun m g _ => Cert.Kernel.Hand.frame (F := Bits) m g

/-- So does its idealization. -/
theorem frame_ki : Cert.frame_KernelIdeal := fun m g _ => Cert.KernelIdeal.Hand.frame (F := Ideal) m g

/-- The reference is host operations only: its run, with the result dropped. -/
theorem frame_ri : Cert.frame_ReferenceIdeal := fun m g _ =>
  (θ_run Cert.ReferenceIdeal.defs _ _).mono (fun _ h c => (h c).2) (Cert.ReferenceIdeal.Value.run (F := Ideal) m g)

/-- From memories agreeing on the arguments both programs end with one result: the kernel's last buffer holds the
    reference's function of the launch arrays. -/
theorem algebraic : Cert.algebraic_KernelIdeal_ReferenceIdeal := by
  intro m g m' g' hpre hagree
  refine ⟨fun c => Cert.KernelIdeal.Hand.W6 (F := Ideal) m c (Proc.devRef .tc Cert.KernelIdeal.main_v23),
    Cert.KernelIdeal.Hand.run_value (F := Ideal) m g, ?_⟩
  refine (θ_run Cert.ReferenceIdeal.defs _ _).mono (fun _ h c => ⟨(h c).1.trans ?_, (h c).2⟩)
    (Cert.ReferenceIdeal.Value.run (F := Ideal) m' g')
  have hgood := Cert.PreFacts.good_of_pre _ _ _ _ _ _ _ _ _ _ _ _ _ (hpre c)
  rw [Cert.RefH.res_eq_refOut m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
  exact (Cert.KernelIdeal.Hand.kernel_value m c hgood).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
